-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x24x6x2048 : Shape := ⟨4, ![64, 24, 6, 2048]⟩
abbrev S64x24x3x2048 : Shape := ⟨4, ![64, 24, 3, 2048]⟩
abbrev S_ : Shape := ⟨0, ![]⟩

class Facts : Prop where
  bcast_S_S64x24x6x2048 : S_.BroadcastsInDim S64x24x6x2048 (![] : Fin 0 → Fin S64x24x6x2048.rank)
  reducesTo_S64x24x6x2048_S_d0_1_2_3 : S64x24x6x2048.ReducesTo [0, 1, 2, 3] S_
  h_S_ : 0 < S_.numel
  bcast_S_S64x24x3x2048 : S_.BroadcastsInDim S64x24x3x2048 (![] : Fin 0 → Fin S64x24x3x2048.rank)
  reducesTo_S64x24x3x2048_S_d0_1_2_3 : S64x24x3x2048.ReducesTo [0, 1, 2, 3] S_

variable [Facts]

def fn {F : FTy → Type} [FloatOps F] (main_arg0 : FVec F S64x24x6x2048 .f32) (main_arg1 : FVec F S64x24x6x2048 .f32) (main_arg2 : FVec F S64x24x3x2048 .f32) : IVec S_ 1 :=
  let main_v0 : FVec F S64x24x6x2048 .f32 := Host.absf main_arg0
  let main_cst : FVec F S_ .f32 := constant S_ .f32 0x7F800000#32
  let main_v1 : FVec F S64x24x6x2048 .f32 := broadcastInDim S64x24x6x2048 ![] bcast_S_S64x24x6x2048 main_cst
  let main_v2 : IVec S64x24x6x2048 1 := cmpf .olt main_v0 main_v1
  let main_c : IVec S_ 1 := constantI S_ 1 1#1
  let main_v3 : IVec S_ 1 := (fun x v => Host.reduce IntOp.andi x v reducesTo_S64x24x6x2048_S_d0_1_2_3 h_S_) main_v2 main_c
  let main_v4 : FVec F S64x24x6x2048 .f32 := Host.absf main_arg1
  let main_cst_0 : FVec F S_ .f32 := constant S_ .f32 0x7F800000#32
  let main_v5 : FVec F S64x24x6x2048 .f32 := broadcastInDim S64x24x6x2048 ![] bcast_S_S64x24x6x2048 main_cst_0
  let main_v6 : IVec S64x24x6x2048 1 := cmpf .olt main_v4 main_v5
  let main_c_1 : IVec S_ 1 := constantI S_ 1 1#1
  let main_v7 : IVec S_ 1 := (fun x v => Host.reduce IntOp.andi x v reducesTo_S64x24x6x2048_S_d0_1_2_3 h_S_) main_v6 main_c_1
  let main_v8 : IVec S_ 1 := andi main_v3 main_v7
  let main_v9 : FVec F S64x24x3x2048 .f32 := Host.absf main_arg2
  let main_cst_2 : FVec F S_ .f32 := constant S_ .f32 0x7F800000#32
  let main_v10 : FVec F S64x24x3x2048 .f32 := broadcastInDim S64x24x3x2048 ![] bcast_S_S64x24x3x2048 main_cst_2
  let main_v11 : IVec S64x24x3x2048 1 := cmpf .olt main_v9 main_v10
  let main_c_3 : IVec S_ 1 := constantI S_ 1 1#1
  let main_v12 : IVec S_ 1 := (fun x v => Host.reduce IntOp.andi x v reducesTo_S64x24x3x2048_S_d0_1_2_3 h_S_) main_v11 main_c_3
  let main_v13 : IVec S_ 1 := andi main_v8 main_v12
  main_v13
-- ==== Kernel.lean ====
abbrev S64x24x6x2048 : Shape := ⟨4, ![64, 24, 6, 2048]⟩
abbrev S64x24x3x2048 : Shape := ⟨4, ![64, 24, 3, 2048]⟩
abbrev S1536x6x2048 : Shape := ⟨3, ![1536, 6, 2048]⟩
abbrev S1x1 : Shape := ⟨2, ![1, 1]⟩
abbrev S128x6x2048 : Shape := ⟨3, ![128, 6, 2048]⟩
abbrev S1x128x6x2048 : Shape := ⟨4, ![1, 128, 6, 2048]⟩
abbrev S1 : Shape := ⟨1, ![1]⟩
abbrev S1x1x1x1 : Shape := ⟨4, ![1, 1, 1, 1]⟩
abbrev S128x6x2047 : Shape := ⟨3, ![128, 6, 2047]⟩
abbrev S1x128x6x2047 : Shape := ⟨4, ![1, 128, 6, 2047]⟩
abbrev S_ : Shape := ⟨0, ![]⟩
abbrev S64x1x3x2048 : Shape := ⟨4, ![64, 1, 3, 2048]⟩
abbrev S64x3x2048 : Shape := ⟨3, ![64, 3, 2048]⟩
abbrev S64x4x3x2048 : Shape := ⟨4, ![64, 4, 3, 2048]⟩
abbrev S16x4x3x2048 : Shape := ⟨4, ![16, 4, 3, 2048]⟩
abbrev S16x4x1x2048 : Shape := ⟨4, ![16, 4, 1, 2048]⟩
abbrev S16x4x2048 : Shape := ⟨3, ![16, 4, 2048]⟩
abbrev S16x4x1x2047 : Shape := ⟨4, ![16, 4, 1, 2047]⟩
abbrev S16x4x2047 : Shape := ⟨3, ![16, 4, 2047]⟩
abbrev S1x16x4x2047 : Shape := ⟨4, ![1, 16, 4, 2047]⟩

abbrev nBuf : Space → Nat
  | .hbm => 39
  | .vmem => 14
  | .smem => 0
  | _ => 0

abbrev bufTy : (tb : Table) → Fin (tcTables nBuf tb) → BufTy
  | .hbm, ⟨0, _⟩ => ⟨S64x24x6x2048, .f32⟩
  | .hbm, ⟨1, _⟩ => ⟨S64x24x6x2048, .f32⟩
  | .hbm, ⟨2, _⟩ => ⟨S64x24x3x2048, .f32⟩
  | .hbm, ⟨3, _⟩ => ⟨S1536x6x2048, .f32⟩
  | .hbm, ⟨4, _⟩ => ⟨S1536x6x2048, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64x1x3x2048, .f32⟩
  | .hbm, ⟨14, _⟩ => ⟨S64x3x2048, .f32⟩
  | .hbm, ⟨15, _⟩ => ⟨S64x1x3x2048, .f32⟩
  | .hbm, ⟨16, _⟩ => ⟨S64x3x2048, .f32⟩
  | .hbm, ⟨17, _⟩ => ⟨S64x1x3x2048, .f32⟩
  | .hbm, ⟨18, _⟩ => ⟨S64x3x2048, .f32⟩
  | .hbm, ⟨19, _⟩ => ⟨S64x1x3x2048, .f32⟩
  | .hbm, ⟨20, _⟩ => ⟨S64x3x2048, .f32⟩
  | .hbm, ⟨21, _⟩ => ⟨S64x1x3x2048, .f32⟩
  | .hbm, ⟨22, _⟩ => ⟨S64x1x3x2048, .f32⟩
  | .hbm, ⟨23, _⟩ => ⟨S64x1x3x2048, .f32⟩
  | .hbm, ⟨24, _⟩ => ⟨S64x1x3x2048, .f32⟩
  | .hbm, ⟨25, _⟩ => ⟨S64x4x3x2048, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S128x6x2048, .f32⟩
  | .local _ .vmem, ⟨1, _⟩ => ⟨S128x6x2048, .f32⟩
  | .local _ .vmem, ⟨2, _⟩ => ⟨S128x6x2048, .f32⟩
  | .local _ .vmem, ⟨3, _⟩ => ⟨S128x6x2048, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S16x4x3x2048, .f32⟩
  | .local _ .vmem, ⟨9, _⟩ => ⟨S16x4x3x2048, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S64x24x6x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v37 : BitVec 1 := Scalar.cmpi .eq arg0 c11_i32
  let v38 : BitVec 32 := Scalar.extui v37
  let c0_i32_15 : BitVec 32 := 0#32
  let v39 : BitVec 1 := Scalar.cmpi .ne v38 c0_i32_15
  v39

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x6x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v51 : BitVec 1 := Scalar.cmpi .eq arg0 c3_i32
  let v52 : BitVec 32 := Scalar.extui v51
  let c0_i32_16 : BitVec 32 := 0#32
  let v53 : BitVec 1 := Scalar.cmpi .ne v52 c0_i32_16
  v53

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x4x3x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S64x24x6x2048_S1536x6x2048 : S64x24x6x2048.ShapeCasts S1536x6x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x6x2048_S128x6x2048_0_0_0 : ∀ a, (![0, 0, 0] : Fin 3 → Nat) a + S128x6x2048.size a ≤ S128x6x2048.size a
  h_S128x6x2048 : 0 < S128x6x2048.numel
  shapeCasts_S128x6x2048_S128x6x2048 : S128x6x2048.ShapeCasts S128x6x2048
  shapeCasts_S128x6x2048_S1x128x6x2048 : S128x6x2048.ShapeCasts S1x128x6x2048
  reduces_S1x128x6x2048_S1 : S1x128x6x2048.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  slices_S128x6x2048_o0_0_1_S128x6x2047 : S128x6x2048.Slices ![0, 0, 1] S128x6x2047
  slices_S128x6x2048_o0_0_0_S128x6x2047 : S128x6x2048.Slices ![0, 0, 0] S128x6x2047
  shapeCasts_S128x6x2047_S1x128x6x2047 : S128x6x2047.ShapeCasts S1x128x6x2047
  reduces_S1x128x6x2047_S1 : S1x128x6x2047.Reduces [1, 2, 3] S1
  shapeCasts_S1x1_S_ : S1x1.ShapeCasts S_
  slices_S64x24x3x2048_S64x1x3x2048_0_7_0_0 : S64x24x3x2048.Slices ![0, 7, 0, 0] S64x1x3x2048
  shapeCasts_S64x1x3x2048_S64x3x2048 : S64x1x3x2048.ShapeCasts S64x3x2048
  slices_S64x24x3x2048_S64x1x3x2048_0_8_0_0 : S64x24x3x2048.Slices ![0, 8, 0, 0] S64x1x3x2048
  slices_S64x24x3x2048_S64x1x3x2048_0_10_0_0 : S64x24x3x2048.Slices ![0, 10, 0, 0] S64x1x3x2048
  slices_S64x24x3x2048_S64x1x3x2048_0_11_0_0 : S64x24x3x2048.Slices ![0, 11, 0, 0] S64x1x3x2048
  bcast_S64x3x2048_S64x1x3x2048_0_2_3 : S64x3x2048.BroadcastsInDim S64x1x3x2048 (![0, 2, 3] : Fin 3 → Fin S64x1x3x2048.rank)
  concatenates_S64x1x3x2048_S64x1x3x2048_S64x1x3x2048_S64x1x3x2048_S64x4x3x2048_d1 : Shape.Concatenates [S64x1x3x2048, S64x1x3x2048, S64x1x3x2048, S64x1x3x2048] S64x4x3x2048 1
  inb_S16x4x3x2048_S16x4x3x2048_0_0_0_0 : ∀ a, (![0, 0, 0, 0] : Fin 4 → Nat) a + S16x4x3x2048.size a ≤ S16x4x3x2048.size a
  h_S16x4x3x2048 : 0 < S16x4x3x2048.numel
  shapeCasts_S16x4x3x2048_S16x4x3x2048 : S16x4x3x2048.ShapeCasts S16x4x3x2048
  slices_S16x4x3x2048_o0_0_1_0_S16x4x1x2048 : S16x4x3x2048.Slices ![0, 0, 1, 0] S16x4x1x2048
  shapeCasts_S16x4x1x2048_S16x4x2048 : S16x4x1x2048.ShapeCasts S16x4x2048
  slices_S16x4x3x2048_o0_0_0_1_S16x4x1x2047 : S16x4x3x2048.Slices ![0, 0, 0, 1] S16x4x1x2047
  shapeCasts_S16x4x1x2047_S16x4x2047 : S16x4x1x2047.ShapeCasts S16x4x2047
  slices_S16x4x3x2048_o0_0_0_0_S16x4x1x2047 : S16x4x3x2048.Slices ![0, 0, 0, 0] S16x4x1x2047
  slices_S16x4x3x2048_o0_0_2_1_S16x4x1x2047 : S16x4x3x2048.Slices ![0, 0, 2, 1] S16x4x1x2047
  slices_S16x4x3x2048_o0_0_2_0_S16x4x1x2047 : S16x4x3x2048.Slices ![0, 0, 2, 0] S16x4x1x2047
  slices_S16x4x2048_o0_0_1_S16x4x2047 : S16x4x2048.Slices ![0, 0, 1] S16x4x2047
  slices_S16x4x2048_o0_0_0_S16x4x2047 : S16x4x2048.Slices ![0, 0, 0] S16x4x2047
  shapeCasts_S16x4x2047_S1x16x4x2047 : S16x4x2047.ShapeCasts S1x16x4x2047
  reduces_S1x16x4x2047_S1 : S1x16x4x2047.Reduces [1, 2, 3] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x6x2048.size a ≤ S1536x6x2048.size a
  hwx0_0 : ∀ i : grid0.Coords, EltTy.bits .f32 = 32 ∨ (Rect.block (s := S1536x6x2048) S128x6x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x6x2048.size a ≤ S1536x6x2048.size a
  hwx0_1 : ∀ i : grid0.Coords, EltTy.bits .f32 = 32 ∨ (Rect.block (s := S1536x6x2048) S128x6x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x4x3x2048.size a ≤ S64x4x3x2048.size a
  hwx1_0 : ∀ i : grid1.Coords, EltTy.bits .f32 = 32 ∨ (Rect.block (s := S64x4x3x2048) S16x4x3x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev win0_0 : Pipeline.Window sig grid0 :=
  Pipeline.Window.ofSpec (Memref.whole main_v0) S128x6x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x6x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v19) S16x4x3x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_0) S1x1.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20_1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

class Facts : Prop extends Facts₀ where

variable [Facts]
-- ==== ReferenceIdeal.lean ====
abbrev S64x24x6x2048 : Shape := ⟨4, ![64, 24, 6, 2048]⟩
abbrev S64x24x3x2048 : Shape := ⟨4, ![64, 24, 3, 2048]⟩
abbrev S4 : Shape := ⟨1, ![4]⟩
abbrev S2 : Shape := ⟨1, ![2]⟩
abbrev S_ : Shape := ⟨0, ![]⟩
abbrev S64x24x6x2047 : Shape := ⟨4, ![64, 24, 6, 2047]⟩
abbrev S4x1 : Shape := ⟨2, ![4, 1]⟩
abbrev S64x4x3x2048 : Shape := ⟨4, ![64, 4, 3, 2048]⟩
abbrev S64x4x1x2048 : Shape := ⟨4, ![64, 4, 1, 2048]⟩
abbrev S64x4x2048 : Shape := ⟨3, ![64, 4, 2048]⟩
abbrev S64x4x3x2047 : Shape := ⟨4, ![64, 4, 3, 2047]⟩
abbrev S2x1 : Shape := ⟨2, ![2, 1]⟩
abbrev S64x4x2x2047 : Shape := ⟨4, ![64, 4, 2, 2047]⟩
abbrev S64x4x2047 : Shape := ⟨3, ![64, 4, 2047]⟩

abbrev nBuf : Space → Nat
  | .hbm => 83
  | .vmem => 0
  | .smem => 0
  | _ => 0

abbrev bufTy : (tb : Table) → Fin (tcTables nBuf tb) → BufTy
  | .hbm, ⟨0, _⟩ => ⟨S64x24x6x2048, .f32⟩
  | .hbm, ⟨1, _⟩ => ⟨S64x24x6x2048, .f32⟩
  | .hbm, ⟨2, _⟩ => ⟨S64x24x3x2048, .f32⟩
  | .hbm, ⟨3, _⟩ => ⟨S4, .i32⟩
  | .hbm, ⟨4, _⟩ => ⟨S2, .i32⟩
  | .hbm, ⟨5, _⟩ => ⟨S64x24x6x2048, .f32⟩
  | .hbm, ⟨6, _⟩ => ⟨S64x24x6x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x24x6x2047, .f32⟩
  | .hbm, ⟨12, _⟩ => ⟨S64x24x6x2047, .f32⟩
  | .hbm, ⟨13, _⟩ => ⟨S64x24x6x2047, .f32⟩
  | .hbm, ⟨14, _⟩ => ⟨S64x24x6x2047, .f32⟩
  | .hbm, ⟨15, _⟩ => ⟨S64x24x6x2047, .f32⟩
  | .hbm, ⟨16, _⟩ => ⟨S64x24x6x2047, .f32⟩
  | .hbm, ⟨17, _⟩ => ⟨S64x24x6x2047, .f32⟩
  | .hbm, ⟨18, _⟩ => ⟨S64x24x6x2047, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S4, .i32⟩
  | .hbm, ⟨25, _⟩ => ⟨S4, .i1⟩
  | .hbm, ⟨26, _⟩ => ⟨S_, .i32⟩
  | .hbm, ⟨27, _⟩ => ⟨S4, .i32⟩
  | .hbm, ⟨28, _⟩ => ⟨S4, .i32⟩
  | .hbm, ⟨29, _⟩ => ⟨S4, .i32⟩
  | .hbm, ⟨30, _⟩ => ⟨S4x1, .i32⟩
  | .hbm, ⟨31, _⟩ => ⟨S64x4x3x2048, .f32⟩
  | .hbm, ⟨32, _⟩ => ⟨S64x4x1x2048, .f32⟩
  | .hbm, ⟨33, _⟩ => ⟨S64x4x2048, .f32⟩
  | .hbm, ⟨34, _⟩ => ⟨S_, .f32⟩
  | .hbm, ⟨35, _⟩ => ⟨S64x4x2048, .f32⟩
  | .hbm, ⟨36, _⟩ => ⟨S64x4x2048, .f32⟩
  | .hbm, ⟨37, _⟩ => ⟨S_, .f32⟩
  | .hbm, ⟨38, _⟩ => ⟨S64x4x2048, .f32⟩
  | .hbm, ⟨39, _⟩ => ⟨S64x4x2048, .f32⟩
  | .hbm, ⟨40, _⟩ => ⟨S64x4x2048, .f32⟩
  | .hbm, ⟨41, _⟩ => ⟨S64x4x2048, .f32⟩
  | .hbm, ⟨42, _⟩ => ⟨S_, .f32⟩
  | .hbm, ⟨43, _⟩ => ⟨S64x4x2048, .f32⟩
  | .hbm, ⟨44, _⟩ => ⟨S64x4x2048, .f32⟩
  | .hbm, ⟨45, _⟩ => ⟨S_, .f32⟩
  | .hbm, ⟨46, _⟩ => ⟨S64x4x2048, .f32⟩
  | .hbm, ⟨47, _⟩ => ⟨S64x4x2048, .f32⟩
  | .hbm, ⟨48, _⟩ => ⟨S64x4x3x2047, .f32⟩
  | .hbm, ⟨49, _⟩ => ⟨S64x4x3x2047, .f32⟩
  | .hbm, ⟨50, _⟩ => ⟨S64x4x3x2047, .f32⟩
  | .hbm, ⟨51, _⟩ => ⟨S_, .i32⟩
  | .hbm, ⟨52, _⟩ => ⟨S2, .i32⟩
  | .hbm, ⟨53, _⟩ => ⟨S2, .i1⟩
  | .hbm, ⟨54, _⟩ => ⟨S_, .i32⟩
  | .hbm, ⟨55, _⟩ => ⟨S2, .i32⟩
  | .hbm, ⟨56, _⟩ => ⟨S2, .i32⟩
  | .hbm, ⟨57, _⟩ => ⟨S2, .i32⟩
  | .hbm, ⟨58, _⟩ => ⟨S2x1, .i32⟩
  | .hbm, ⟨59, _⟩ => ⟨S64x4x2x2047, .f32⟩
  | .hbm, ⟨60, _⟩ => ⟨S64x4x2047, .f32⟩
  | .hbm, ⟨61, _⟩ => ⟨S64x4x2047, .f32⟩
  | .hbm, ⟨62, _⟩ => ⟨S64x4x2047, .f32⟩
  | .hbm, ⟨63, _⟩ => ⟨S_, .f32⟩
  | .hbm, ⟨64, _⟩ => ⟨S64x4x2047, .f32⟩
  | .hbm, ⟨65, _⟩ => ⟨S64x4x2047, .f32⟩
  | .hbm, ⟨66, _⟩ => ⟨S64x4x2x2047, .f32⟩
  | .hbm, ⟨67, _⟩ => ⟨S_, .f32⟩
  | .hbm, ⟨68, _⟩ => ⟨S64x4x2047, .f32⟩
  | .hbm, ⟨69, _⟩ => ⟨S64x4x2047, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S64x24x6x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_c_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_v37 : Ref sig .tc := ⟨.hbm, 53, rfl⟩
abbrev main_c_11 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_cst_14 : Ref sig .tc := ⟨.hbm, 70, rfl⟩
abbrev main_v51 : Ref sig .tc := ⟨.hbm, 71, rfl⟩
abbrev main_cst_15 : Ref sig .tc := ⟨.hbm, 72, rfl⟩
abbrev main_v52 : Ref sig .tc := ⟨.hbm, 73, rfl⟩
abbrev main_cst_16 : Ref sig .tc := ⟨.hbm, 74, rfl⟩
abbrev main_v53 : Ref sig .tc := ⟨.hbm, 75, rfl⟩
abbrev main_v54 : Ref sig .tc := ⟨.hbm, 76, rfl⟩
abbrev main_cst_17 : Ref sig .tc := ⟨.hbm, 77, rfl⟩
abbrev main_v55 : Ref sig .tc := ⟨.hbm, 78, rfl⟩
abbrev main_v56 : Ref sig .tc := ⟨.hbm, 79, rfl⟩
abbrev main_cst_18 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  reducesTo_S64x24x6x2048_S_d0_1_2_3 : S64x24x6x2048.ReducesTo [0, 1, 2, 3] S_
  h_S_ : 0 < S_.numel
  slices_S64x24x6x2048_S64x24x6x2047_0_0_0_1 : S64x24x6x2048.Slices ![0, 0, 0, 1] S64x24x6x2047
  slices_S64x24x6x2048_S64x24x6x2047_0_0_0_0 : S64x24x6x2048.Slices ![0, 0, 0, 0] S64x24x6x2047
  reducesTo_S64x24x6x2047_S_d0_1_2_3 : S64x24x6x2047.ReducesTo [0, 1, 2, 3] S_
  bcast_S_S4 : S_.BroadcastsInDim S4 (![] : Fin 0 → Fin S4.rank)
  bcast_S4_S4x1_0 : S4.BroadcastsInDim S4x1 (![0] : Fin 1 → Fin S4x1.rank)
  slices_S64x4x3x2048_S64x4x1x2048_0_0_1_0 : S64x4x3x2048.Slices ![0, 0, 1, 0] S64x4x1x2048
  shapeCasts_S64x4x1x2048_S64x4x2048 : S64x4x1x2048.ShapeCasts S64x4x2048
  bcast_S_S64x4x2048 : S_.BroadcastsInDim S64x4x2048 (![] : Fin 0 → Fin S64x4x2048.rank)
  slices_S64x4x3x2048_S64x4x3x2047_0_0_0_1 : S64x4x3x2048.Slices ![0, 0, 0, 1] S64x4x3x2047
  slices_S64x4x3x2048_S64x4x3x2047_0_0_0_0 : S64x4x3x2048.Slices ![0, 0, 0, 0] S64x4x3x2047
  bcast_S_S2 : S_.BroadcastsInDim S2 (![] : Fin 0 → Fin S2.rank)
  bcast_S2_S2x1_0 : S2.BroadcastsInDim S2x1 (![0] : Fin 1 → Fin S2x1.rank)
  slices_S64x4x2048_S64x4x2047_0_0_1 : S64x4x2048.Slices ![0, 0, 1] S64x4x2047
  slices_S64x4x2048_S64x4x2047_0_0_0 : S64x4x2048.Slices ![0, 0, 0] S64x4x2047
  bcast_S_S64x4x2047 : S_.BroadcastsInDim S64x4x2047 (![] : Fin 0 → Fin S64x4x2047.rank)
  reducesTo_S64x4x2x2047_S64x4x2047_d2 : S64x4x2x2047.ReducesTo [2] S64x4x2047
  reducesTo_S64x4x2047_S_d0_1_2 : S64x4x2047.ReducesTo [0, 1, 2] S_
  gather_S64x24x3x2048_S4x1_S64x4x3x2048_023_1_n_n_1_1_64132048_wf : GatherDims.WF S64x24x3x2048 S4x1 S64x4x3x2048 [0, 2, 3] [1] [] [1] [] 1 ![64, 1, 3, 2048]
  gather_S64x4x3x2047_S2x1_S64x4x2x2047_013_2_n_n_2_1_64412047_wf : GatherDims.WF S64x4x3x2047 S2x1 S64x4x2x2047 [0, 1, 3] [2] [] [2] [] 1 ![64, 4, 1, 2047]

variable [Facts₀]

def gather_S64x24x3x2048_S4x1_S64x4x3x2048_023_1_n_n_1_1_64132048 : GatherDims S64x24x3x2048 S4x1 S64x4x3x2048 where
  offsetDims := [0, 2, 3]
  collapsedSliceDims := [1]
  operandBatchingDims := []
  startIndicesBatchingDims := []
  startIndexMap := [1]
  indexVectorDim := 1
  sliceSizes := ![64, 1, 3, 2048]
  wf := gather_S64x24x3x2048_S4x1_S64x4x3x2048_023_1_n_n_1_1_64132048_wf
def gather_S64x4x3x2047_S2x1_S64x4x2x2047_013_2_n_n_2_1_64412047 : GatherDims S64x4x3x2047 S2x1 S64x4x2x2047 where
  offsetDims := [0, 1, 3]
  collapsedSliceDims := [2]
  operandBatchingDims := []
  startIndicesBatchingDims := []
  startIndexMap := [2]
  indexVectorDim := 1
  sliceSizes := ![64, 4, 1, 2047]
  wf := gather_S64x4x3x2047_S2x1_S64x4x2x2047_013_2_n_n_2_1_64412047_wf

class Facts : Prop extends Facts₀ where

variable [Facts]
-- ==== Proof.K.Region0.lean ====
/-
  REGION 0 (the reconstruction / velocity kernel, grid of 12 tiles of 128 merged batch-joint rows) at entry contents V:
  the two running sums it keeps in scratch across the grid (squared reconstruction error, squared velocity error), the
  region invariant that carries them from tile to tile, the proof data (the outputs are stored at the last tile only,
  idle before), and the body obligation: at the first tile the sums start from zero, at every tile the tile's
  contribution is added, at the last tile the sums are copied to the two outputs.
-/
import proofs.«108107_j59631325938492_1_alg».proof.Proof.Gen.Kernel.Launch
import proofs.«108107_j59631325938492_1_alg».proof.Proof.Gen.Kernel.Skeleton
import proofs.«108107_j59631325938492_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The predicted and the target rotations of tile t, at their literal type. -/
abbrev predBlk (c : Dev nD) (t : Fin cfg0.N) : Vec F S128x6x2048 .f32 := iblk0 V c 0 t
abbrev targBlk (c : Dev nD) (t : Fin cfg0.N) : Vec F S128x6x2048 .f32 := iblk0 V c 1 t

/-- The two running sums after tile n: from zero at the first tile, each tile adding its contribution. -/
def acc0 (c : Dev nD) : (n : ℕ) → n < cfg0.N → Vec F S1x1 .f32 × Vec F S1x1 .f32
  | 0, hn => (k0_pay5 (predBlk V c ⟨0, hn⟩) (targBlk V c ⟨0, hn⟩) (k0_pay1 (F := F)),
              k0_pay6 (predBlk V c ⟨0, hn⟩) (targBlk V c ⟨0, hn⟩) (k0_pay2 (F := F)))
  | n + 1, hn => (k0_pay5 (predBlk V c ⟨n + 1, hn⟩) (targBlk V c ⟨n + 1, hn⟩) (acc0 c n (Nat.lt_of_succ_lt hn)).1,
                  k0_pay6 (predBlk V c ⟨n + 1, hn⟩) (targBlk V c ⟨n + 1, hn⟩) (acc0 c n (Nat.lt_of_succ_lt hn)).2)

theorem acc0_zero (c : Dev nD) (hn : 0 < cfg0.N) :
    acc0 V c 0 hn = (k0_pay5 (predBlk V c ⟨0, hn⟩) (targBlk V c ⟨0, hn⟩) (k0_pay1 (F := F)),
                     k0_pay6 (predBlk V c ⟨0, hn⟩) (targBlk V c ⟨0, hn⟩) (k0_pay2 (F := F))) := rfl

theorem acc0_succ (c : Dev nD) (n : ℕ) (hn : n + 1 < cfg0.N) :
    acc0 V c (n + 1) hn = (k0_pay5 (predBlk V c ⟨n + 1, hn⟩) (targBlk V c ⟨n + 1, hn⟩) (acc0 V c n (Nat.lt_of_succ_lt hn)).1,
                           k0_pay6 (predBlk V c ⟨n + 1, hn⟩) (targBlk V c ⟨n + 1, hn⟩) (acc0 V c n (Nat.lt_of_succ_lt hn)).2) := rfl

/-- The two scratch cells that hold the running sums. -/
abbrev scRecon : Memref sig .tc .vmem S1x1 .f32 := Memref.whole cc0_scratch0
abbrev scVel : Memref sig .tc .vmem S1x1 .f32 := Memref.whole cc0_scratch1

/-- The core's scoped buffers that this region neither stages nor uses as scratch (the other region's), each at some contents. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The region invariant before tile n: before the first tile every scoped buffer at anything; afterwards the two
    scratch cells at the running sums the tile before left, the other scoped buffers at anything, the generator
    register at some state. -/
def Phi0 (c : Dev nD) : (n : ℕ) → n ≤ cfg0.N → sProp 𝕄
  | 0, _ => Pipeline.ΦA spec0 c
  | n + 1, hn => iprop(owns (c : Thread nD τ) scRecon fullShare (acc0 V c n hn).1
      ∗ owns (c : Thread nD τ) scVel fullShare (acc0 V c n hn).2 ∗ otherScoped0 (F := F) c ∗ (∃ r, prngReg c r))

/-- The proof data of the region on core c: the arrays as the region finds them; after the body at tile t each input's
    buffer at its block, each output's at the running sum (consulted at the last tile only: the outputs are idle
    before); the region invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]

/-! ## The two branch conditions, in closed form over the grid -/

/-- The first-tile test, as the body computes it from the grid coordinate. -/
abbrev isFirst0 (i : grid0.Coords) : Prop :=
  (Scalar.cmpi .ne (Scalar.extui (Scalar.cmpi .eq (BitVec.ofNat 32 (i 0).val) 0#32)) 0#32) = 1#1
/-- It holds at tile 0 only. -/
theorem isFirst0_iff : ∀ t : Fin cfg0.N, isFirst0 (grid0.coords t) ↔ t.val = 0 :=
  (by decide +kernel : ∀ t : Fin grid0.N, isFirst0 (grid0.coords t) ↔ t.val = 0)

/-- The last-tile test. -/
abbrev isLast0 (i : grid0.Coords) : Prop := k0_cond2 i = 1#1
/-- It holds at tile 11 only. -/
theorem isLast0_iff : ∀ t : Fin cfg0.N, isLast0 (grid0.coords t) ↔ t.val = 11 :=
  (by decide +kernel : ∀ t : Fin grid0.N, isLast0 (grid0.coords t) ↔ t.val = 11)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Before the last tile the two outputs are idle and not written back. -/
theorem idle0_2 : ∀ t : Fin cfg0.N, ¬isLast0 (grid0.coords t) → cfg0.idle 2 (grid0.coords t) = true := by decide +kernel
theorem idle0_3 : ∀ t : Fin cfg0.N, ¬isLast0 (grid0.coords t) → cfg0.idle 3 (grid0.coords t) = true := by decide +kernel
theorem noflush0_2 : ∀ t : Fin cfg0.N, ¬isLast0 (grid0.coords t) → (cfg0.win 2).flush t = false := by decide +kernel
theorem noflush0_3 : ∀ t : Fin cfg0.N, ¬isLast0 (grid0.coords t) → (cfg0.win 3).flush t = false := by decide +kernel
/-- At the last tile they are live. -/
theorem liveLast0_2 : ∀ t : Fin cfg0.N, isLast0 (grid0.coords t) → cfg0.idle 2 (grid0.coords t) = false := by decide +kernel
theorem liveLast0_3 : ∀ t : Fin cfg0.N, isLast0 (grid0.coords t) → cfg0.idle 3 (grid0.coords t) = false := by decide +kernel

/-! ## Whole-cell reads and writes -/

/-- Zero offsets, as the body spells them. -/
theorem offs0_2 : (![0, 0] : Fin 2 → ℕ) = fun _ => 0 := funext fun a => by fin_cases a <;> rfl
theorem offs0_3 : (![0, 0, 0] : Fin 3 → ℕ) = fun _ => 0 := funext fun a => by fin_cases a <;> rfl

/-- A store of the whole one-element cell covers it, whatever was stored before. -/
theorem cell0_cover (w : Vec F S1x1 .f32) (L : List (View.Piece (Elt F) S1x1 .f32)) :
    ∀ y : S1x1.Idx, ∃ p ∈ ((⟨Rect.unit ![0, 0] S1x1.size inb_S1x1_S1x1_0_0, w⟩ : View.Piece (Elt F) S1x1 .f32) :: L), y ∈ p.1.set :=
  View.cover_of_wholeMem _ (View.Piece.wholeMem_here (by sl_kernel_rfl))

/-- A one-element cell stored whole, last, reads back as what was stored, whatever was stored before. -/
theorem cell0_store_read {m : Memref sig .tc .vmem S1x1 .f32} (f : m.view.ty.Contents (Elt F)) (w : Vec F S1x1 .f32)
    (L : List (View.Piece (Elt F) S1x1 .f32)) :
    m.view.read (Elt F) (m.view.writes (Elt F) f ((⟨Rect.unit ![0, 0] S1x1.size inb_S1x1_S1x1_0_0, w⟩ : View.Piece (Elt F) S1x1 .f32) :: L)) = w := by
  rw [View.read_writes_eq_canon _ _ _ (cell0_cover w L)]
  exact View.canon_cons_unit_zero (S := S1x1) offs0_2 inb_S1x1_S1x1_0_0 w L

/-- A whole load of a whole cell reads its contents. -/
theorem cell0_load {m : Memref sig .tc .vmem S1x1 .f32} (h : m.IsWhole) (X : Vec F S1x1 .f32) :
    View.readAt (Elt F) m.view (Rect.unit ![0, 0] S1x1.size inb_S1x1_S1x1_0_0).toLoadRect (h.unread X) = X := by
  rw [View.readAt_eq_ld, h.read_unread]
  exact View.ld_unit_zero (S := S1x1) offs0_2 inb_S1x1_S1x1_0_0 X

/-- A whole load of a whole input block reads its contents. -/
theorem block0_load {m : Memref sig .tc .vmem S128x6x2048 .f32} (h : m.IsWhole) (X : Vec F S128x6x2048 .f32) :
    View.readAt (Elt F) m.view (Rect.unit ![0, 0, 0] S128x6x2048.size inb_S128x6x2048_S128x6x2048_0_0_0).toLoadRect (h.unread X) = X := by
  rw [View.readAt_eq_ld, h.read_unread]
  exact View.ld_unit_zero (S := S128x6x2048) offs0_3 inb_S128x6x2048_S128x6x2048_0_0_0 X

/-- A whole load of a cell after one whole store reads what was stored. -/
theorem cell0_load_stored {m : Memref sig .tc .vmem S1x1 .f32} (w : Vec F S1x1 .f32) :
    m.view.readCov [(⟨Rect.unit ![0, 0] S1x1.size inb_S1x1_S1x1_0_0, w⟩ : View.Piece (Elt F) S1x1 .f32)]
      (Rect.unit ![0, 0] S1x1.size inb_S1x1_S1x1_0_0).toLoadRect = w :=
  View.readCov_unit_zero (S := S1x1) m.view offs0_2 inb_S1x1_S1x1_0_0 w

/-! ## The body's run in each of the three control cases

Stated over the body function's call on any whole memrefs, with the contents each case leaves NAMED. -/

set_option maxHeartbeats 1000000 in
/-- FIRST tile (the first-tile test holds, the last-tile test fails). On whole memrefs, the two input blocks at x0, x1,
    the two outputs' buffers at y2, y3 and both scratch cells at anything, the body runs to the continuation with the inputs
    and the outputs' buffers as they were and the scratch cells at the tile's contribution added to zero: the cells are
    zeroed, read back, and stored with the contribution added. -/
theorem run0_first (c : Dev nD) (i : grid0.Coords)
    (arg1 : Memref sig .tc .vmem S128x6x2048 .f32) (harg1 : arg1.IsWhole)
    (arg2 : Memref sig .tc .vmem S128x6x2048 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x1 .f32) (harg6 : arg6.IsWhole)
    (hf : isFirst0 i) (hl : ¬isLast0 i)
    (x0 x1 : Vec F S128x6x2048 .f32) (y2 y3 : Vec F S1x1 .f32) (E : Set ℕ) (K : PUnit → sProp 𝕄) :
    iprop(owns (c : Thread nD τ) arg1 fullShare x0 ∗ owns (c : Thread nD τ) arg2 fullShare x1
        ∗ owns (c : Thread nD τ) arg3 fullShare y2 ∗ owns (c : Thread nD τ) arg4 fullShare y3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare y2 ∗ owns (c : Thread nD τ) arg4 fullShare y3
            ∗ owns (c : Thread nD τ) arg5 fullShare (k0_pay5 x0 x1 (k0_pay1 (F := F))) ∗ owns (c : Thread nD τ) arg6 fullShare (k0_pay6 x0 x1 (k0_pay2 (F := F)))) -∗ K ⟨⟩))
      ⊢ wp frame (wpE (defs₀ (F := F)) Variants.none c none) E (cc0__recon_vel_kernel i arg1 harg1 arg2 harg2 arg3 harg3 arg4 harg4 arg5 harg5 arg6 harg6) K := by
  simp only [cc0__recon_vel_kernel_eq_skeleton]; unfold cc0__recon_vel_kernel_skel
  simp only [k0_part1_eq_skeleton]
  unfold owns

  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2; obtain rfl := harg3.eq_unread hf3
  obtain rfl := harg4.eq_unread hf4
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [cell0_store_read, block0_load, block0_load, cell0_load_stored]
  · iexists _; isplitr
    swap; · iexact H6
    ipureintro
    sl_unfold_words
    rw [cell0_store_read, block0_load, block0_load, cell0_load_stored]

set_option maxHeartbeats 1000000 in
/-- MIDDLE tiles (both tests fail). With the scratch cells at the sums so far a, b, the body leaves them at the tile's
    contribution added to a and to b; inputs and the outputs' buffers as they were. -/
theorem run0_mid (c : Dev nD) (i : grid0.Coords)
    (arg1 : Memref sig .tc .vmem S128x6x2048 .f32) (harg1 : arg1.IsWhole)
    (arg2 : Memref sig .tc .vmem S128x6x2048 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x1 .f32) (harg6 : arg6.IsWhole)
    (hf : ¬isFirst0 i) (hl : ¬isLast0 i)
    (x0 x1 : Vec F S128x6x2048 .f32) (y2 y3 a b : Vec F S1x1 .f32) (E : Set ℕ) (K : PUnit → sProp 𝕄) :
    iprop(owns (c : Thread nD τ) arg1 fullShare x0 ∗ owns (c : Thread nD τ) arg2 fullShare x1
        ∗ owns (c : Thread nD τ) arg3 fullShare y2 ∗ owns (c : Thread nD τ) arg4 fullShare y3
        ∗ owns (c : Thread nD τ) arg5 fullShare a ∗ owns (c : Thread nD τ) arg6 fullShare b
        ∗ (iprop(owns (c : Thread nD τ) arg1 fullShare x0 ∗ owns (c : Thread nD τ) arg2 fullShare x1
            ∗ owns (c : Thread nD τ) arg3 fullShare y2 ∗ owns (c : Thread nD τ) arg4 fullShare y3
            ∗ owns (c : Thread nD τ) arg5 fullShare (k0_pay5 x0 x1 a) ∗ owns (c : Thread nD τ) arg6 fullShare (k0_pay6 x0 x1 b)) -∗ K ⟨⟩))
      ⊢ wp frame (wpE (defs₀ (F := F)) Variants.none c none) E (cc0__recon_vel_kernel i arg1 harg1 arg2 harg2 arg3 harg3 arg4 harg4 arg5 harg5 arg6 harg6) K := by
  simp only [cc0__recon_vel_kernel_eq_skeleton]; unfold cc0__recon_vel_kernel_skel
  simp only [k0_part1_eq_skeleton]
  unfold owns

  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [cell0_store_read, block0_load, block0_load, cell0_load]
  · iexists _; isplitr
    swap; · iexact H6
    ipureintro
    rw [cell0_store_read, block0_load, block0_load, cell0_load]

set_option maxHeartbeats 1000000 in
/-- LAST tile (the first-tile test fails, the last-tile test holds). As at a middle tile, and the two outputs'
    buffers, at anything before, are left at the new sums: each is a copy of its scratch cell read back after the store. -/
theorem run0_last (c : Dev nD) (i : grid0.Coords)
    (arg1 : Memref sig .tc .vmem S128x6x2048 .f32) (harg1 : arg1.IsWhole)
    (arg2 : Memref sig .tc .vmem S128x6x2048 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x1 .f32) (harg6 : arg6.IsWhole)
    (hf : ¬isFirst0 i) (hl : isLast0 i)
    (x0 x1 : Vec F S128x6x2048 .f32) (a b : Vec F S1x1 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare a ∗ owns (c : Thread nD τ) arg6 fullShare b
        ∗ (iprop(owns (c : Thread nD τ) arg1 fullShare x0 ∗ owns (c : Thread nD τ) arg2 fullShare x1
            ∗ owns (c : Thread nD τ) arg3 fullShare (k0_pay5 x0 x1 a) ∗ owns (c : Thread nD τ) arg4 fullShare (k0_pay6 x0 x1 b)
            ∗ owns (c : Thread nD τ) arg5 fullShare (k0_pay5 x0 x1 a) ∗ owns (c : Thread nD τ) arg6 fullShare (k0_pay6 x0 x1 b)) -∗ K ⟨⟩))
      ⊢ wp frame (wpE (defs₀ (F := F)) Variants.none c none) E (cc0__recon_vel_kernel i arg1 harg1 arg2 harg2 arg3 harg3 arg4 harg4 arg5 harg5 arg6 harg6) K := by
  simp only [cc0__recon_vel_kernel_eq_skeleton]; unfold cc0__recon_vel_kernel_skel
  simp only [k0_part1_eq_skeleton]
  unfold owns

  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    refine (cell0_store_read (m := arg3) f3 _ []).trans ?_
    refine (cell0_load_stored (m := arg5) _).trans ?_
    rw [block0_load, block0_load, cell0_load]
  isplitl [H4]
  · iexists _; isplitr
    swap; · iexact H4
    ipureintro
    sl_unfold_words
    refine (cell0_store_read (m := arg4) f4 _ []).trans ?_
    refine (cell0_load_stored (m := arg6) _).trans ?_
    rw [block0_load, block0_load, cell0_load]
  isplitl [H5]
  · iexists _; isplitr
    swap; · iexact H5
    ipureintro
    sl_unfold_words
    rw [cell0_store_read, block0_load, block0_load, cell0_load]
  · iexists _; isplitr
    swap; · iexact H6
    ipureintro
    sl_unfold_words
    rw [cell0_store_read, block0_load, block0_load, cell0_load]

/-! ## The running sums tile by tile -/

/-- At the first tile the sums start from zero. -/
theorem acc0_first (c : Dev nD) (t : Fin cfg0.N) (hz : t.val = 0) :
    acc0 V c t.val t.isLt = (k0_pay5 (predBlk V c t) (targBlk V c t) (k0_pay1 (F := F)),
                             k0_pay6 (predBlk V c t) (targBlk V c t) (k0_pay2 (F := F))) := by
  obtain ⟨n, hn⟩ := t
  cases n with
  | zero => rfl
  | succ n => exact absurd hz (Nat.succ_ne_zero n)

/-- At a later tile they continue from the tile before. -/
theorem acc0_later (c : Dev nD) (t : Fin cfg0.N) (hz : t.val ≠ 0) :
    acc0 V c t.val t.isLt
      = (k0_pay5 (predBlk V c t) (targBlk V c t) (acc0 V c (t.val - 1) (Nat.lt_of_le_of_lt (Nat.sub_le _ _) t.isLt)).1,
         k0_pay6 (predBlk V c t) (targBlk V c t) (acc0 V c (t.val - 1) (Nat.lt_of_le_of_lt (Nat.sub_le _ _) t.isLt)).2) := by
  obtain ⟨n, hn⟩ := t
  cases n with
  | zero => exact absurd rfl hz
  | succ n => rfl

/-! ## The region invariant, opened -/

/-- Before the first tile: both scratch cells at anything. -/
theorem PhiA0_open (c : Dev nD) :
    (Pipeline.ΦA spec0 c : sProp 𝕄)
      = iprop(((∃ d, owns (c : Thread nD τ) scRecon fullShare d) ∗ (∃ d, owns (c : Thread nD τ) scVel fullShare d)
          ∗ otherScoped0 (F := F) c) ∗ (∃ r, prngReg c r)) := by
  unfold Pipeline.ΦA; rw [scopedRest0_eq]; unfold otherScoped0; simp only [scRecon, scVel, owns_whole]; try rfl

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scRecon fullShare (acc0 V c n hn).1
      ∗ owns (c : Thread nD τ) scVel fullShare (acc0 V c n hn).2 ∗ otherScoped0 (F := F) c ∗ (∃ r, prngReg c r)) := rfl

theorem Phi0_pos (c : Dev nD) (n : ℕ) (h : n ≤ cfg0.N) (hz : n ≠ 0) :
    Phi0 V c n h = iprop(owns (c : Thread nD τ) scRecon fullShare (acc0 V c (n - 1) (by omega)).1
      ∗ owns (c : Thread nD τ) scVel fullShare (acc0 V c (n - 1) (by omega)).2 ∗ otherScoped0 (F := F) c ∗ (∃ r, prngReg c r)) := by
  cases n with
  | zero => exact absurd rfl hz
  | succ n => rfl

/-- The invariant at a tile's start, restated at the tile's number. -/
theorem Phi0_castSucc (c : Dev nD) (t : Fin cfg0.N) :
    (dat0 V c).Φ t.castSucc = Phi0 V c t.val (Nat.le_of_lt t.isLt) := by
  dsimp only [dat0]; simp only [Fin.coe_castSucc]

/-! ## The inputs' staging buffers hold their blocks -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation at a generic tile -/

/-- Each window's current staging memref at tile t, as the pipeline passes it to the body, and its wholeness. -/
abbrev cur0_0 (t : Fin cfg0.N) : Memref sig .tc .vmem S128x6x2048 .f32 := win0_0.stage (cfg0.slots t 0)
abbrev cur0_1 (t : Fin cfg0.N) : Memref sig .tc .vmem S128x6x2048 .f32 := win0_1.stage (cfg0.slots t 1)
abbrev cur0_2 (t : Fin cfg0.N) : Memref sig .tc .vmem S1x1 .f32 := win0_2.stage (cfg0.slots t 2)
abbrev cur0_3 (t : Fin cfg0.N) : Memref sig .tc .vmem S1x1 .f32 := win0_3.stage (cfg0.slots t 3)

/-- What the body is called with at tile t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (cur0_0 t) fullShare ((dat0 V c).before 0 t d))
    ∗ (∃ d, owns (c : Thread nD τ) (cur0_1 t) fullShare ((dat0 V c).before 1 t d))
    ∗ (∃ d, owns (c : Thread nD τ) (cur0_2 t) fullShare ((dat0 V c).before 2 t d))
    ∗ (∃ d, owns (c : Thread nD τ) (cur0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

set_option maxHeartbeats 4800000 in
/-- The body at any tile. The inputs' buffers hold their blocks; the tile's number says which of the three control
    cases it is in. At the first tile the invariant hands over both scratch cells at anything and takes them back at the
    tile's contribution added to zero; later it hands them over at the sums so far and takes them back with the tile's
    contribution added. Before the last tile the outputs' buffers go back untouched (idle, not written back); at the
    last tile they are left at the final sums. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (cur0_0 t) fullShare ((dat0 V c).after 0 t) from by
    unfold Dat.leavesExact; rw [live0_0 t], after0_0]
  rw [show (dat0 V c).leavesExact 1 t = owns (c : Thread nD τ) (cur0_1 t) fullShare ((dat0 V c).after 1 t) from by
    unfold Dat.leavesExact; rw [live0_1 t], after0_1]
  have hN : t.val < 12 := lt_of_lt_of_eq t.isLt (show cfg0.N = 12 from N_0)
  by_cases hlast : t.val = 11
  · have hL : isLast0 (grid0.coords t) := (isLast0_iff t).mpr hlast
    have hF : ¬isFirst0 (grid0.coords t) := fun h => by have := (isFirst0_iff t).mp h; omega
    have hz : t.val ≠ 0 := by omega
    rw [show (dat0 V c).leavesExact 2 t = owns (c : Thread nD τ) (cur0_2 t) fullShare ((dat0 V c).after 2 t) from by
      unfold Dat.leavesExact; rw [liveLast0_2 t hL], after0_2]
    rw [show (dat0 V c).leavesExact 3 t = owns (c : Thread nD τ) (cur0_3 t) fullShare ((dat0 V c).after 3 t) from by
      unfold Dat.leavesExact; rw [liveLast0_3 t hL], after0_3]
    rw [acc0_later V c t hz]; dsimp only
    rw [Phi0_castSucc V c t, Phi0_pos V c _ _ hz]
    iintro ⟨⟨HS0, HS1, Hother, Hg⟩, Ho, ⟨%d0, H0⟩, ⟨%d1, H1⟩, ⟨%d2, H2⟩, ⟨%d3, H3⟩⟩
    iapply (run0_last c (grid0.coords t) _ _ _ _ _ _ _ _ _ _ _ _ hF hL (predBlk V c t) (targBlk V c t)
      (acc0 V c (t.val - 1) (Nat.lt_of_le_of_lt (Nat.sub_le _ _) t.isLt)).1
      (acc0 V c (t.val - 1) (Nat.lt_of_le_of_lt (Nat.sub_le _ _) t.isLt)).2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hother Hg]
    · isplitl [HS0]; · iexact HS0
      isplitl [HS1]; · iexact HS1
      isplitl [Hother]; · iexact Hother
      iexact Hg
    isplitl [Ho]; · iexact Ho
    isplitl [H0]; · iexact H0
    isplitl [H1]; · iexact H1
    isplitl [H2]; · iexact H2
    iexact H3
  · have hL : ¬isLast0 (grid0.coords t) := fun h => hlast ((isLast0_iff t).mp h)
    rw [Dat.leavesExact_idle (dat0 V c) 2 t (idle0_2 t hL) (noflush0_2 t hL)]
    rw [Dat.leavesExact_idle (dat0 V c) 3 t (idle0_3 t hL) (noflush0_3 t hL)]
    by_cases hz : t.val = 0
    · have hF : isFirst0 (grid0.coords t) := (isFirst0_iff t).mpr hz
      rw [acc0_first V c t hz]; dsimp only
      rw [Phi0_castSucc V c t, Phi0_zero V c _ _ hz, PhiA0_open]
      iintro ⟨⟨⟨HS0, HS1, Hother⟩, Hg⟩, Ho, ⟨%d0, H0⟩, ⟨%d1, H1⟩, ⟨%d2, H2⟩, ⟨%d3, H3⟩⟩
      iapply (run0_first c (grid0.coords t) _ _ _ _ _ _ _ _ _ _ _ _ hF hL (predBlk V c t) (targBlk V c t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hother Hg]
      · isplitl [HS0]; · iexact HS0
        isplitl [HS1]; · iexact HS1
        isplitl [Hother]; · iexact Hother
        iexact Hg
      isplitl [Ho]; · iexact Ho
      isplitl [H0]; · iexact H0
      isplitl [H1]; · iexact H1
      isplitl [H2]; · iexists _; iexact H2
      iexists _; iexact H3
    · have hF : ¬isFirst0 (grid0.coords t) := fun h => hz ((isFirst0_iff t).mp h)
      rw [acc0_later V c t hz]; dsimp only
      rw [Phi0_castSucc V c t, Phi0_pos V c _ _ hz]
      iintro ⟨⟨HS0, HS1, Hother, Hg⟩, Ho, ⟨%d0, H0⟩, ⟨%d1, H1⟩, ⟨%d2, H2⟩, ⟨%d3, H3⟩⟩
      iapply (run0_mid c (grid0.coords t) _ _ _ _ _ _ _ _ _ _ _ _ hF hL (predBlk V c t) (targBlk V c t) _ _
        (acc0 V c (t.val - 1) (Nat.lt_of_le_of_lt (Nat.sub_le _ _) t.isLt)).1
        (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hother Hg]
      · isplitl [HS0]; · iexact HS0
        isplitl [HS1]; · iexact HS1
        isplitl [Hother]; · iexact Hother
        iexact Hg
      isplitl [Ho]; · iexact Ho
      isplitl [H0]; · iexact H0
      isplitl [H1]; · iexact H1
      isplitl [H2]; · iexists _; iexact H2
      iexists _; iexact H3

/-- The body obligation of the region, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last tile the invariant gives the scoped buffers back at some contents: the sums' names are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 12 := N_0; omega), PhiA0_open]
  iintro ⟨HS0, HS1, Hother, Hg⟩
  isplitl [HS0 HS1 Hother]
  · isplitl [HS0]; · iexists _; iexact HS0
    isplitl [HS1]; · iexists _; iexact HS1
    iexact Hother
  iexact Hg

end Cert.Kernel.Hand

end
-- ==== Proof.K.Region1.lean ====
/-
  REGION 1 (the foot-contact kernel, grid of 4 tiles of 16 batches of the gathered foot joints) at entry contents V:
  the two running sums it keeps in scratch across the grid (the sliding penalty and the contact weight of the frame
  steps), the region invariant that carries them from tile to tile, the proof data (the outputs are stored at the last
  tile only, idle before), and the body obligation: at the first tile the sums start from zero, at every tile the
  tile's contribution is added, at the last tile the sums are copied to the two outputs.
-/
import proofs.«108107_j59631325938492_1_alg».proof.Proof.Gen.Kernel.Launch
import proofs.«108107_j59631325938492_1_alg».proof.Proof.Gen.Kernel.Skeleton
import proofs.«108107_j59631325938492_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The foot joints' positions of tile t, at their literal type. -/
abbrev footBlk (c : Dev nD) (t : Fin cfg1.N) : Vec F S16x4x3x2048 .f32 := iblk1 V c 0 t

/-- The two running sums after tile n: from zero at the first tile, each tile adding its contribution. -/
def acc1 (c : Dev nD) : (n : ℕ) → n < cfg1.N → Vec F S1x1 .f32 × Vec F S1x1 .f32
  | 0, hn => (k1_pay6 (footBlk V c ⟨0, hn⟩) (k1_pay2 (F := F)),
              k1_pay1 (k1_pay5 (footBlk V c ⟨0, hn⟩)) (k1_pay3 (F := F)))
  | n + 1, hn => (k1_pay6 (footBlk V c ⟨n + 1, hn⟩) (acc1 c n (Nat.lt_of_succ_lt hn)).1,
                  k1_pay1 (k1_pay5 (footBlk V c ⟨n + 1, hn⟩)) (acc1 c n (Nat.lt_of_succ_lt hn)).2)

theorem acc1_zero (c : Dev nD) (hn : 0 < cfg1.N) :
    acc1 V c 0 hn = (k1_pay6 (footBlk V c ⟨0, hn⟩) (k1_pay2 (F := F)),
                     k1_pay1 (k1_pay5 (footBlk V c ⟨0, hn⟩)) (k1_pay3 (F := F))) := rfl

theorem acc1_succ (c : Dev nD) (n : ℕ) (hn : n + 1 < cfg1.N) :
    acc1 V c (n + 1) hn = (k1_pay6 (footBlk V c ⟨n + 1, hn⟩) (acc1 V c n (Nat.lt_of_succ_lt hn)).1,
                           k1_pay1 (k1_pay5 (footBlk V c ⟨n + 1, hn⟩)) (acc1 V c n (Nat.lt_of_succ_lt hn)).2) := rfl

/-- The two scratch cells that hold the running sums. -/
abbrev scSlide : Memref sig .tc .vmem S1x1 .f32 := Memref.whole cc1_scratch0
abbrev scContact : Memref sig .tc .vmem S1x1 .f32 := Memref.whole cc1_scratch1

/-- The core's scoped buffers that this region neither stages nor uses as scratch (the other region's), each at some contents. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The region invariant before tile n: before the first tile every scoped buffer at anything; afterwards the two
    scratch cells at the running sums the tile before left, the other scoped buffers at anything, the generator
    register at some state. -/
def Phi1 (c : Dev nD) : (n : ℕ) → n ≤ cfg1.N → sProp 𝕄
  | 0, _ => Pipeline.ΦA spec1 c
  | n + 1, hn => iprop(owns (c : Thread nD τ) scSlide fullShare (acc1 V c n hn).1
      ∗ owns (c : Thread nD τ) scContact fullShare (acc1 V c n hn).2 ∗ otherScoped1 (F := F) c ∗ (∃ r, prngReg c r))

/-- The proof data of the region on core c: the arrays as the region finds them; after the body at tile t each input's
    buffer at its block, each output's at the running sum (consulted at the last tile only: the outputs are idle
    before); the region invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val t.isLt).1
    | ⟨2, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2 := by dsimp only [dat1]

/-! ## The branch conditions, decided over the grid -/

/-- The first conditional's condition (the tile is the first), over the grid coordinates. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's condition (the tile is the last). -/
abbrev cond1_1 (i : grid1.Coords) : Prop := k1_cond2 i = 1#1
theorem hcond1_1 : ∀ t : Fin cfg1.N, cond1_1 (grid1.coords t) ↔ t.val = 3 :=
  (by decide +kernel : ∀ t : Fin grid1.N, cond1_1 (grid1.coords t) ↔ t.val = 3)

/-! ## Where the windows are idle -/

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## A cell stored whole, read back -/

theorem zeroOff2_r1 : (![0, 0] : Fin 2 → Nat) = fun _ => 0 := funext fun a => by fin_cases a <;> rfl
theorem zeroOff4_r1 : (![0, 0, 0, 0] : Fin 4 → Nat) = fun _ => 0 := funext fun a => by fin_cases a <;> rfl

/-- A store through the whole-shape rectangle, made last, leaves its payload, whatever was stored before it. -/
theorem read_store_whole_r1 {S : Shape} {e : EltTy} (m : Memref sig .tc .vmem S e) (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w :=
  (View.read_writes_eq_canon _ _ _ (fun y => ⟨_, List.mem_cons_self, View.mem_set_unit_zero hz inb y⟩)).trans
    (View.canon_cons_unit_zero hz inb w L)

/-- A load of a whole memref through the whole-shape rectangle reads its contents. -/
theorem load_whole_r1 {S : Shape} {e : EltTy} (m : Memref sig .tc .vmem S e) (h : m.IsWhole) (X : S.Idx → Elt F e)
    {off : Fin S.rank → Nat} (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-! ## The body's run, one control case at a time -/

/-- At a middle tile: each running sum is loaded, the tile's contribution added, the sum stored back; the outputs' buffers are not touched. -/
theorem run1_mid (c : Dev nD) (i : grid1.Coords)
    (arg1 : Memref sig .tc .vmem S16x4x3x2048 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : ¬cond1_1 i)
    (x0 : Vec F S16x4x3x2048 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay6 x0 a) ∗ owns (c : Thread nD τ) arg5 fullShare (k1_pay1 (k1_pay5 x0) b)) -∗ K ⟨⟩))
      ⊢ wp frame (wpE (defs₀ (F := F)) Variants.none c none) E (cc1__foot_kernel i arg1 harg1 arg2 harg2 arg3 harg3 arg4 harg4 arg5 harg5) K := by
  simp only [cc1__foot_kernel_eq_skeleton]; unfold cc1__foot_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    refine (read_store_whole_r1 arg4 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]
  · iexists _; isplitr
    swap; · iexact H5
    ipureintro
    sl_unfold_words
    refine (read_store_whole_r1 arg5 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]

/-- At the first tile: both running sums are first set to zero, whatever the cells held; then as at a middle tile. -/
theorem run1_first (c : Dev nD) (i : grid1.Coords)
    (arg1 : Memref sig .tc .vmem S16x4x3x2048 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : cond1_0 i) (hc1 : ¬cond1_1 i)
    (x0 : Vec F S16x4x3x2048 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay6 x0 (k1_pay2 (F := F))) ∗ owns (c : Thread nD τ) arg5 fullShare (k1_pay1 (k1_pay5 x0) (k1_pay3 (F := F)))) -∗ K ⟨⟩))
      ⊢ wp frame (wpE (defs₀ (F := F)) Variants.none c none) E (cc1__foot_kernel i arg1 harg1 arg2 harg2 arg3 harg3 arg4 harg4 arg5 harg5) K := by
  simp only [cc1__foot_kernel_eq_skeleton]; unfold cc1__foot_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    refine (read_store_whole_r1 arg4 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]
  · iexists _; isplitr
    swap; · iexact H5
    ipureintro
    sl_unfold_words
    refine (read_store_whole_r1 arg5 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]

/-- At the last tile: as at a middle tile, and then each running sum is copied to its output's buffer, whatever that held. -/
theorem run1_last (c : Dev nD) (i : grid1.Coords)
    (arg1 : Memref sig .tc .vmem S16x4x3x2048 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : cond1_1 i)
    (x0 : Vec F S16x4x3x2048 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare (k1_pay6 x0 a) ∗ owns (c : Thread nD τ) arg3 fullShare (k1_pay1 (k1_pay5 x0) b)
            ∗ owns (c : Thread nD τ) arg4 fullShare (k1_pay6 x0 a) ∗ owns (c : Thread nD τ) arg5 fullShare (k1_pay1 (k1_pay5 x0) b)) -∗ K ⟨⟩))
      ⊢ wp frame (wpE (defs₀ (F := F)) Variants.none c none) E (cc1__foot_kernel i arg1 harg1 arg2 harg2 arg3 harg3 arg4 harg4 arg5 harg5) K := by
  simp only [cc1__foot_kernel_eq_skeleton]; unfold cc1__foot_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr
    swap; · iexact H2
    ipureintro
    sl_unfold_words
    refine (read_store_whole_r1 arg2 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]
  isplitl [H3]
  · iexists _; isplitr
    swap; · iexact H3
    ipureintro
    sl_unfold_words
    refine (read_store_whole_r1 arg3 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]
  isplitl [H4]
  · iexists _; isplitr
    swap; · iexact H4
    ipureintro
    sl_unfold_words
    refine (read_store_whole_r1 arg4 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]
  · iexists _; isplitr
    swap; · iexact H5
    ipureintro
    sl_unfold_words
    refine (read_store_whole_r1 arg5 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]

/-! ## The class invariant opened into the two scratch cells and the other region's buffers -/

/-- The class invariant of the region: the ten scoped buffers no window of the region stages, the two scratch cells
    last and as memrefs owned at some contents, and the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ d, owns (c : Thread nD τ) scSlide fullShare d) ∗ (∃ d, owns (c : Thread nD τ) scContact fullShare d)) ∗ (∃ r, prngReg c r)) := by
  unfold Pipeline.ΦA; rw [scopedRest1_eq]; simp only [scSlide, scContact, owns_whole]; try rfl

/-- The class invariant hands out the two scratch cells at some contents, the other region's buffers and the register. -/
theorem PhiA1_open (c : Dev nD) :
    (Pipeline.ΦA spec1 c : sProp 𝕄)
      ⊢ iprop((∃ d, owns (c : Thread nD τ) scSlide fullShare d) ∗ (∃ d, owns (c : Thread nD τ) scContact fullShare d)
          ∗ otherScoped1 (F := F) c ∗ (∃ r, prngReg c r)) := by
  rw [PhiA1_eq]; unfold otherScoped1
  iintro ⟨⟨H1, H2, H3, H4, H5, H6, H7, H8, HS0, HS1⟩, Hg⟩
  isplitl [HS0]; · iexact HS0
  isplitl [HS1]; · iexact HS1
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And takes them back. -/
theorem PhiA1_close (c : Dev nD) :
    iprop((∃ d, owns (c : Thread nD τ) scSlide fullShare d) ∗ (∃ d, owns (c : Thread nD τ) scContact fullShare d)
          ∗ otherScoped1 (F := F) c ∗ (∃ r, prngReg c r))
      ⊢ (Pipeline.ΦA spec1 c : sProp 𝕄) := by
  rw [PhiA1_eq]; unfold otherScoped1
  iintro ⟨HS0, HS1, ⟨H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iexact HS1
  iexact Hg

/-! ## The region invariant and the running sums, tile by tile -/

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scSlide fullShare (acc1 V c n hn).1
      ∗ owns (c : Thread nD τ) scContact fullShare (acc1 V c n hn).2 ∗ otherScoped1 (F := F) c ∗ (∃ r, prngReg c r)) := rfl

theorem Phi1_pos (c : Dev nD) (n : ℕ) (h : n ≤ cfg1.N) (hz : n ≠ 0) :
    Phi1 V c n h = iprop(owns (c : Thread nD τ) scSlide fullShare (acc1 V c (n - 1) (by omega)).1
      ∗ owns (c : Thread nD τ) scContact fullShare (acc1 V c (n - 1) (by omega)).2 ∗ otherScoped1 (F := F) c ∗ (∃ r, prngReg c r)) := by
  cases n with
  | zero => exact absurd rfl hz
  | succ n => rfl

/-- The invariant at a tile's start, restated at the tile's number. -/
theorem Phi1_castSucc (c : Dev nD) (t : Fin cfg1.N) :
    (dat1 V c).Φ t.castSucc = Phi1 V c t.val (Nat.le_of_lt t.isLt) := by
  dsimp only [dat1]; simp only [Fin.coe_castSucc]

/-- The running sums after the first tile: from zero. -/
theorem acc1_first (c : Dev nD) (t : Fin cfg1.N) (h0 : t.val = 0) :
    acc1 V c t.val t.isLt = (k1_pay6 (footBlk V c t) (k1_pay2 (F := F)), k1_pay1 (k1_pay5 (footBlk V c t)) (k1_pay3 (F := F))) := by
  obtain ⟨n, hn⟩ := t
  cases n with
  | zero => rfl
  | succ n => exact absurd h0 (Nat.succ_ne_zero n)

/-- The running sums after a later tile: over what the tile before left. -/
theorem acc1_later (c : Dev nD) (t : Fin cfg1.N) (h0 : t.val ≠ 0) :
    acc1 V c t.val t.isLt = (k1_pay6 (footBlk V c t) (acc1 V c (t.val - 1) (Nat.lt_of_le_of_lt (Nat.sub_le _ _) t.isLt)).1,
      k1_pay1 (k1_pay5 (footBlk V c t)) (acc1 V c (t.val - 1) (Nat.lt_of_le_of_lt (Nat.sub_le _ _) t.isLt)).2) := by
  obtain ⟨n, hn⟩ := t
  cases n with
  | zero => exact absurd rfl h0
  | succ n => rfl

/-! ## The windows' buffers at a tile -/

/-- Each window's current staging memref at tile t, as the pipeline passes it, and its wholeness. -/
abbrev ms1_0 (t : Fin cfg1.N) : Memref sig .tc .vmem S16x4x3x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

/-- The input's current staging buffer holds its block at every tile. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-! ## The body obligation, at a generic tile -/

/-- What the body is called with at tile t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any tile: the input's buffer holds its block; the closed forms say which control case the tile is in;
    the invariant hands the run the two scratch cells (at anything at the first tile, at the running sums of the tile
    before afterwards) and takes them back at this tile's running sums; before the last tile the outputs' buffers are
    handed back as found, at the last tile they hold the running sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  have hN : t.val < 4 := lt_of_lt_of_eq t.isLt (show cfg1.N = 4 from N_1)
  rw [show (dat1 V c).leavesExact 0 t = owns (c : Thread nD τ) (ms1_0 t) fullShare ((dat1 V c).after 0 t) from by
    unfold Dat.leavesExact; rw [liveAt1_0 t], after1_0]
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 1 t (idleAt1_1 t hc1) (noFlush1_1 t hc1)]
    rw [Dat.leavesExact_idle (dat1 V c) 2 t (idleAt1_2 t hc1) (noFlush1_2 t hc1)]
    rw [acc1_first V c t h0]; dsimp only
    rw [Phi1_castSucc V c t, Phi1_zero V c _ _ h0]
    iintro ⟨HΦ, Ho, ⟨%d0, H0⟩, ⟨%d1, H1⟩, ⟨%d2, H2⟩⟩
    ihave HΦ' := PhiA1_open c $$ HΦ
    icases HΦ' with ⟨⟨%a, HS0⟩, ⟨%b, HS1⟩, Hrest, Hg⟩
    iapply (run1_first c (grid1.coords t) (ms1_0 t) (hs1_0 t) (ms1_1 t) (hs1_1 t) (ms1_2 t) (hs1_2 t) scSlide (Memref.isWhole_whole _) scContact (Memref.isWhole_whole _)
      hc0 hc1 (footBlk V c t) _ _ a b Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexists _; iexact H1
    iexists _; iexact H2
  · have hc0 : ¬cond1_0 (grid1.coords t) := fun h => h0 ((hcond1_0 t).mp h)
    rw [acc1_later V c t h0]; dsimp only
    rw [Phi1_castSucc V c t, Phi1_pos V c _ _ h0]
    by_cases h1 : t.val = 3
    · have hc1 : cond1_1 (grid1.coords t) := (hcond1_1 t).mpr h1
      rw [show (dat1 V c).leavesExact 1 t = owns (c : Thread nD τ) (ms1_1 t) fullShare ((dat1 V c).after 1 t) from by
        unfold Dat.leavesExact; rw [liveAt1_1 t hc1], after1_1]
      rw [show (dat1 V c).leavesExact 2 t = owns (c : Thread nD τ) (ms1_2 t) fullShare ((dat1 V c).after 2 t) from by
        unfold Dat.leavesExact; rw [liveAt1_2 t hc1], after1_2]
      rw [acc1_later V c t h0]; dsimp only
      iintro ⟨⟨HS0, HS1, Hrest, Hg⟩, Ho, ⟨%d0, H0⟩, ⟨%d1, H1⟩, ⟨%d2, H2⟩⟩
      iapply (run1_last c (grid1.coords t) (ms1_0 t) (hs1_0 t) (ms1_1 t) (hs1_1 t) (ms1_2 t) (hs1_2 t) scSlide (Memref.isWhole_whole _) scContact (Memref.isWhole_whole _)
        hc0 hc1 (footBlk V c t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 1 t (idleAt1_1 t hc1) (noFlush1_1 t hc1)]
      rw [Dat.leavesExact_idle (dat1 V c) 2 t (idleAt1_2 t hc1) (noFlush1_2 t hc1)]
      iintro ⟨⟨HS0, HS1, Hrest, Hg⟩, Ho, ⟨%d0, H0⟩, ⟨%d1, H1⟩, ⟨%d2, H2⟩⟩
      iapply (run1_mid c (grid1.coords t) (ms1_0 t) (hs1_0 t) (ms1_1 t) (hs1_1 t) (ms1_2 t) (hs1_2 t) scSlide (Memref.isWhole_whole _) scContact (Memref.isWhole_whole _)
        hc0 hc1 (footBlk V c t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexists _; iexact H1
      iexists _; iexact H2

/-- The body obligation of the region, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any tile the invariant gives the class invariant back: the named running sums are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht]
  iintro ⟨HS0, HS1, Hrest, Hg⟩
  iapply (PhiA1_close c)
  isplitl [HS0]; · iexists _; iexact HS0
  isplitl [HS1]; · iexists _; iexact HS1
  isplitl [Hrest]; · iexact Hrest
  iexact Hg

/-- After the last tile the invariant gives the scoped buffers back at some contents. -/
theorem hout1 (c : Dev nD) : (dat1 V c).Φ (Fin.last cfg1.N) ⊢ Pipeline.ΦA spec1 c :=
  Phi1_out V c _ (by rw [Fin.val_last]; have : cfg1.N = 4 := N_1; omega)

end Cert.Kernel.Hand

end
-- ==== Proof.K.Run.lean ====
/-
  THE RUN of the whole program: @main is a stretch of host operations (the two reshapes), region 0, a stretch (the two
  means' quotients and the four foot joints sliced out and stacked), region 1, and a last stretch (the contact quotient
  and the weighted sum). The buffer contents at each boundary are a fold from the launch memory: a stretch applies its
  operations, a region leaves its arrays at what its write-backs leave and every other buffer as entered. Every weakly
  fair execution terminates with every unscoped buffer at the last contents of that fold; the argument arrays are
  written by nothing, so they end as launched.
-/
import proofs.«108107_j59631325938492_1_alg».proof.Proof.Gen.Kernel.Launch
import proofs.«108107_j59631325938492_1_alg».proof.Proof.Gen.Kernel.Skeleton
import proofs.«108107_j59631325938492_1_alg».proof.Proof.Gen.Kernel.Points
import proofs.«108107_j59631325938492_1_alg».proof.Proof.Gen.Kernel.Regions
import proofs.«108107_j59631325938492_1_alg».proof.Proof.K.Region0
import proofs.«108107_j59631325938492_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev St0 : Dev nD → Valuation τ sig (Elt F) := fun c b => (s₀ m ρ).mem ((c : Dev nD), b)
/-- After the two reshapes: region 0's entry. -/
abbrev St1 : Dev nD → Valuation τ sig (Elt F) := fun c => StableHlo.after hostOps0 (St0 m ρ c)
abbrev En0 : (c : Dev nD) → (b : Ref sig .tc) → Buf (Elt F) ((c : Thread nD τ).loc b) := fun c b => St1 m ρ c b
/-- At region 0's exit: its arrays at what the pipeline leaves, every other buffer as entered. -/
def St2 (c : Dev nD) : Valuation τ sig (Elt F) :=
  Pipeline.withArrays spec0 c (St1 m ρ c) fun w => (dat0 (En0 m ρ) c).arrAt w cfg0.N
theorem St2_arr (c : Dev nD) (w : Fin cfg0.W) :
    St2 m ρ c (Proc.devRef .tc (Pipeline.arrRef spec0 w)) = (dat0 (En0 m ρ) c).arrAt w cfg0.N := by
  unfold St2; exact Pipeline.withArrays_arr spec0 launch0.win.arr_inj c _ _ w
theorem St2_of_ne (c : Dev nD) (b : Ref sig .tc) (hb : ∀ w, Pipeline.arrRef spec0 w ≠ b) :
    St2 m ρ c (Proc.devRef .tc b) = St1 m ρ c (Proc.devRef .tc b) := by
  unfold St2; exact Pipeline.withArrays_of_ne spec0 c _ _ b hb
abbrev St2E : (c : Dev nD) → (b : Ref sig .tc) → Buf (Elt F) ((c : Thread nD τ).loc b) := fun c b => St2 m ρ c b
theorem hF0 (c : Dev nD) (w : Fin cfg0.W) : (dat0 (En0 m ρ) c).arrAt w cfg0.N = St2E m ρ c (Pipeline.arrRef spec0 w) :=
  (St2_arr m ρ c w).symm
theorem hrest0 (c : Dev nD) : ∀ b, b ∉ Finset.univ.image (Pipeline.arrRef spec0) → St2E m ρ c b = En0 m ρ c b :=
  fun b hb => St2_of_ne m ρ c b fun w e => hb (Finset.mem_image.mpr ⟨w, Finset.mem_univ _, e⟩)

/-- After the second stretch: region 1's entry. -/
abbrev St3 : Dev nD → Valuation τ sig (Elt F) := fun c => StableHlo.after hostOps1 (St2 m ρ c)
abbrev En1 : (c : Dev nD) → (b : Ref sig .tc) → Buf (Elt F) ((c : Thread nD τ).loc b) := fun c b => St3 m ρ c b
/-- At region 1's exit. -/
def St4 (c : Dev nD) : Valuation τ sig (Elt F) :=
  Pipeline.withArrays spec1 c (St3 m ρ c) fun w => (dat1 (En1 m ρ) c).arrAt w cfg1.N
theorem St4_arr (c : Dev nD) (w : Fin cfg1.W) :
    St4 m ρ c (Proc.devRef .tc (Pipeline.arrRef spec1 w)) = (dat1 (En1 m ρ) c).arrAt w cfg1.N := by
  unfold St4; exact Pipeline.withArrays_arr spec1 launch1.win.arr_inj c _ _ w
theorem St4_of_ne (c : Dev nD) (b : Ref sig .tc) (hb : ∀ w, Pipeline.arrRef spec1 w ≠ b) :
    St4 m ρ c (Proc.devRef .tc b) = St3 m ρ c (Proc.devRef .tc b) := by
  unfold St4; exact Pipeline.withArrays_of_ne spec1 c _ _ b hb
abbrev St4E : (c : Dev nD) → (b : Ref sig .tc) → Buf (Elt F) ((c : Thread nD τ).loc b) := fun c b => St4 m ρ c b
theorem hF1 (c : Dev nD) (w : Fin cfg1.W) : (dat1 (En1 m ρ) c).arrAt w cfg1.N = St4E m ρ c (Pipeline.arrRef spec1 w) :=
  (St4_arr m ρ c w).symm
theorem hrest1 (c : Dev nD) : ∀ b, b ∉ Finset.univ.image (Pipeline.arrRef spec1) → St4E m ρ c b = En1 m ρ c b :=
  fun b hb => St4_of_ne m ρ c b fun w e => hb (Finset.mem_image.mpr ⟨w, Finset.mem_univ _, e⟩)

/-- After the last stretch: the end. -/
abbrev St5 : Dev nD → Valuation τ sig (Elt F) := fun c => StableHlo.after hostOps2 (St4 m ρ c)

/-! ## The arguments end as launched -/

/-- No host operation and no region writes the argument array, so the last contents at it are the launch's. -/
theorem St5_main_arg0 (c : Dev nD) : St5 m ρ c (Proc.devRef .tc main_arg0) = m ((c : Thread nD τ).loc main_arg0) :=
  calc St5 m ρ c (Proc.devRef .tc main_arg0)
    _ = St4 m ρ c (Proc.devRef .tc main_arg0) := StableHlo.after_of_writes_sub hostOps2 _ hostOps2_writes (r := main_arg0) (by decide)
    _ = St3 m ρ c (Proc.devRef .tc main_arg0) := St4_of_ne m ρ c main_arg0 (by decide)
    _ = St2 m ρ c (Proc.devRef .tc main_arg0) := StableHlo.after_of_writes_sub hostOps1 _ hostOps1_writes (r := main_arg0) (by decide)
    _ = St1 m ρ c (Proc.devRef .tc main_arg0) := St2_of_ne m ρ c main_arg0 (by decide)
    _ = St0 m ρ c (Proc.devRef .tc main_arg0) := StableHlo.after_of_writes_sub hostOps0 _ hostOps0_writes (r := main_arg0) (by decide)
    _ = m ((c : Thread nD τ).loc main_arg0) := rfl

/-- No host operation and no region writes the argument array, so the last contents at it are the launch's. -/
theorem St5_main_arg1 (c : Dev nD) : St5 m ρ c (Proc.devRef .tc main_arg1) = m ((c : Thread nD τ).loc main_arg1) :=
  calc St5 m ρ c (Proc.devRef .tc main_arg1)
    _ = St4 m ρ c (Proc.devRef .tc main_arg1) := StableHlo.after_of_writes_sub hostOps2 _ hostOps2_writes (r := main_arg1) (by decide)
    _ = St3 m ρ c (Proc.devRef .tc main_arg1) := St4_of_ne m ρ c main_arg1 (by decide)
    _ = St2 m ρ c (Proc.devRef .tc main_arg1) := StableHlo.after_of_writes_sub hostOps1 _ hostOps1_writes (r := main_arg1) (by decide)
    _ = St1 m ρ c (Proc.devRef .tc main_arg1) := St2_of_ne m ρ c main_arg1 (by decide)
    _ = St0 m ρ c (Proc.devRef .tc main_arg1) := StableHlo.after_of_writes_sub hostOps0 _ hostOps0_writes (r := main_arg1) (by decide)
    _ = m ((c : Thread nD τ).loc main_arg1) := rfl

/-- No host operation and no region writes the argument array, so the last contents at it are the launch's. -/
theorem St5_main_arg2 (c : Dev nD) : St5 m ρ c (Proc.devRef .tc main_arg2) = m ((c : Thread nD τ).loc main_arg2) :=
  calc St5 m ρ c (Proc.devRef .tc main_arg2)
    _ = St4 m ρ c (Proc.devRef .tc main_arg2) := StableHlo.after_of_writes_sub hostOps2 _ hostOps2_writes (r := main_arg2) (by decide)
    _ = St3 m ρ c (Proc.devRef .tc main_arg2) := St4_of_ne m ρ c main_arg2 (by decide)
    _ = St2 m ρ c (Proc.devRef .tc main_arg2) := StableHlo.after_of_writes_sub hostOps1 _ hostOps1_writes (r := main_arg2) (by decide)
    _ = St1 m ρ c (Proc.devRef .tc main_arg2) := St2_of_ne m ρ c main_arg2 (by decide)
    _ = St0 m ρ c (Proc.devRef .tc main_arg2) := StableHlo.after_of_writes_sub hostOps0 _ hostOps0_writes (r := main_arg2) (by decide)
    _ = m ((c : Thread nD τ).loc main_arg2) := rfl

/-! ## The proof data family and the thread state -/

/-- No region has a prefetched table. -/
abbrev admH : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) admH p) c
  | ⟨0, _⟩ => fun c => dat0 (En0 m ρ) c
  | ⟨1, _⟩ => fun c => dat1 (En1 m ρ) c
abbrev 𝒱H : Variants := Variants.none
/-- No core owes another anything. -/
abbrev LH : GSem nD τ sig → Finset Unit := fun _ => ∅
abbrev lvH : GSem nD τ sig → Unit → ℕ := fun _ _ => 0
/-- What rides beside the buffers through every segment: the generator register at some state, and nothing owed. -/
abbrev Ride (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tend (c : Dev nD) : sProp 𝕄 := iprop(StableHlo.held (c : Thread nD τ) (Pipeline.ucRefs τ sig) (St5 m ρ c) ∗ ∃ r, prngReg c r)

/-! ## The regions as segments -/

set_option backward.isDefEq.respectTransparency.types false in
/-- REGION 0 as a segment: entered from every unscoped buffer at the contents before it, left at the contents after it.
    Its arrays are split out of the unscoped buffers and put back at what the write-backs leave; the generator
    register goes into the region invariant and comes back; nothing is owed; the kernel has no semaphore of its own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ LH lvH 0 fun _ _ => rfl
  pre c := iprop(StableHlo.held (c : Thread nD τ) (Pipeline.ucRefs τ sig) (St1 m ρ c) ∗ Ride c)
  post c := iprop(StableHlo.held (c : Thread nD τ) (Pipeline.ucRefs τ sig) (St2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (En0 m ρ) c)
    unfold Pipeline.ΦA
    iintro ⟨Hp, -, Hr⟩
    isplitl [Hr]; · iexact Hr
    iexact Hp
  hout c := by
    rw [Pipeline.ownSems0_none]
    refine BIBase.Entails.trans (hout0 (En0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (En0 m ρ c) (St2E m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at the contents before it, left at the contents after it.
    Its arrays are split out of the unscoped buffers and put back at what the write-backs leave; the generator
    register goes into the region invariant and comes back; nothing is owed; the kernel has no semaphore of its own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ LH lvH 1 fun _ _ => rfl
  pre c := iprop(StableHlo.held (c : Thread nD τ) (Pipeline.ucRefs τ sig) (St3 m ρ c) ∗ Ride c)
  post c := iprop(StableHlo.held (c : Thread nD τ) (Pipeline.ucRefs τ sig) (St4 m ρ c) ∗ Ride c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (En1 m ρ) c)
    unfold Pipeline.ΦA
    iintro ⟨Hp, -, Hr⟩
    isplitl [Hr]; · iexact Hr
    iexact Hp
  hout c := by
    rw [Pipeline.ownSems0_none]
    refine BIBase.Entails.trans (hout1 (En1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (En1 m ρ c) (St4E m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m ρ) () defs₀ 𝒱H LH lvH) :=
  [ .host (hseg hostOps0 hostOps0_sub hostOps0_fresh (St0 m ρ)),
    .region (reg0 m ρ),
    .host (hseg hostOps1 hostOps1_sub hostOps1_fresh (St2 m ρ)),
    .region (reg1 m ρ),
    .host (hseg hostOps2 hostOps2_sub hostOps2_fresh (St4 m ρ)) ]
theorem main_run (c : Dev nD) : main (F := F) c = Pipeline.Seg.run (segsH m ρ) := (main_chain c).trans (by chain_rfl)

set_option backward.isDefEq.respectTransparency.types false in
/-- Every weakly fair execution of @main from memory m with zero counters terminates, nothing faulting, and every final
    state has every unscoped buffer of every core at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = St5 m ρ c b) :=
  Pipeline.θ_run_regions_kit (pcfgs (F := F)) admH (pdats m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (St0 m ρ c) ∗ Ride c)) (Tₙ := Tend m ρ)
    (hch := ⟨fun _ => .rfl, fun _ => .rfl, fun _ => .rfl, fun _ => .rfl, fun _ => .rfl, fun c => by
      show (iprop(StableHlo.held (c : Thread nD τ) (Pipeline.ucRefs τ sig) (St5 m ρ c) ∗ Ride c) : sProp 𝕄)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (St0 m ρ c)
        from Pipeline.unscopedBufs_held c (St0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = St5 m ρ c b)
    (hfin := fun c s' => by
      iintro ⟨⟨Hh, -⟩, HSI⟩
      unfold StableHlo.held
      imodintro
      iapply (pointsTo_read_all (Pipeline.ucRefs τ sig) (fun b => (((c : Thread nD τ)).1, b)) (St5 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (St5_main_arg0 m ρ c),
     (h c _ (mem_uc main_arg1 (by decide))).trans (St5_main_arg1 m ρ c),
     (h c _ (mem_uc main_arg2 (by decide))).trans (St5_main_arg2 m ρ c)⟩) (run_all m ρ)

/-- The result buffer and the arguments at the end: the result at the last contents of the fold. -/
theorem run_result : θ_run defs (onTc (τ := τ) (main (F := F))) ⟨m, fun _ => 0, ρ⟩ (fun r => ∀ c : Dev nD,
      r.2.mem ((c.tc : Thread nD τ).loc main_v28) = St5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v28 (by decide)),
     (h c _ (mem_uc main_arg0 (by decide))).trans (St5_main_arg0 m ρ c),
     (h c _ (mem_uc main_arg1 (by decide))).trans (St5_main_arg1 m ρ c),
     (h c _ (mem_uc main_arg2 (by decide))).trans (St5_main_arg2 m ρ c)⟩) (run_all m ρ)

end Cert.Kernel.Hand

end
-- ==== Proof.KI.Region0.lean ====
/-
  REGION 0 (the reconstruction / velocity kernel, grid of 12 tiles of 128 merged batch-joint rows) at entry contents V:
  the two running sums it keeps in scratch across the grid (squared reconstruction error, squared velocity error), the
  region invariant that carries them from tile to tile, the proof data (the outputs are stored at the last tile only,
  idle before), and the body obligation: at the first tile the sums start from zero, at every tile the tile's
  contribution is added, at the last tile the sums are copied to the two outputs.
-/
import proofs.«108107_j59631325938492_1_alg».proof.Proof.Gen.KernelIdeal.Launch
import proofs.«108107_j59631325938492_1_alg».proof.Proof.Gen.KernelIdeal.Skeleton
import proofs.«108107_j59631325938492_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The predicted and the target rotations of tile t, at their literal type. -/
abbrev predBlk (c : Dev nD) (t : Fin cfg0.N) : Vec F S128x6x2048 .f32 := iblk0 V c 0 t
abbrev targBlk (c : Dev nD) (t : Fin cfg0.N) : Vec F S128x6x2048 .f32 := iblk0 V c 1 t

/-- The two running sums after tile n: from zero at the first tile, each tile adding its contribution. -/
def acc0 (c : Dev nD) : (n : ℕ) → n < cfg0.N → Vec F S1x1 .f32 × Vec F S1x1 .f32
  | 0, hn => (k0_pay5 (predBlk V c ⟨0, hn⟩) (targBlk V c ⟨0, hn⟩) (k0_pay1 (F := F)),
              k0_pay6 (predBlk V c ⟨0, hn⟩) (targBlk V c ⟨0, hn⟩) (k0_pay2 (F := F)))
  | n + 1, hn => (k0_pay5 (predBlk V c ⟨n + 1, hn⟩) (targBlk V c ⟨n + 1, hn⟩) (acc0 c n (Nat.lt_of_succ_lt hn)).1,
                  k0_pay6 (predBlk V c ⟨n + 1, hn⟩) (targBlk V c ⟨n + 1, hn⟩) (acc0 c n (Nat.lt_of_succ_lt hn)).2)

theorem acc0_zero (c : Dev nD) (hn : 0 < cfg0.N) :
    acc0 V c 0 hn = (k0_pay5 (predBlk V c ⟨0, hn⟩) (targBlk V c ⟨0, hn⟩) (k0_pay1 (F := F)),
                     k0_pay6 (predBlk V c ⟨0, hn⟩) (targBlk V c ⟨0, hn⟩) (k0_pay2 (F := F))) := rfl

theorem acc0_succ (c : Dev nD) (n : ℕ) (hn : n + 1 < cfg0.N) :
    acc0 V c (n + 1) hn = (k0_pay5 (predBlk V c ⟨n + 1, hn⟩) (targBlk V c ⟨n + 1, hn⟩) (acc0 V c n (Nat.lt_of_succ_lt hn)).1,
                           k0_pay6 (predBlk V c ⟨n + 1, hn⟩) (targBlk V c ⟨n + 1, hn⟩) (acc0 V c n (Nat.lt_of_succ_lt hn)).2) := rfl

/-- The two scratch cells that hold the running sums. -/
abbrev scRecon : Memref sig .tc .vmem S1x1 .f32 := Memref.whole cc0_scratch0
abbrev scVel : Memref sig .tc .vmem S1x1 .f32 := Memref.whole cc0_scratch1

/-- The core's scoped buffers that this region neither stages nor uses as scratch (the other region's), each at some contents. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The region invariant before tile n: before the first tile every scoped buffer at anything; afterwards the two
    scratch cells at the running sums the tile before left, the other scoped buffers at anything, the generator
    register at some state. -/
def Phi0 (c : Dev nD) : (n : ℕ) → n ≤ cfg0.N → sProp 𝕄
  | 0, _ => Pipeline.ΦA spec0 c
  | n + 1, hn => iprop(owns (c : Thread nD τ) scRecon fullShare (acc0 V c n hn).1
      ∗ owns (c : Thread nD τ) scVel fullShare (acc0 V c n hn).2 ∗ otherScoped0 (F := F) c ∗ (∃ r, prngReg c r))

/-- The proof data of the region on core c: the arrays as the region finds them; after the body at tile t each input's
    buffer at its block, each output's at the running sum (consulted at the last tile only: the outputs are idle
    before); the region invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]

/-! ## The two branch conditions, in closed form over the grid -/

/-- The first-tile test, as the body computes it from the grid coordinate. -/
abbrev isFirst0 (i : grid0.Coords) : Prop :=
  (Scalar.cmpi .ne (Scalar.extui (Scalar.cmpi .eq (BitVec.ofNat 32 (i 0).val) 0#32)) 0#32) = 1#1
/-- It holds at tile 0 only. -/
theorem isFirst0_iff : ∀ t : Fin cfg0.N, isFirst0 (grid0.coords t) ↔ t.val = 0 :=
  (by decide +kernel : ∀ t : Fin grid0.N, isFirst0 (grid0.coords t) ↔ t.val = 0)

/-- The last-tile test. -/
abbrev isLast0 (i : grid0.Coords) : Prop := k0_cond2 i = 1#1
/-- It holds at tile 11 only. -/
theorem isLast0_iff : ∀ t : Fin cfg0.N, isLast0 (grid0.coords t) ↔ t.val = 11 :=
  (by decide +kernel : ∀ t : Fin grid0.N, isLast0 (grid0.coords t) ↔ t.val = 11)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Before the last tile the two outputs are idle and not written back. -/
theorem idle0_2 : ∀ t : Fin cfg0.N, ¬isLast0 (grid0.coords t) → cfg0.idle 2 (grid0.coords t) = true := by decide +kernel
theorem idle0_3 : ∀ t : Fin cfg0.N, ¬isLast0 (grid0.coords t) → cfg0.idle 3 (grid0.coords t) = true := by decide +kernel
theorem noflush0_2 : ∀ t : Fin cfg0.N, ¬isLast0 (grid0.coords t) → (cfg0.win 2).flush t = false := by decide +kernel
theorem noflush0_3 : ∀ t : Fin cfg0.N, ¬isLast0 (grid0.coords t) → (cfg0.win 3).flush t = false := by decide +kernel
/-- At the last tile they are live. -/
theorem liveLast0_2 : ∀ t : Fin cfg0.N, isLast0 (grid0.coords t) → cfg0.idle 2 (grid0.coords t) = false := by decide +kernel
theorem liveLast0_3 : ∀ t : Fin cfg0.N, isLast0 (grid0.coords t) → cfg0.idle 3 (grid0.coords t) = false := by decide +kernel

/-! ## Whole-cell reads and writes -/

/-- Zero offsets, as the body spells them. -/
theorem offs0_2 : (![0, 0] : Fin 2 → ℕ) = fun _ => 0 := funext fun a => by fin_cases a <;> rfl
theorem offs0_3 : (![0, 0, 0] : Fin 3 → ℕ) = fun _ => 0 := funext fun a => by fin_cases a <;> rfl

/-- A store of the whole one-element cell covers it, whatever was stored before. -/
theorem cell0_cover (w : Vec F S1x1 .f32) (L : List (View.Piece (Elt F) S1x1 .f32)) :
    ∀ y : S1x1.Idx, ∃ p ∈ ((⟨Rect.unit ![0, 0] S1x1.size inb_S1x1_S1x1_0_0, w⟩ : View.Piece (Elt F) S1x1 .f32) :: L), y ∈ p.1.set :=
  View.cover_of_wholeMem _ (View.Piece.wholeMem_here (by sl_kernel_rfl))

/-- A one-element cell stored whole, last, reads back as what was stored, whatever was stored before. -/
theorem cell0_store_read {m : Memref sig .tc .vmem S1x1 .f32} (f : m.view.ty.Contents (Elt F)) (w : Vec F S1x1 .f32)
    (L : List (View.Piece (Elt F) S1x1 .f32)) :
    m.view.read (Elt F) (m.view.writes (Elt F) f ((⟨Rect.unit ![0, 0] S1x1.size inb_S1x1_S1x1_0_0, w⟩ : View.Piece (Elt F) S1x1 .f32) :: L)) = w := by
  rw [View.read_writes_eq_canon _ _ _ (cell0_cover w L)]
  exact View.canon_cons_unit_zero (S := S1x1) offs0_2 inb_S1x1_S1x1_0_0 w L

/-- A whole load of a whole cell reads its contents. -/
theorem cell0_load {m : Memref sig .tc .vmem S1x1 .f32} (h : m.IsWhole) (X : Vec F S1x1 .f32) :
    View.readAt (Elt F) m.view (Rect.unit ![0, 0] S1x1.size inb_S1x1_S1x1_0_0).toLoadRect (h.unread X) = X := by
  rw [View.readAt_eq_ld, h.read_unread]
  exact View.ld_unit_zero (S := S1x1) offs0_2 inb_S1x1_S1x1_0_0 X

/-- A whole load of a whole input block reads its contents. -/
theorem block0_load {m : Memref sig .tc .vmem S128x6x2048 .f32} (h : m.IsWhole) (X : Vec F S128x6x2048 .f32) :
    View.readAt (Elt F) m.view (Rect.unit ![0, 0, 0] S128x6x2048.size inb_S128x6x2048_S128x6x2048_0_0_0).toLoadRect (h.unread X) = X := by
  rw [View.readAt_eq_ld, h.read_unread]
  exact View.ld_unit_zero (S := S128x6x2048) offs0_3 inb_S128x6x2048_S128x6x2048_0_0_0 X

/-- A whole load of a cell after one whole store reads what was stored. -/
theorem cell0_load_stored {m : Memref sig .tc .vmem S1x1 .f32} (w : Vec F S1x1 .f32) :
    m.view.readCov [(⟨Rect.unit ![0, 0] S1x1.size inb_S1x1_S1x1_0_0, w⟩ : View.Piece (Elt F) S1x1 .f32)]
      (Rect.unit ![0, 0] S1x1.size inb_S1x1_S1x1_0_0).toLoadRect = w :=
  View.readCov_unit_zero (S := S1x1) m.view offs0_2 inb_S1x1_S1x1_0_0 w

/-! ## The body's run in each of the three control cases

Stated over the body function's call on any whole memrefs, with the contents each case leaves NAMED. -/

set_option maxHeartbeats 1000000 in
/-- FIRST tile (the first-tile test holds, the last-tile test fails). On whole memrefs, the two input blocks at x0, x1,
    the two outputs' buffers at y2, y3 and both scratch cells at anything, the body runs to the continuation with the inputs
    and the outputs' buffers as they were and the scratch cells at the tile's contribution added to zero: the cells are
    zeroed, read back, and stored with the contribution added. -/
theorem run0_first (c : Dev nD) (i : grid0.Coords)
    (arg1 : Memref sig .tc .vmem S128x6x2048 .f32) (harg1 : arg1.IsWhole)
    (arg2 : Memref sig .tc .vmem S128x6x2048 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x1 .f32) (harg6 : arg6.IsWhole)
    (hf : isFirst0 i) (hl : ¬isLast0 i)
    (x0 x1 : Vec F S128x6x2048 .f32) (y2 y3 : Vec F S1x1 .f32) (E : Set ℕ) (K : PUnit → sProp 𝕄) :
    iprop(owns (c : Thread nD τ) arg1 fullShare x0 ∗ owns (c : Thread nD τ) arg2 fullShare x1
        ∗ owns (c : Thread nD τ) arg3 fullShare y2 ∗ owns (c : Thread nD τ) arg4 fullShare y3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare y2 ∗ owns (c : Thread nD τ) arg4 fullShare y3
            ∗ owns (c : Thread nD τ) arg5 fullShare (k0_pay5 x0 x1 (k0_pay1 (F := F))) ∗ owns (c : Thread nD τ) arg6 fullShare (k0_pay6 x0 x1 (k0_pay2 (F := F)))) -∗ K ⟨⟩))
      ⊢ wp frame (wpE (defs₀ (F := F)) Variants.none c none) E (cc0__recon_vel_kernel i arg1 harg1 arg2 harg2 arg3 harg3 arg4 harg4 arg5 harg5 arg6 harg6) K := by
  simp only [cc0__recon_vel_kernel_eq_skeleton]; unfold cc0__recon_vel_kernel_skel
  simp only [k0_part1_eq_skeleton]
  unfold owns

  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2; obtain rfl := harg3.eq_unread hf3
  obtain rfl := harg4.eq_unread hf4
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [cell0_store_read, block0_load, block0_load, cell0_load_stored]
  · iexists _; isplitr
    swap; · iexact H6
    ipureintro
    sl_unfold_words
    rw [cell0_store_read, block0_load, block0_load, cell0_load_stored]

set_option maxHeartbeats 1000000 in
/-- MIDDLE tiles (both tests fail). With the scratch cells at the sums so far a, b, the body leaves them at the tile's
    contribution added to a and to b; inputs and the outputs' buffers as they were. -/
theorem run0_mid (c : Dev nD) (i : grid0.Coords)
    (arg1 : Memref sig .tc .vmem S128x6x2048 .f32) (harg1 : arg1.IsWhole)
    (arg2 : Memref sig .tc .vmem S128x6x2048 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x1 .f32) (harg6 : arg6.IsWhole)
    (hf : ¬isFirst0 i) (hl : ¬isLast0 i)
    (x0 x1 : Vec F S128x6x2048 .f32) (y2 y3 a b : Vec F S1x1 .f32) (E : Set ℕ) (K : PUnit → sProp 𝕄) :
    iprop(owns (c : Thread nD τ) arg1 fullShare x0 ∗ owns (c : Thread nD τ) arg2 fullShare x1
        ∗ owns (c : Thread nD τ) arg3 fullShare y2 ∗ owns (c : Thread nD τ) arg4 fullShare y3
        ∗ owns (c : Thread nD τ) arg5 fullShare a ∗ owns (c : Thread nD τ) arg6 fullShare b
        ∗ (iprop(owns (c : Thread nD τ) arg1 fullShare x0 ∗ owns (c : Thread nD τ) arg2 fullShare x1
            ∗ owns (c : Thread nD τ) arg3 fullShare y2 ∗ owns (c : Thread nD τ) arg4 fullShare y3
            ∗ owns (c : Thread nD τ) arg5 fullShare (k0_pay5 x0 x1 a) ∗ owns (c : Thread nD τ) arg6 fullShare (k0_pay6 x0 x1 b)) -∗ K ⟨⟩))
      ⊢ wp frame (wpE (defs₀ (F := F)) Variants.none c none) E (cc0__recon_vel_kernel i arg1 harg1 arg2 harg2 arg3 harg3 arg4 harg4 arg5 harg5 arg6 harg6) K := by
  simp only [cc0__recon_vel_kernel_eq_skeleton]; unfold cc0__recon_vel_kernel_skel
  simp only [k0_part1_eq_skeleton]
  unfold owns

  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [cell0_store_read, block0_load, block0_load, cell0_load]
  · iexists _; isplitr
    swap; · iexact H6
    ipureintro
    rw [cell0_store_read, block0_load, block0_load, cell0_load]

set_option maxHeartbeats 1000000 in
/-- LAST tile (the first-tile test fails, the last-tile test holds). As at a middle tile, and the two outputs'
    buffers, at anything before, are left at the new sums: each is a copy of its scratch cell read back after the store. -/
theorem run0_last (c : Dev nD) (i : grid0.Coords)
    (arg1 : Memref sig .tc .vmem S128x6x2048 .f32) (harg1 : arg1.IsWhole)
    (arg2 : Memref sig .tc .vmem S128x6x2048 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x1 .f32) (harg6 : arg6.IsWhole)
    (hf : ¬isFirst0 i) (hl : isLast0 i)
    (x0 x1 : Vec F S128x6x2048 .f32) (a b : Vec F S1x1 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare a ∗ owns (c : Thread nD τ) arg6 fullShare b
        ∗ (iprop(owns (c : Thread nD τ) arg1 fullShare x0 ∗ owns (c : Thread nD τ) arg2 fullShare x1
            ∗ owns (c : Thread nD τ) arg3 fullShare (k0_pay5 x0 x1 a) ∗ owns (c : Thread nD τ) arg4 fullShare (k0_pay6 x0 x1 b)
            ∗ owns (c : Thread nD τ) arg5 fullShare (k0_pay5 x0 x1 a) ∗ owns (c : Thread nD τ) arg6 fullShare (k0_pay6 x0 x1 b)) -∗ K ⟨⟩))
      ⊢ wp frame (wpE (defs₀ (F := F)) Variants.none c none) E (cc0__recon_vel_kernel i arg1 harg1 arg2 harg2 arg3 harg3 arg4 harg4 arg5 harg5 arg6 harg6) K := by
  simp only [cc0__recon_vel_kernel_eq_skeleton]; unfold cc0__recon_vel_kernel_skel
  simp only [k0_part1_eq_skeleton]
  unfold owns

  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    refine (cell0_store_read (m := arg3) f3 _ []).trans ?_
    refine (cell0_load_stored (m := arg5) _).trans ?_
    rw [block0_load, block0_load, cell0_load]
  isplitl [H4]
  · iexists _; isplitr
    swap; · iexact H4
    ipureintro
    sl_unfold_words
    refine (cell0_store_read (m := arg4) f4 _ []).trans ?_
    refine (cell0_load_stored (m := arg6) _).trans ?_
    rw [block0_load, block0_load, cell0_load]
  isplitl [H5]
  · iexists _; isplitr
    swap; · iexact H5
    ipureintro
    sl_unfold_words
    rw [cell0_store_read, block0_load, block0_load, cell0_load]
  · iexists _; isplitr
    swap; · iexact H6
    ipureintro
    sl_unfold_words
    rw [cell0_store_read, block0_load, block0_load, cell0_load]

/-! ## The running sums tile by tile -/

/-- At the first tile the sums start from zero. -/
theorem acc0_first (c : Dev nD) (t : Fin cfg0.N) (hz : t.val = 0) :
    acc0 V c t.val t.isLt = (k0_pay5 (predBlk V c t) (targBlk V c t) (k0_pay1 (F := F)),
                             k0_pay6 (predBlk V c t) (targBlk V c t) (k0_pay2 (F := F))) := by
  obtain ⟨n, hn⟩ := t
  cases n with
  | zero => rfl
  | succ n => exact absurd hz (Nat.succ_ne_zero n)

/-- At a later tile they continue from the tile before. -/
theorem acc0_later (c : Dev nD) (t : Fin cfg0.N) (hz : t.val ≠ 0) :
    acc0 V c t.val t.isLt
      = (k0_pay5 (predBlk V c t) (targBlk V c t) (acc0 V c (t.val - 1) (Nat.lt_of_le_of_lt (Nat.sub_le _ _) t.isLt)).1,
         k0_pay6 (predBlk V c t) (targBlk V c t) (acc0 V c (t.val - 1) (Nat.lt_of_le_of_lt (Nat.sub_le _ _) t.isLt)).2) := by
  obtain ⟨n, hn⟩ := t
  cases n with
  | zero => exact absurd rfl hz
  | succ n => rfl

/-! ## The region invariant, opened -/

/-- Before the first tile: both scratch cells at anything. -/
theorem PhiA0_open (c : Dev nD) :
    (Pipeline.ΦA spec0 c : sProp 𝕄)
      = iprop(((∃ d, owns (c : Thread nD τ) scRecon fullShare d) ∗ (∃ d, owns (c : Thread nD τ) scVel fullShare d)
          ∗ otherScoped0 (F := F) c) ∗ (∃ r, prngReg c r)) := by
  unfold Pipeline.ΦA; rw [scopedRest0_eq]; unfold otherScoped0; simp only [scRecon, scVel, owns_whole]; try rfl

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scRecon fullShare (acc0 V c n hn).1
      ∗ owns (c : Thread nD τ) scVel fullShare (acc0 V c n hn).2 ∗ otherScoped0 (F := F) c ∗ (∃ r, prngReg c r)) := rfl

theorem Phi0_pos (c : Dev nD) (n : ℕ) (h : n ≤ cfg0.N) (hz : n ≠ 0) :
    Phi0 V c n h = iprop(owns (c : Thread nD τ) scRecon fullShare (acc0 V c (n - 1) (by omega)).1
      ∗ owns (c : Thread nD τ) scVel fullShare (acc0 V c (n - 1) (by omega)).2 ∗ otherScoped0 (F := F) c ∗ (∃ r, prngReg c r)) := by
  cases n with
  | zero => exact absurd rfl hz
  | succ n => rfl

/-- The invariant at a tile's start, restated at the tile's number. -/
theorem Phi0_castSucc (c : Dev nD) (t : Fin cfg0.N) :
    (dat0 V c).Φ t.castSucc = Phi0 V c t.val (Nat.le_of_lt t.isLt) := by
  dsimp only [dat0]; simp only [Fin.coe_castSucc]

/-! ## The inputs' staging buffers hold their blocks -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation at a generic tile -/

/-- Each window's current staging memref at tile t, as the pipeline passes it to the body, and its wholeness. -/
abbrev cur0_0 (t : Fin cfg0.N) : Memref sig .tc .vmem S128x6x2048 .f32 := win0_0.stage (cfg0.slots t 0)
abbrev cur0_1 (t : Fin cfg0.N) : Memref sig .tc .vmem S128x6x2048 .f32 := win0_1.stage (cfg0.slots t 1)
abbrev cur0_2 (t : Fin cfg0.N) : Memref sig .tc .vmem S1x1 .f32 := win0_2.stage (cfg0.slots t 2)
abbrev cur0_3 (t : Fin cfg0.N) : Memref sig .tc .vmem S1x1 .f32 := win0_3.stage (cfg0.slots t 3)

/-- What the body is called with at tile t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (cur0_0 t) fullShare ((dat0 V c).before 0 t d))
    ∗ (∃ d, owns (c : Thread nD τ) (cur0_1 t) fullShare ((dat0 V c).before 1 t d))
    ∗ (∃ d, owns (c : Thread nD τ) (cur0_2 t) fullShare ((dat0 V c).before 2 t d))
    ∗ (∃ d, owns (c : Thread nD τ) (cur0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

set_option maxHeartbeats 4800000 in
/-- The body at any tile. The inputs' buffers hold their blocks; the tile's number says which of the three control
    cases it is in. At the first tile the invariant hands over both scratch cells at anything and takes them back at the
    tile's contribution added to zero; later it hands them over at the sums so far and takes them back with the tile's
    contribution added. Before the last tile the outputs' buffers go back untouched (idle, not written back); at the
    last tile they are left at the final sums. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (cur0_0 t) fullShare ((dat0 V c).after 0 t) from by
    unfold Dat.leavesExact; rw [live0_0 t], after0_0]
  rw [show (dat0 V c).leavesExact 1 t = owns (c : Thread nD τ) (cur0_1 t) fullShare ((dat0 V c).after 1 t) from by
    unfold Dat.leavesExact; rw [live0_1 t], after0_1]
  have hN : t.val < 12 := lt_of_lt_of_eq t.isLt (show cfg0.N = 12 from N_0)
  by_cases hlast : t.val = 11
  · have hL : isLast0 (grid0.coords t) := (isLast0_iff t).mpr hlast
    have hF : ¬isFirst0 (grid0.coords t) := fun h => by have := (isFirst0_iff t).mp h; omega
    have hz : t.val ≠ 0 := by omega
    rw [show (dat0 V c).leavesExact 2 t = owns (c : Thread nD τ) (cur0_2 t) fullShare ((dat0 V c).after 2 t) from by
      unfold Dat.leavesExact; rw [liveLast0_2 t hL], after0_2]
    rw [show (dat0 V c).leavesExact 3 t = owns (c : Thread nD τ) (cur0_3 t) fullShare ((dat0 V c).after 3 t) from by
      unfold Dat.leavesExact; rw [liveLast0_3 t hL], after0_3]
    rw [acc0_later V c t hz]; dsimp only
    rw [Phi0_castSucc V c t, Phi0_pos V c _ _ hz]
    iintro ⟨⟨HS0, HS1, Hother, Hg⟩, Ho, ⟨%d0, H0⟩, ⟨%d1, H1⟩, ⟨%d2, H2⟩, ⟨%d3, H3⟩⟩
    iapply (run0_last c (grid0.coords t) _ _ _ _ _ _ _ _ _ _ _ _ hF hL (predBlk V c t) (targBlk V c t)
      (acc0 V c (t.val - 1) (Nat.lt_of_le_of_lt (Nat.sub_le _ _) t.isLt)).1
      (acc0 V c (t.val - 1) (Nat.lt_of_le_of_lt (Nat.sub_le _ _) t.isLt)).2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hother Hg]
    · isplitl [HS0]; · iexact HS0
      isplitl [HS1]; · iexact HS1
      isplitl [Hother]; · iexact Hother
      iexact Hg
    isplitl [Ho]; · iexact Ho
    isplitl [H0]; · iexact H0
    isplitl [H1]; · iexact H1
    isplitl [H2]; · iexact H2
    iexact H3
  · have hL : ¬isLast0 (grid0.coords t) := fun h => hlast ((isLast0_iff t).mp h)
    rw [Dat.leavesExact_idle (dat0 V c) 2 t (idle0_2 t hL) (noflush0_2 t hL)]
    rw [Dat.leavesExact_idle (dat0 V c) 3 t (idle0_3 t hL) (noflush0_3 t hL)]
    by_cases hz : t.val = 0
    · have hF : isFirst0 (grid0.coords t) := (isFirst0_iff t).mpr hz
      rw [acc0_first V c t hz]; dsimp only
      rw [Phi0_castSucc V c t, Phi0_zero V c _ _ hz, PhiA0_open]
      iintro ⟨⟨⟨HS0, HS1, Hother⟩, Hg⟩, Ho, ⟨%d0, H0⟩, ⟨%d1, H1⟩, ⟨%d2, H2⟩, ⟨%d3, H3⟩⟩
      iapply (run0_first c (grid0.coords t) _ _ _ _ _ _ _ _ _ _ _ _ hF hL (predBlk V c t) (targBlk V c t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hother Hg]
      · isplitl [HS0]; · iexact HS0
        isplitl [HS1]; · iexact HS1
        isplitl [Hother]; · iexact Hother
        iexact Hg
      isplitl [Ho]; · iexact Ho
      isplitl [H0]; · iexact H0
      isplitl [H1]; · iexact H1
      isplitl [H2]; · iexists _; iexact H2
      iexists _; iexact H3
    · have hF : ¬isFirst0 (grid0.coords t) := fun h => hz ((isFirst0_iff t).mp h)
      rw [acc0_later V c t hz]; dsimp only
      rw [Phi0_castSucc V c t, Phi0_pos V c _ _ hz]
      iintro ⟨⟨HS0, HS1, Hother, Hg⟩, Ho, ⟨%d0, H0⟩, ⟨%d1, H1⟩, ⟨%d2, H2⟩, ⟨%d3, H3⟩⟩
      iapply (run0_mid c (grid0.coords t) _ _ _ _ _ _ _ _ _ _ _ _ hF hL (predBlk V c t) (targBlk V c t) _ _
        (acc0 V c (t.val - 1) (Nat.lt_of_le_of_lt (Nat.sub_le _ _) t.isLt)).1
        (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hother Hg]
      · isplitl [HS0]; · iexact HS0
        isplitl [HS1]; · iexact HS1
        isplitl [Hother]; · iexact Hother
        iexact Hg
      isplitl [Ho]; · iexact Ho
      isplitl [H0]; · iexact H0
      isplitl [H1]; · iexact H1
      isplitl [H2]; · iexists _; iexact H2
      iexists _; iexact H3

/-- The body obligation of the region, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last tile the invariant gives the scoped buffers back at some contents: the sums' names are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 12 := N_0; omega), PhiA0_open]
  iintro ⟨HS0, HS1, Hother, Hg⟩
  isplitl [HS0 HS1 Hother]
  · isplitl [HS0]; · iexists _; iexact HS0
    isplitl [HS1]; · iexists _; iexact HS1
    iexact Hother
  iexact Hg

end Cert.KernelIdeal.Hand

end
-- ==== Proof.KI.Region1.lean ====
/-
  REGION 1 (the foot-contact kernel, grid of 4 tiles of 16 batches of the gathered foot joints) at entry contents V:
  the two running sums it keeps in scratch across the grid (the sliding penalty and the contact weight of the frame
  steps), the region invariant that carries them from tile to tile, the proof data (the outputs are stored at the last
  tile only, idle before), and the body obligation: at the first tile the sums start from zero, at every tile the
  tile's contribution is added, at the last tile the sums are copied to the two outputs.
-/
import proofs.«108107_j59631325938492_1_alg».proof.Proof.Gen.KernelIdeal.Launch
import proofs.«108107_j59631325938492_1_alg».proof.Proof.Gen.KernelIdeal.Skeleton
import proofs.«108107_j59631325938492_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The foot joints' positions of tile t, at their literal type. -/
abbrev footBlk (c : Dev nD) (t : Fin cfg1.N) : Vec F S16x4x3x2048 .f32 := iblk1 V c 0 t

/-- The two running sums after tile n: from zero at the first tile, each tile adding its contribution. -/
def acc1 (c : Dev nD) : (n : ℕ) → n < cfg1.N → Vec F S1x1 .f32 × Vec F S1x1 .f32
  | 0, hn => (k1_pay6 (footBlk V c ⟨0, hn⟩) (k1_pay2 (F := F)),
              k1_pay1 (k1_pay5 (footBlk V c ⟨0, hn⟩)) (k1_pay3 (F := F)))
  | n + 1, hn => (k1_pay6 (footBlk V c ⟨n + 1, hn⟩) (acc1 c n (Nat.lt_of_succ_lt hn)).1,
                  k1_pay1 (k1_pay5 (footBlk V c ⟨n + 1, hn⟩)) (acc1 c n (Nat.lt_of_succ_lt hn)).2)

theorem acc1_zero (c : Dev nD) (hn : 0 < cfg1.N) :
    acc1 V c 0 hn = (k1_pay6 (footBlk V c ⟨0, hn⟩) (k1_pay2 (F := F)),
                     k1_pay1 (k1_pay5 (footBlk V c ⟨0, hn⟩)) (k1_pay3 (F := F))) := rfl

theorem acc1_succ (c : Dev nD) (n : ℕ) (hn : n + 1 < cfg1.N) :
    acc1 V c (n + 1) hn = (k1_pay6 (footBlk V c ⟨n + 1, hn⟩) (acc1 V c n (Nat.lt_of_succ_lt hn)).1,
                           k1_pay1 (k1_pay5 (footBlk V c ⟨n + 1, hn⟩)) (acc1 V c n (Nat.lt_of_succ_lt hn)).2) := rfl

/-- The two scratch cells that hold the running sums. -/
abbrev scSlide : Memref sig .tc .vmem S1x1 .f32 := Memref.whole cc1_scratch0
abbrev scContact : Memref sig .tc .vmem S1x1 .f32 := Memref.whole cc1_scratch1

/-- The core's scoped buffers that this region neither stages nor uses as scratch (the other region's), each at some contents. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The region invariant before tile n: before the first tile every scoped buffer at anything; afterwards the two
    scratch cells at the running sums the tile before left, the other scoped buffers at anything, the generator
    register at some state. -/
def Phi1 (c : Dev nD) : (n : ℕ) → n ≤ cfg1.N → sProp 𝕄
  | 0, _ => Pipeline.ΦA spec1 c
  | n + 1, hn => iprop(owns (c : Thread nD τ) scSlide fullShare (acc1 V c n hn).1
      ∗ owns (c : Thread nD τ) scContact fullShare (acc1 V c n hn).2 ∗ otherScoped1 (F := F) c ∗ (∃ r, prngReg c r))

/-- The proof data of the region on core c: the arrays as the region finds them; after the body at tile t each input's
    buffer at its block, each output's at the running sum (consulted at the last tile only: the outputs are idle
    before); the region invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val t.isLt).1
    | ⟨2, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2 := by dsimp only [dat1]

/-! ## The branch conditions, decided over the grid -/

/-- The first conditional's condition (the tile is the first), over the grid coordinates. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's condition (the tile is the last). -/
abbrev cond1_1 (i : grid1.Coords) : Prop := k1_cond2 i = 1#1
theorem hcond1_1 : ∀ t : Fin cfg1.N, cond1_1 (grid1.coords t) ↔ t.val = 3 :=
  (by decide +kernel : ∀ t : Fin grid1.N, cond1_1 (grid1.coords t) ↔ t.val = 3)

/-! ## Where the windows are idle -/

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## A cell stored whole, read back -/

theorem zeroOff2_r1 : (![0, 0] : Fin 2 → Nat) = fun _ => 0 := funext fun a => by fin_cases a <;> rfl
theorem zeroOff4_r1 : (![0, 0, 0, 0] : Fin 4 → Nat) = fun _ => 0 := funext fun a => by fin_cases a <;> rfl

/-- A store through the whole-shape rectangle, made last, leaves its payload, whatever was stored before it. -/
theorem read_store_whole_r1 {S : Shape} {e : EltTy} (m : Memref sig .tc .vmem S e) (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w :=
  (View.read_writes_eq_canon _ _ _ (fun y => ⟨_, List.mem_cons_self, View.mem_set_unit_zero hz inb y⟩)).trans
    (View.canon_cons_unit_zero hz inb w L)

/-- A load of a whole memref through the whole-shape rectangle reads its contents. -/
theorem load_whole_r1 {S : Shape} {e : EltTy} (m : Memref sig .tc .vmem S e) (h : m.IsWhole) (X : S.Idx → Elt F e)
    {off : Fin S.rank → Nat} (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-! ## The body's run, one control case at a time -/

/-- At a middle tile: each running sum is loaded, the tile's contribution added, the sum stored back; the outputs' buffers are not touched. -/
theorem run1_mid (c : Dev nD) (i : grid1.Coords)
    (arg1 : Memref sig .tc .vmem S16x4x3x2048 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : ¬cond1_1 i)
    (x0 : Vec F S16x4x3x2048 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay6 x0 a) ∗ owns (c : Thread nD τ) arg5 fullShare (k1_pay1 (k1_pay5 x0) b)) -∗ K ⟨⟩))
      ⊢ wp frame (wpE (defs₀ (F := F)) Variants.none c none) E (cc1__foot_kernel i arg1 harg1 arg2 harg2 arg3 harg3 arg4 harg4 arg5 harg5) K := by
  simp only [cc1__foot_kernel_eq_skeleton]; unfold cc1__foot_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    refine (read_store_whole_r1 arg4 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]
  · iexists _; isplitr
    swap; · iexact H5
    ipureintro
    sl_unfold_words
    refine (read_store_whole_r1 arg5 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]

/-- At the first tile: both running sums are first set to zero, whatever the cells held; then as at a middle tile. -/
theorem run1_first (c : Dev nD) (i : grid1.Coords)
    (arg1 : Memref sig .tc .vmem S16x4x3x2048 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : cond1_0 i) (hc1 : ¬cond1_1 i)
    (x0 : Vec F S16x4x3x2048 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay6 x0 (k1_pay2 (F := F))) ∗ owns (c : Thread nD τ) arg5 fullShare (k1_pay1 (k1_pay5 x0) (k1_pay3 (F := F)))) -∗ K ⟨⟩))
      ⊢ wp frame (wpE (defs₀ (F := F)) Variants.none c none) E (cc1__foot_kernel i arg1 harg1 arg2 harg2 arg3 harg3 arg4 harg4 arg5 harg5) K := by
  simp only [cc1__foot_kernel_eq_skeleton]; unfold cc1__foot_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    refine (read_store_whole_r1 arg4 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]
  · iexists _; isplitr
    swap; · iexact H5
    ipureintro
    sl_unfold_words
    refine (read_store_whole_r1 arg5 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]

/-- At the last tile: as at a middle tile, and then each running sum is copied to its output's buffer, whatever that held. -/
theorem run1_last (c : Dev nD) (i : grid1.Coords)
    (arg1 : Memref sig .tc .vmem S16x4x3x2048 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : cond1_1 i)
    (x0 : Vec F S16x4x3x2048 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare (k1_pay6 x0 a) ∗ owns (c : Thread nD τ) arg3 fullShare (k1_pay1 (k1_pay5 x0) b)
            ∗ owns (c : Thread nD τ) arg4 fullShare (k1_pay6 x0 a) ∗ owns (c : Thread nD τ) arg5 fullShare (k1_pay1 (k1_pay5 x0) b)) -∗ K ⟨⟩))
      ⊢ wp frame (wpE (defs₀ (F := F)) Variants.none c none) E (cc1__foot_kernel i arg1 harg1 arg2 harg2 arg3 harg3 arg4 harg4 arg5 harg5) K := by
  simp only [cc1__foot_kernel_eq_skeleton]; unfold cc1__foot_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr
    swap; · iexact H2
    ipureintro
    sl_unfold_words
    refine (read_store_whole_r1 arg2 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]
  isplitl [H3]
  · iexists _; isplitr
    swap; · iexact H3
    ipureintro
    sl_unfold_words
    refine (read_store_whole_r1 arg3 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]
  isplitl [H4]
  · iexists _; isplitr
    swap; · iexact H4
    ipureintro
    sl_unfold_words
    refine (read_store_whole_r1 arg4 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]
  · iexists _; isplitr
    swap; · iexact H5
    ipureintro
    sl_unfold_words
    refine (read_store_whole_r1 arg5 _ zeroOff2_r1 _ _ _).trans ?_
    simp only [load_whole_r1 (S := S16x4x3x2048) _ _ _ zeroOff4_r1, load_whole_r1 (S := S1x1) _ _ _ zeroOff2_r1, View.readCov_unit_zero (S := S1x1) _ zeroOff2_r1]

/-! ## The class invariant opened into the two scratch cells and the other region's buffers -/

/-- The class invariant of the region: the ten scoped buffers no window of the region stages, the two scratch cells
    last and as memrefs owned at some contents, and the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ d, owns (c : Thread nD τ) scSlide fullShare d) ∗ (∃ d, owns (c : Thread nD τ) scContact fullShare d)) ∗ (∃ r, prngReg c r)) := by
  unfold Pipeline.ΦA; rw [scopedRest1_eq]; simp only [scSlide, scContact, owns_whole]; try rfl

/-- The class invariant hands out the two scratch cells at some contents, the other region's buffers and the register. -/
theorem PhiA1_open (c : Dev nD) :
    (Pipeline.ΦA spec1 c : sProp 𝕄)
      ⊢ iprop((∃ d, owns (c : Thread nD τ) scSlide fullShare d) ∗ (∃ d, owns (c : Thread nD τ) scContact fullShare d)
          ∗ otherScoped1 (F := F) c ∗ (∃ r, prngReg c r)) := by
  rw [PhiA1_eq]; unfold otherScoped1
  iintro ⟨⟨H1, H2, H3, H4, H5, H6, H7, H8, HS0, HS1⟩, Hg⟩
  isplitl [HS0]; · iexact HS0
  isplitl [HS1]; · iexact HS1
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And takes them back. -/
theorem PhiA1_close (c : Dev nD) :
    iprop((∃ d, owns (c : Thread nD τ) scSlide fullShare d) ∗ (∃ d, owns (c : Thread nD τ) scContact fullShare d)
          ∗ otherScoped1 (F := F) c ∗ (∃ r, prngReg c r))
      ⊢ (Pipeline.ΦA spec1 c : sProp 𝕄) := by
  rw [PhiA1_eq]; unfold otherScoped1
  iintro ⟨HS0, HS1, ⟨H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iexact HS1
  iexact Hg

/-! ## The region invariant and the running sums, tile by tile -/

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scSlide fullShare (acc1 V c n hn).1
      ∗ owns (c : Thread nD τ) scContact fullShare (acc1 V c n hn).2 ∗ otherScoped1 (F := F) c ∗ (∃ r, prngReg c r)) := rfl

theorem Phi1_pos (c : Dev nD) (n : ℕ) (h : n ≤ cfg1.N) (hz : n ≠ 0) :
    Phi1 V c n h = iprop(owns (c : Thread nD τ) scSlide fullShare (acc1 V c (n - 1) (by omega)).1
      ∗ owns (c : Thread nD τ) scContact fullShare (acc1 V c (n - 1) (by omega)).2 ∗ otherScoped1 (F := F) c ∗ (∃ r, prngReg c r)) := by
  cases n with
  | zero => exact absurd rfl hz
  | succ n => rfl

/-- The invariant at a tile's start, restated at the tile's number. -/
theorem Phi1_castSucc (c : Dev nD) (t : Fin cfg1.N) :
    (dat1 V c).Φ t.castSucc = Phi1 V c t.val (Nat.le_of_lt t.isLt) := by
  dsimp only [dat1]; simp only [Fin.coe_castSucc]

/-- The running sums after the first tile: from zero. -/
theorem acc1_first (c : Dev nD) (t : Fin cfg1.N) (h0 : t.val = 0) :
    acc1 V c t.val t.isLt = (k1_pay6 (footBlk V c t) (k1_pay2 (F := F)), k1_pay1 (k1_pay5 (footBlk V c t)) (k1_pay3 (F := F))) := by
  obtain ⟨n, hn⟩ := t
  cases n with
  | zero => rfl
  | succ n => exact absurd h0 (Nat.succ_ne_zero n)

/-- The running sums after a later tile: over what the tile before left. -/
theorem acc1_later (c : Dev nD) (t : Fin cfg1.N) (h0 : t.val ≠ 0) :
    acc1 V c t.val t.isLt = (k1_pay6 (footBlk V c t) (acc1 V c (t.val - 1) (Nat.lt_of_le_of_lt (Nat.sub_le _ _) t.isLt)).1,
      k1_pay1 (k1_pay5 (footBlk V c t)) (acc1 V c (t.val - 1) (Nat.lt_of_le_of_lt (Nat.sub_le _ _) t.isLt)).2) := by
  obtain ⟨n, hn⟩ := t
  cases n with
  | zero => exact absurd rfl h0
  | succ n => rfl

/-! ## The windows' buffers at a tile -/

/-- Each window's current staging memref at tile t, as the pipeline passes it, and its wholeness. -/
abbrev ms1_0 (t : Fin cfg1.N) : Memref sig .tc .vmem S16x4x3x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

/-- The input's current staging buffer holds its block at every tile. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-! ## The body obligation, at a generic tile -/

/-- What the body is called with at tile t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any tile: the input's buffer holds its block; the closed forms say which control case the tile is in;
    the invariant hands the run the two scratch cells (at anything at the first tile, at the running sums of the tile
    before afterwards) and takes them back at this tile's running sums; before the last tile the outputs' buffers are
    handed back as found, at the last tile they hold the running sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  have hN : t.val < 4 := lt_of_lt_of_eq t.isLt (show cfg1.N = 4 from N_1)
  rw [show (dat1 V c).leavesExact 0 t = owns (c : Thread nD τ) (ms1_0 t) fullShare ((dat1 V c).after 0 t) from by
    unfold Dat.leavesExact; rw [liveAt1_0 t], after1_0]
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 1 t (idleAt1_1 t hc1) (noFlush1_1 t hc1)]
    rw [Dat.leavesExact_idle (dat1 V c) 2 t (idleAt1_2 t hc1) (noFlush1_2 t hc1)]
    rw [acc1_first V c t h0]; dsimp only
    rw [Phi1_castSucc V c t, Phi1_zero V c _ _ h0]
    iintro ⟨HΦ, Ho, ⟨%d0, H0⟩, ⟨%d1, H1⟩, ⟨%d2, H2⟩⟩
    ihave HΦ' := PhiA1_open c $$ HΦ
    icases HΦ' with ⟨⟨%a, HS0⟩, ⟨%b, HS1⟩, Hrest, Hg⟩
    iapply (run1_first c (grid1.coords t) (ms1_0 t) (hs1_0 t) (ms1_1 t) (hs1_1 t) (ms1_2 t) (hs1_2 t) scSlide (Memref.isWhole_whole _) scContact (Memref.isWhole_whole _)
      hc0 hc1 (footBlk V c t) _ _ a b Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexists _; iexact H1
    iexists _; iexact H2
  · have hc0 : ¬cond1_0 (grid1.coords t) := fun h => h0 ((hcond1_0 t).mp h)
    rw [acc1_later V c t h0]; dsimp only
    rw [Phi1_castSucc V c t, Phi1_pos V c _ _ h0]
    by_cases h1 : t.val = 3
    · have hc1 : cond1_1 (grid1.coords t) := (hcond1_1 t).mpr h1
      rw [show (dat1 V c).leavesExact 1 t = owns (c : Thread nD τ) (ms1_1 t) fullShare ((dat1 V c).after 1 t) from by
        unfold Dat.leavesExact; rw [liveAt1_1 t hc1], after1_1]
      rw [show (dat1 V c).leavesExact 2 t = owns (c : Thread nD τ) (ms1_2 t) fullShare ((dat1 V c).after 2 t) from by
        unfold Dat.leavesExact; rw [liveAt1_2 t hc1], after1_2]
      rw [acc1_later V c t h0]; dsimp only
      iintro ⟨⟨HS0, HS1, Hrest, Hg⟩, Ho, ⟨%d0, H0⟩, ⟨%d1, H1⟩, ⟨%d2, H2⟩⟩
      iapply (run1_last c (grid1.coords t) (ms1_0 t) (hs1_0 t) (ms1_1 t) (hs1_1 t) (ms1_2 t) (hs1_2 t) scSlide (Memref.isWhole_whole _) scContact (Memref.isWhole_whole _)
        hc0 hc1 (footBlk V c t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 1 t (idleAt1_1 t hc1) (noFlush1_1 t hc1)]
      rw [Dat.leavesExact_idle (dat1 V c) 2 t (idleAt1_2 t hc1) (noFlush1_2 t hc1)]
      iintro ⟨⟨HS0, HS1, Hrest, Hg⟩, Ho, ⟨%d0, H0⟩, ⟨%d1, H1⟩, ⟨%d2, H2⟩⟩
      iapply (run1_mid c (grid1.coords t) (ms1_0 t) (hs1_0 t) (ms1_1 t) (hs1_1 t) (ms1_2 t) (hs1_2 t) scSlide (Memref.isWhole_whole _) scContact (Memref.isWhole_whole _)
        hc0 hc1 (footBlk V c t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexists _; iexact H1
      iexists _; iexact H2

/-- The body obligation of the region, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any tile the invariant gives the class invariant back: the named running sums are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht]
  iintro ⟨HS0, HS1, Hrest, Hg⟩
  iapply (PhiA1_close c)
  isplitl [HS0]; · iexists _; iexact HS0
  isplitl [HS1]; · iexists _; iexact HS1
  isplitl [Hrest]; · iexact Hrest
  iexact Hg

/-- After the last tile the invariant gives the scoped buffers back at some contents. -/
theorem hout1 (c : Dev nD) : (dat1 V c).Φ (Fin.last cfg1.N) ⊢ Pipeline.ΦA spec1 c :=
  Phi1_out V c _ (by rw [Fin.val_last]; have : cfg1.N = 4 := N_1; omega)

end Cert.KernelIdeal.Hand

end
-- ==== Proof.KI.Run.lean ====
/-
  THE RUN of the whole program: @main is a stretch of host operations (the two reshapes), region 0, a stretch (the two
  means' quotients and the four foot joints sliced out and stacked), region 1, and a last stretch (the contact quotient
  and the weighted sum). The buffer contents at each boundary are a fold from the launch memory: a stretch applies its
  operations, a region leaves its arrays at what its write-backs leave and every other buffer as entered. Every weakly
  fair execution terminates with every unscoped buffer at the last contents of that fold; the argument arrays are
  written by nothing, so they end as launched.
-/
import proofs.«108107_j59631325938492_1_alg».proof.Proof.Gen.KernelIdeal.Launch
import proofs.«108107_j59631325938492_1_alg».proof.Proof.Gen.KernelIdeal.Skeleton
import proofs.«108107_j59631325938492_1_alg».proof.Proof.Gen.KernelIdeal.Points
import proofs.«108107_j59631325938492_1_alg».proof.Proof.Gen.KernelIdeal.Regions
import proofs.«108107_j59631325938492_1_alg».proof.Proof.KI.Region0
import proofs.«108107_j59631325938492_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev St0 : Dev nD → Valuation τ sig (Elt F) := fun c b => (s₀ m ρ).mem ((c : Dev nD), b)
/-- After the two reshapes: region 0's entry. -/
abbrev St1 : Dev nD → Valuation τ sig (Elt F) := fun c => StableHlo.after hostOps0 (St0 m ρ c)
abbrev En0 : (c : Dev nD) → (b : Ref sig .tc) → Buf (Elt F) ((c : Thread nD τ).loc b) := fun c b => St1 m ρ c b
/-- At region 0's exit: its arrays at what the pipeline leaves, every other buffer as entered. -/
def St2 (c : Dev nD) : Valuation τ sig (Elt F) :=
  Pipeline.withArrays spec0 c (St1 m ρ c) fun w => (dat0 (En0 m ρ) c).arrAt w cfg0.N
theorem St2_arr (c : Dev nD) (w : Fin cfg0.W) :
    St2 m ρ c (Proc.devRef .tc (Pipeline.arrRef spec0 w)) = (dat0 (En0 m ρ) c).arrAt w cfg0.N := by
  unfold St2; exact Pipeline.withArrays_arr spec0 launch0.win.arr_inj c _ _ w
theorem St2_of_ne (c : Dev nD) (b : Ref sig .tc) (hb : ∀ w, Pipeline.arrRef spec0 w ≠ b) :
    St2 m ρ c (Proc.devRef .tc b) = St1 m ρ c (Proc.devRef .tc b) := by
  unfold St2; exact Pipeline.withArrays_of_ne spec0 c _ _ b hb
abbrev St2E : (c : Dev nD) → (b : Ref sig .tc) → Buf (Elt F) ((c : Thread nD τ).loc b) := fun c b => St2 m ρ c b
theorem hF0 (c : Dev nD) (w : Fin cfg0.W) : (dat0 (En0 m ρ) c).arrAt w cfg0.N = St2E m ρ c (Pipeline.arrRef spec0 w) :=
  (St2_arr m ρ c w).symm
theorem hrest0 (c : Dev nD) : ∀ b, b ∉ Finset.univ.image (Pipeline.arrRef spec0) → St2E m ρ c b = En0 m ρ c b :=
  fun b hb => St2_of_ne m ρ c b fun w e => hb (Finset.mem_image.mpr ⟨w, Finset.mem_univ _, e⟩)

/-- After the second stretch: region 1's entry. -/
abbrev St3 : Dev nD → Valuation τ sig (Elt F) := fun c => StableHlo.after hostOps1 (St2 m ρ c)
abbrev En1 : (c : Dev nD) → (b : Ref sig .tc) → Buf (Elt F) ((c : Thread nD τ).loc b) := fun c b => St3 m ρ c b
/-- At region 1's exit. -/
def St4 (c : Dev nD) : Valuation τ sig (Elt F) :=
  Pipeline.withArrays spec1 c (St3 m ρ c) fun w => (dat1 (En1 m ρ) c).arrAt w cfg1.N
theorem St4_arr (c : Dev nD) (w : Fin cfg1.W) :
    St4 m ρ c (Proc.devRef .tc (Pipeline.arrRef spec1 w)) = (dat1 (En1 m ρ) c).arrAt w cfg1.N := by
  unfold St4; exact Pipeline.withArrays_arr spec1 launch1.win.arr_inj c _ _ w
theorem St4_of_ne (c : Dev nD) (b : Ref sig .tc) (hb : ∀ w, Pipeline.arrRef spec1 w ≠ b) :
    St4 m ρ c (Proc.devRef .tc b) = St3 m ρ c (Proc.devRef .tc b) := by
  unfold St4; exact Pipeline.withArrays_of_ne spec1 c _ _ b hb
abbrev St4E : (c : Dev nD) → (b : Ref sig .tc) → Buf (Elt F) ((c : Thread nD τ).loc b) := fun c b => St4 m ρ c b
theorem hF1 (c : Dev nD) (w : Fin cfg1.W) : (dat1 (En1 m ρ) c).arrAt w cfg1.N = St4E m ρ c (Pipeline.arrRef spec1 w) :=
  (St4_arr m ρ c w).symm
theorem hrest1 (c : Dev nD) : ∀ b, b ∉ Finset.univ.image (Pipeline.arrRef spec1) → St4E m ρ c b = En1 m ρ c b :=
  fun b hb => St4_of_ne m ρ c b fun w e => hb (Finset.mem_image.mpr ⟨w, Finset.mem_univ _, e⟩)

/-- After the last stretch: the end. -/
abbrev St5 : Dev nD → Valuation τ sig (Elt F) := fun c => StableHlo.after hostOps2 (St4 m ρ c)

/-! ## The arguments end as launched -/

/-- No host operation and no region writes the argument array, so the last contents at it are the launch's. -/
theorem St5_main_arg0 (c : Dev nD) : St5 m ρ c (Proc.devRef .tc main_arg0) = m ((c : Thread nD τ).loc main_arg0) :=
  calc St5 m ρ c (Proc.devRef .tc main_arg0)
    _ = St4 m ρ c (Proc.devRef .tc main_arg0) := StableHlo.after_of_writes_sub hostOps2 _ hostOps2_writes (r := main_arg0) (by decide)
    _ = St3 m ρ c (Proc.devRef .tc main_arg0) := St4_of_ne m ρ c main_arg0 (by decide)
    _ = St2 m ρ c (Proc.devRef .tc main_arg0) := StableHlo.after_of_writes_sub hostOps1 _ hostOps1_writes (r := main_arg0) (by decide)
    _ = St1 m ρ c (Proc.devRef .tc main_arg0) := St2_of_ne m ρ c main_arg0 (by decide)
    _ = St0 m ρ c (Proc.devRef .tc main_arg0) := StableHlo.after_of_writes_sub hostOps0 _ hostOps0_writes (r := main_arg0) (by decide)
    _ = m ((c : Thread nD τ).loc main_arg0) := rfl

/-- No host operation and no region writes the argument array, so the last contents at it are the launch's. -/
theorem St5_main_arg1 (c : Dev nD) : St5 m ρ c (Proc.devRef .tc main_arg1) = m ((c : Thread nD τ).loc main_arg1) :=
  calc St5 m ρ c (Proc.devRef .tc main_arg1)
    _ = St4 m ρ c (Proc.devRef .tc main_arg1) := StableHlo.after_of_writes_sub hostOps2 _ hostOps2_writes (r := main_arg1) (by decide)
    _ = St3 m ρ c (Proc.devRef .tc main_arg1) := St4_of_ne m ρ c main_arg1 (by decide)
    _ = St2 m ρ c (Proc.devRef .tc main_arg1) := StableHlo.after_of_writes_sub hostOps1 _ hostOps1_writes (r := main_arg1) (by decide)
    _ = St1 m ρ c (Proc.devRef .tc main_arg1) := St2_of_ne m ρ c main_arg1 (by decide)
    _ = St0 m ρ c (Proc.devRef .tc main_arg1) := StableHlo.after_of_writes_sub hostOps0 _ hostOps0_writes (r := main_arg1) (by decide)
    _ = m ((c : Thread nD τ).loc main_arg1) := rfl

/-- No host operation and no region writes the argument array, so the last contents at it are the launch's. -/
theorem St5_main_arg2 (c : Dev nD) : St5 m ρ c (Proc.devRef .tc main_arg2) = m ((c : Thread nD τ).loc main_arg2) :=
  calc St5 m ρ c (Proc.devRef .tc main_arg2)
    _ = St4 m ρ c (Proc.devRef .tc main_arg2) := StableHlo.after_of_writes_sub hostOps2 _ hostOps2_writes (r := main_arg2) (by decide)
    _ = St3 m ρ c (Proc.devRef .tc main_arg2) := St4_of_ne m ρ c main_arg2 (by decide)
    _ = St2 m ρ c (Proc.devRef .tc main_arg2) := StableHlo.after_of_writes_sub hostOps1 _ hostOps1_writes (r := main_arg2) (by decide)
    _ = St1 m ρ c (Proc.devRef .tc main_arg2) := St2_of_ne m ρ c main_arg2 (by decide)
    _ = St0 m ρ c (Proc.devRef .tc main_arg2) := StableHlo.after_of_writes_sub hostOps0 _ hostOps0_writes (r := main_arg2) (by decide)
    _ = m ((c : Thread nD τ).loc main_arg2) := rfl

/-! ## The proof data family and the thread state -/

/-- No region has a prefetched table. -/
abbrev admH : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) admH p) c
  | ⟨0, _⟩ => fun c => dat0 (En0 m ρ) c
  | ⟨1, _⟩ => fun c => dat1 (En1 m ρ) c
abbrev 𝒱H : Variants := Variants.none
/-- No core owes another anything. -/
abbrev LH : GSem nD τ sig → Finset Unit := fun _ => ∅
abbrev lvH : GSem nD τ sig → Unit → ℕ := fun _ _ => 0
/-- What rides beside the buffers through every segment: the generator register at some state, and nothing owed. -/
abbrev Ride (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tend (c : Dev nD) : sProp 𝕄 := iprop(StableHlo.held (c : Thread nD τ) (Pipeline.ucRefs τ sig) (St5 m ρ c) ∗ ∃ r, prngReg c r)

/-! ## The regions as segments -/

set_option backward.isDefEq.respectTransparency.types false in
/-- REGION 0 as a segment: entered from every unscoped buffer at the contents before it, left at the contents after it.
    Its arrays are split out of the unscoped buffers and put back at what the write-backs leave; the generator
    register goes into the region invariant and comes back; nothing is owed; the kernel has no semaphore of its own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ LH lvH 0 fun _ _ => rfl
  pre c := iprop(StableHlo.held (c : Thread nD τ) (Pipeline.ucRefs τ sig) (St1 m ρ c) ∗ Ride c)
  post c := iprop(StableHlo.held (c : Thread nD τ) (Pipeline.ucRefs τ sig) (St2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (En0 m ρ) c)
    unfold Pipeline.ΦA
    iintro ⟨Hp, -, Hr⟩
    isplitl [Hr]; · iexact Hr
    iexact Hp
  hout c := by
    rw [Pipeline.ownSems0_none]
    refine BIBase.Entails.trans (hout0 (En0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (En0 m ρ c) (St2E m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at the contents before it, left at the contents after it.
    Its arrays are split out of the unscoped buffers and put back at what the write-backs leave; the generator
    register goes into the region invariant and comes back; nothing is owed; the kernel has no semaphore of its own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ LH lvH 1 fun _ _ => rfl
  pre c := iprop(StableHlo.held (c : Thread nD τ) (Pipeline.ucRefs τ sig) (St3 m ρ c) ∗ Ride c)
  post c := iprop(StableHlo.held (c : Thread nD τ) (Pipeline.ucRefs τ sig) (St4 m ρ c) ∗ Ride c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (En1 m ρ) c)
    unfold Pipeline.ΦA
    iintro ⟨Hp, -, Hr⟩
    isplitl [Hr]; · iexact Hr
    iexact Hp
  hout c := by
    rw [Pipeline.ownSems0_none]
    refine BIBase.Entails.trans (hout1 (En1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (En1 m ρ c) (St4E m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m ρ) () defs₀ 𝒱H LH lvH) :=
  [ .host (hseg hostOps0 hostOps0_sub hostOps0_fresh (St0 m ρ)),
    .region (reg0 m ρ),
    .host (hseg hostOps1 hostOps1_sub hostOps1_fresh (St2 m ρ)),
    .region (reg1 m ρ),
    .host (hseg hostOps2 hostOps2_sub hostOps2_fresh (St4 m ρ)) ]
theorem main_run (c : Dev nD) : main (F := F) c = Pipeline.Seg.run (segsH m ρ) := (main_chain c).trans (by chain_rfl)

set_option backward.isDefEq.respectTransparency.types false in
/-- Every weakly fair execution of @main from memory m with zero counters terminates, nothing faulting, and every final
    state has every unscoped buffer of every core at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = St5 m ρ c b) :=
  Pipeline.θ_run_regions_kit (pcfgs (F := F)) admH (pdats m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (St0 m ρ c) ∗ Ride c)) (Tₙ := Tend m ρ)
    (hch := ⟨fun _ => .rfl, fun _ => .rfl, fun _ => .rfl, fun _ => .rfl, fun _ => .rfl, fun c => by
      show (iprop(StableHlo.held (c : Thread nD τ) (Pipeline.ucRefs τ sig) (St5 m ρ c) ∗ Ride c) : sProp 𝕄)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (St0 m ρ c)
        from Pipeline.unscopedBufs_held c (St0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = St5 m ρ c b)
    (hfin := fun c s' => by
      iintro ⟨⟨Hh, -⟩, HSI⟩
      unfold StableHlo.held
      imodintro
      iapply (pointsTo_read_all (Pipeline.ucRefs τ sig) (fun b => (((c : Thread nD τ)).1, b)) (St5 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (St5_main_arg0 m ρ c),
     (h c _ (mem_uc main_arg1 (by decide))).trans (St5_main_arg1 m ρ c),
     (h c _ (mem_uc main_arg2 (by decide))).trans (St5_main_arg2 m ρ c)⟩) (run_all m ρ)

/-- The result buffer and the arguments at the end: the result at the last contents of the fold. -/
theorem run_result : θ_run defs (onTc (τ := τ) (main (F := F))) ⟨m, fun _ => 0, ρ⟩ (fun r => ∀ c : Dev nD,
      r.2.mem ((c.tc : Thread nD τ).loc main_v28) = St5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v28 (by decide)),
     (h c _ (mem_uc main_arg0 (by decide))).trans (St5_main_arg0 m ρ c),
     (h c _ (mem_uc main_arg1 (by decide))).trans (St5_main_arg1 m ρ c),
     (h c _ (mem_uc main_arg2 (by decide))).trans (St5_main_arg2 m ρ c)⟩) (run_all m ρ)

end Cert.KernelIdeal.Hand

end
-- ==== Proof.Spec.lean ====
/-
  The motion-diffusion loss as ONE function of the three argument arrays over the extended reals, by coordinates:
  pred, target : [64, 24, 6, 2048] (batch, joint, rotation component, frame) and joint_positions : [64, 24, 3, 2048]
  (batch, joint, axis, frame).

      total = Σ (p − t)² / (64·24·6·2048)  +  0.2 · Σ ((p⁺ − p) − (t⁺ − t))² / (64·24·6·2047)
              +  0.1 · Σ slide / (Σ contactVel + 1e-8)

  where ⁺ is the next frame, the foot joints are 7, 8, 10, 11, contact = logistic ((0.05 − height) · 20) with the height
  the axis-1 coordinate, contactVel the mean of the contact weight at a frame and the next, and slide the squared
  horizontal (axes 0 and 2) foot velocity times contactVel. Every float literal stays the binary word both programs
  print; both programs are shown to end at total. Also here: sums over an index set of rank 1, 3 or 4 as iterated sums
  over the coordinates, and the two regroupings of the summation range the kernel's tiling uses
  (1536 = 12 · 128 = 64 · 24 merged batch-joint rows; 64 = 4 · 16 batches).
-/
import Idealize.ShloMosaic.PureOps.Ideal
import Idealize.ShloMosaic.Lib.ValueIdx
import Idealize.ShloMosaic.Lib.ValueIdxRank1

noncomputable section

open scoped BigOperators

namespace MotionLoss

open Idealize.ShloMosaic Idealize.ShloMosaic.ValueIdx

/-- The shape of the rotation arrays (pred, target), and of joint_positions. -/
abbrev Rot : Shape := ⟨4, ![64, 24, 6, 2048]⟩
abbrev Pos : Shape := ⟨4, ![64, 24, 3, 2048]⟩

/-- Frame k + 1 and frame k of a frame-to-frame difference k : Fin 2047. -/
abbrev nxt (k : Fin 2047) : Fin 2048 := ⟨k.val + 1, by omega⟩
abbrev cur (k : Fin 2047) : Fin 2048 := ⟨k.val, by omega⟩

/-- The four foot joints. -/
def foot : Fin 4 → Fin 24 := ![7, 8, 10, 11]

/-! ## The three terms, entry by entry -/

/-- The squared reconstruction error at one entry. -/
def sqErr (p t : Rot.Idx → EReal) (b : Fin 64) (j : Fin 24) (c : Fin 6) (k : Fin 2048) : EReal :=
  (p (ix4 b j c k) - t (ix4 b j c k)) * (p (ix4 b j c k) - t (ix4 b j c k))

/-- The squared velocity error at one entry: predicted frame difference minus target frame difference, squared. -/
def velErr (p t : Rot.Idx → EReal) (b : Fin 64) (j : Fin 24) (c : Fin 6) (k : Fin 2047) : EReal :=
  ((p (ix4 b j c (nxt k)) - p (ix4 b j c (cur k))) - (t (ix4 b j c (nxt k)) - t (ix4 b j c (cur k))))
    * ((p (ix4 b j c (nxt k)) - p (ix4 b j c (cur k))) - (t (ix4 b j c (nxt k)) - t (ix4 b j c (cur k))))

/-- The soft contact weight of foot f at frame k: logistic ((0.05 − height) · 20). -/
def contact (q : Pos.Idx → EReal) (b : Fin 64) (f : Fin 4) (k : Fin 2048) : EReal :=
  Ideal.logistic ((Ideal.ofBits .f32 0x3D4CCCCD#32 - q (ix4 b (foot f) 1 k)) * Ideal.ofBits .f32 0x41A00000#32)

/-- The contact weight of a frame step: the mean of the two frames'. -/
def contactVel (q : Pos.Idx → EReal) (b : Fin 64) (f : Fin 4) (k : Fin 2047) : EReal :=
  (contact q b f (nxt k) + contact q b f (cur k)) * Ideal.ofBits .f32 0x3F000000#32

/-- The sliding penalty of a frame step: squared horizontal velocity (axes 0 and 2) times the step's contact weight. -/
def slide (q : Pos.Idx → EReal) (b : Fin 64) (f : Fin 4) (k : Fin 2047) : EReal :=
  ((q (ix4 b (foot f) 0 (nxt k)) - q (ix4 b (foot f) 0 (cur k))) * (q (ix4 b (foot f) 0 (nxt k)) - q (ix4 b (foot f) 0 (cur k)))
      + (q (ix4 b (foot f) 2 (nxt k)) - q (ix4 b (foot f) 2 (cur k))) * (q (ix4 b (foot f) 2 (nxt k)) - q (ix4 b (foot f) 2 (cur k))))
    * contactVel q b f k

/-! ## The four sums and the loss -/

def reconSum (p t : Rot.Idx → EReal) : EReal := ∑ b : Fin 64, ∑ j : Fin 24, ∑ c : Fin 6, ∑ k : Fin 2048, sqErr p t b j c k
def velSum (p t : Rot.Idx → EReal) : EReal := ∑ b : Fin 64, ∑ j : Fin 24, ∑ c : Fin 6, ∑ k : Fin 2047, velErr p t b j c k
def slideSum (q : Pos.Idx → EReal) : EReal := ∑ b : Fin 64, ∑ f : Fin 4, ∑ k : Fin 2047, slide q b f k
def contactSum (q : Pos.Idx → EReal) : EReal := ∑ b : Fin 64, ∑ f : Fin 4, ∑ k : Fin 2047, contactVel q b f k

/-- The loss. The divisors are the f32 words of 18874368 = 64·24·6·2048 and 18865152 = 64·24·6·2047. -/
def total (p t : Rot.Idx → EReal) (q : Pos.Idx → EReal) : EReal :=
  (Ideal.div (reconSum p t) (Ideal.ofBits .f32 0x4B900000#32)
      + Ideal.ofBits .f32 0x3E4CCCCD#32 * Ideal.div (velSum p t) (Ideal.ofBits .f32 0x4B8FEE00#32))
    + Ideal.ofBits .f32 0x3DCCCCCD#32 * Ideal.div (slideSum q) (contactSum q + Ideal.ofBits .f32 0x322BCC77#32)

/-! ## Sums over an index set, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n := n0)).symm f]
  rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  simp only [Fintype.sum_prod_type]
  rfl

/-! ## The tilings of the summation range -/

/-- A sum over a range of m · n indices as the double sum over the quotient a and the remainder b of the index
    n · a + b. -/
theorem sum_fin_mul {M : Type*} [AddCommMonoid M] (m n N : Nat) (h : m * n = N) (g : Fin N → M) :
    ∑ x : Fin N, g x = ∑ a : Fin m, ∑ b : Fin n, g ⟨n * a.val + b.val, by
      have ha := a.isLt; have hb := b.isLt
      calc n * a.val + b.val < n * a.val + n := by omega
        _ = n * (a.val + 1) := by ring
        _ ≤ n * m := Nat.mul_le_mul_left _ (by omega)
        _ = N := by rw [Nat.mul_comm]; exact h⟩ := by
  subst h
  rw [← Equiv.sum_comp (finProdFinEquiv (m := m) (n := n)) g, Fintype.sum_prod_type]
  refine Finset.sum_congr rfl fun a _ => Finset.sum_congr rfl fun b _ => ?_
  congr 1
  ext
  simp [finProdFinEquiv, Nat.add_comm]

/-- The 1536 merged batch-joint rows, once as 12 tiles of 128 rows and once as 64 batches of 24 joints. -/
theorem sum_rows_tiles {M : Type*} [AddCommMonoid M] (g : Fin 1536 → M) :
    ∑ t : Fin 12, ∑ r : Fin 128, g ⟨128 * t.val + r.val, by omega⟩
      = ∑ b : Fin 64, ∑ j : Fin 24, g ⟨24 * b.val + j.val, by omega⟩ := by
  rw [← sum_fin_mul 12 128 1536 (by norm_num) g, ← sum_fin_mul 64 24 1536 (by norm_num) g]

/-- The 64 batches as 4 tiles of 16. -/
theorem sum_batch_tiles {M : Type*} [AddCommMonoid M] (g : Fin 64 → M) :
    ∑ t : Fin 4, ∑ r : Fin 16, g ⟨16 * t.val + r.val, by omega⟩ = ∑ b : Fin 64, g b := by
  rw [← sum_fin_mul 4 16 64 (by norm_num) g]

end MotionLoss

end
-- ==== Proof.KBlocks.lean ====
/-
  How the two regions' input tiles and the program's result read in terms of the three argument arrays.
  Region 0's inputs are the rotation arrays reshaped to 1536 merged batch-joint rows: row R of the reshaped array is
  batch R / 24, joint R % 24, and tile t holds rows 128 t … 128 t + 127. Region 1's input stacks the four foot joints
  (7, 8, 10, 11) sliced out of the positions: tile t holds batches 16 t … 16 t + 15. The result is the last stretch of
  host operations applied to the four [1,1] sums the regions leave: each mean's quotient, the contact quotient, and the
  weighted sum.
-/
import proofs.«108107_j59631325938492_1_alg».proof.Proof.Gen.KernelIdeal.Launch
import proofs.«108107_j59631325938492_1_alg».proof.Proof.Gen.KernelIdeal.Skeleton
import proofs.«108107_j59631325938492_1_alg».proof.Proof.Gen.KernelIdeal.Points
import proofs.«108107_j59631325938492_1_alg».proof.Proof.KI.Run
import proofs.«108107_j59631325938492_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The three argument arrays as launched on core c, at their literal types. -/
abbrev argPred (c : Dev nD) : FVec Ideal S64x24x6x2048 .f32 := m ((c.tc : Thread nD τ).loc main_arg0)
abbrev argTarg (c : Dev nD) : FVec Ideal S64x24x6x2048 .f32 := m ((c.tc : Thread nD τ).loc main_arg1)
abbrev argPos (c : Dev nD) : FVec Ideal S64x24x3x2048 .f32 := m ((c.tc : Thread nD τ).loc main_arg2)

/-! ## Region 0's inputs: the reshaped rotation arrays -/

/-- Region 0 finds the predictions reshaped to 1536 merged rows. -/
theorem En0_v0 (c : Dev nD) :
    (En0 m ρ c main_v0 : FVec Ideal S1536x6x2048 .f32) = shapeCast S1536x6x2048 (argPred m c) shapeCasts_S64x24x6x2048_S1536x6x2048 := by
  show StableHlo.after hostOps0 (St0 m ρ c) (Proc.devRef .tc main_v0) = _
  after_results
  rfl

/-- The same for the targets. -/
theorem En0_v1 (c : Dev nD) :
    (En0 m ρ c main_v1 : FVec Ideal S1536x6x2048 .f32) = shapeCast S1536x6x2048 (argTarg m c) shapeCasts_S64x24x6x2048_S1536x6x2048 := by
  show StableHlo.after hostOps0 (St0 m ρ c) (Proc.devRef .tc main_v1) = _
  after_results
  rfl

/-- The index maps of the two input windows over the grid: tile t is block t on the row axis, block 0 on the others. -/
theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)

theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Row R of the merged array is batch R / 24, joint R % 24 of the four-axis array. -/
theorem merged_row (x : FVec Ideal S64x24x6x2048 .f32) (j : S1536x6x2048.Idx) (R : ℕ) (hR : R < 1536) (cc : Fin 6) (k : Fin 2048)
    (h0 : (j 0).val = R) (h1 : (j 1).val = cc.val) (h2 : (j 2).val = k.val) :
    shapeCast S1536x6x2048 x shapeCasts_S64x24x6x2048_S1536x6x2048 j
      = x (ix4 ⟨R / 24, by omega⟩ ⟨R % 24, by omega⟩ cc k) := by
  refine shapeCast_apply x _ j _ ?_
  rw [Shape.rowMajor_val_four, Shape.rowMajor_val_three]
  show ((R / 24 * 24 + R % 24) * 6 + cc.val) * 2048 + k.val = ((j 0).val * 6 + (j 1).val) * 2048 + (j 2).val
  rw [h0, h1, h2]
  have := Nat.div_add_mod R 24
  omega

/-- Tile t of the predictions: merged row 128 t + r is batch (128 t + r) / 24, joint (128 t + r) % 24. -/
theorem predBlk_apply (c : Dev nD) (t : Fin cfg0.N) (ht : t.val < 12) (r : Fin 128) (cc : Fin 6) (k : Fin 2048) :
    predBlk (En0 m ρ) c t (ix3 r cc k)
      = argPred m c (ix4 ⟨(128 * t.val + r.val) / 24, by omega⟩ ⟨(128 * t.val + r.val) % 24, by omega⟩ cc k) := by
  show iblk0 (En0 m ρ) c 0 t (ix3 r cc k) = _
  unfold iblk0
  rw [View.read_apply]
  show (En0 m ρ c main_v0 : FVec Ideal S1536x6x2048 .f32) (((cfg0.win 0).blk t).view.emb (ix3 r cc k)) = _
  rw [En0_v0]
  obtain ⟨e0, e1, e2⟩ := idx0_0 t
  refine merged_row (argPred m c) _ (128 * t.val + r.val) (by omega) cc k ?_ ?_ ?_
  · show win0_0.index t (0 : Fin 3) * 128 + 1 * r.val = _
    rw [e0]; omega
  · show win0_0.index t (1 : Fin 3) * 6 + 1 * cc.val = _
    rw [e1]; omega
  · show win0_0.index t (2 : Fin 3) * 2048 + 1 * k.val = _
    rw [e2]; omega

/-- The same for the targets. -/
theorem targBlk_apply (c : Dev nD) (t : Fin cfg0.N) (ht : t.val < 12) (r : Fin 128) (cc : Fin 6) (k : Fin 2048) :
    targBlk (En0 m ρ) c t (ix3 r cc k)
      = argTarg m c (ix4 ⟨(128 * t.val + r.val) / 24, by omega⟩ ⟨(128 * t.val + r.val) % 24, by omega⟩ cc k) := by
  show iblk0 (En0 m ρ) c 1 t (ix3 r cc k) = _
  unfold iblk0
  rw [View.read_apply]
  show (En0 m ρ c main_v1 : FVec Ideal S1536x6x2048 .f32) (((cfg0.win 1).blk t).view.emb (ix3 r cc k)) = _
  rw [En0_v1]
  obtain ⟨e0, e1, e2⟩ := idx0_1 t
  refine merged_row (argTarg m c) _ (128 * t.val + r.val) (by omega) cc k ?_ ?_ ?_
  · show win0_1.index t (0 : Fin 3) * 128 + 1 * r.val = _
    rw [e0]; omega
  · show win0_1.index t (1 : Fin 3) * 6 + 1 * cc.val = _
    rw [e1]; omega
  · show win0_1.index t (2 : Fin 3) * 2048 + 1 * k.val = _
    rw [e2]; omega

/-! ## Region 1's input: the four foot joints sliced out and stacked -/

/-- One pass over a fold of host operations read at a buffer: each operation's value at its own result, the contents
    before it at any other buffer. -/
local macro "peel_results" : tactic =>
  `(tactic| repeat (first
     | rw [StableHlo.nullary_result] | rw [StableHlo.unary_result] | rw [StableHlo.binary_result] | rw [StableHlo.reshape_result]
     | (rw [StableHlo.nullary_result_ne]; rotate_left; decide)
     | (rw [StableHlo.unary_result_ne]; rotate_left; decide)
     | (rw [StableHlo.binary_result_ne]; rotate_left; decide)
     | (rw [StableHlo.reshape_result_ne]; rotate_left; decide)
     | (rw [StableHlo.nary_result_ne]; rotate_left; decide)))

/-- Nothing before region 1 writes the positions: region 0's exit has them as launched. -/
theorem St2_arg2 (c : Dev nD) : St2 m ρ c (Proc.devRef .tc main_arg2) = argPos m c :=
  calc St2 m ρ c (Proc.devRef .tc main_arg2)
    _ = St1 m ρ c (Proc.devRef .tc main_arg2) := St2_of_ne m ρ c main_arg2 (by decide)
    _ = St0 m ρ c (Proc.devRef .tc main_arg2) := StableHlo.after_of_writes_sub hostOps0 _ hostOps0_writes (r := main_arg2) (by decide)
    _ = argPos m c := rfl

/-- Joint J sliced out of the positions, its unit joint axis dropped and put back. -/
def footPiece (P : FVec Ideal S64x24x3x2048 .f32) (J : ℕ) (h : S64x24x3x2048.Slices ![0, J, 0, 0] S64x1x3x2048) :
    FVec Ideal S64x1x3x2048 .f32 :=
  broadcastInDim S64x1x3x2048 ![0, 2, 3] bcast_S64x3x2048_S64x1x3x2048_0_2_3
    (shapeCast S64x3x2048 (extractStridedSlice S64x1x3x2048 ![0, J, 0, 0] P h) shapeCasts_S64x1x3x2048_S64x3x2048)

/-- The piece at batch b, axis a, frame k is the positions' entry at joint J. -/
theorem footPiece_apply (P : FVec Ideal S64x24x3x2048 .f32) (J : ℕ) (hJ : J < 24)
    (h : S64x24x3x2048.Slices ![0, J, 0, 0] S64x1x3x2048) (b : Fin 64) (a : Fin 3) (k : Fin 2048) :
    footPiece P J h (ix4 b (0 : Fin 1) a k) = P (ix4 b ⟨J, hJ⟩ a k) := by
  unfold footPiece
  refine (broadcastInDim_apply _ _ _ (ix4 b (0 : Fin 1) a k) (ix3 b a k)
    (fun d => match d with | ⟨0, _⟩ => rfl | ⟨1, _⟩ => rfl | ⟨2, _⟩ => rfl)).trans ?_
  refine (shapeCast_apply _ _ (ix3 b a k) (ix4 b (0 : Fin 1) a k) ?_).trans ?_
  · rw [Shape.rowMajor_val_four, Shape.rowMajor_val_three]
    show ((b.val * 1 + 0) * 3 + a.val) * 2048 + k.val = (b.val * 3 + a.val) * 2048 + k.val
    omega
  · refine extractStridedSlice_apply _ _ _ (ix4 b (0 : Fin 1) a k) (ix4 b ⟨J, hJ⟩ a k) (fun d => ?_)
    match d with
    | ⟨0, _⟩ => show b.val = 0 + b.val; omega
    | ⟨1, _⟩ => show J = J + 0; omega
    | ⟨2, _⟩ => show a.val = 0 + a.val; omega
    | ⟨3, _⟩ => show k.val = 0 + k.val; omega

/-- The four foot joints 7, 8, 10, 11 stacked on the joint axis. -/
def footStack (P : FVec Ideal S64x24x3x2048 .f32) : FVec Ideal S64x4x3x2048 .f32 :=
  concatenate S64x4x3x2048 1
    [⟨S64x1x3x2048, footPiece P 7 slices_S64x24x3x2048_S64x1x3x2048_0_7_0_0⟩,
     ⟨S64x1x3x2048, footPiece P 8 slices_S64x24x3x2048_S64x1x3x2048_0_8_0_0⟩,
     ⟨S64x1x3x2048, footPiece P 10 slices_S64x24x3x2048_S64x1x3x2048_0_10_0_0⟩,
     ⟨S64x1x3x2048, footPiece P 11 slices_S64x24x3x2048_S64x1x3x2048_0_11_0_0⟩]
    concatenates_S64x1x3x2048_S64x1x3x2048_S64x1x3x2048_S64x1x3x2048_S64x4x3x2048_d1

/-- Off the joint axis a piece's index and the stack's agree. -/
theorem off_axis (b : Fin 64) (f : Fin 4) (a : Fin 3) (k : Fin 2048) :
    ∀ d : Fin S64x1x3x2048.rank, d.cast (rfl : S64x1x3x2048.rank = S64x4x3x2048.rank) ≠ (1 : Fin 4) →
      ((ix4 b (0 : Fin 1) a k : S64x1x3x2048.Idx) d).val
        = ((ix4 b f a k : S64x4x3x2048.Idx) (d.cast (rfl : S64x1x3x2048.rank = S64x4x3x2048.rank))).val := fun d hd =>
  match d, hd with
  | ⟨0, _⟩, _ => rfl
  | ⟨1, _⟩, hd => absurd (Fin.ext rfl) hd
  | ⟨2, _⟩, _ => rfl
  | ⟨3, _⟩, _ => rfl

/-- The stack at foot f is the positions at joint foot f. -/
theorem footStack_apply (P : FVec Ideal S64x24x3x2048 .f32) (b : Fin 64) (f : Fin 4) (a : Fin 3) (k : Fin 2048) :
    footStack P (ix4 b f a k) = P (ix4 b (MotionLoss.foot f) a k) := by
  unfold footStack
  match f with
  | ⟨0, hf⟩ =>
    refine (concatenate_apply_piece (1 : Fin 4) _ _ (ix4 b ⟨0, hf⟩ a k) 0 ?_ S64x1x3x2048
      (footPiece P 7 slices_S64x24x3x2048_S64x1x3x2048_0_7_0_0) ?_ rfl 0 ?_
      (ix4 b (0 : Fin 1) a k) (off_axis b ⟨0, hf⟩ a k) ?_).trans (footPiece_apply P 7 (by omega) _ b a k)
    · exact (by omega : 0 < 4)
    · rfl
    · rfl
    · rfl
  | ⟨1, hf⟩ =>
    refine (concatenate_apply_piece (1 : Fin 4) _ _ (ix4 b ⟨1, hf⟩ a k) 1 ?_ S64x1x3x2048
      (footPiece P 8 slices_S64x24x3x2048_S64x1x3x2048_0_8_0_0) ?_ rfl 1 ?_
      (ix4 b (0 : Fin 1) a k) (off_axis b ⟨1, hf⟩ a k) ?_).trans (footPiece_apply P 8 (by omega) _ b a k)
    · exact (by omega : 1 < 4)
    · rfl
    · rfl
    · rfl
  | ⟨2, hf⟩ =>
    refine (concatenate_apply_piece (1 : Fin 4) _ _ (ix4 b ⟨2, hf⟩ a k) 2 ?_ S64x1x3x2048
      (footPiece P 10 slices_S64x24x3x2048_S64x1x3x2048_0_10_0_0) ?_ rfl 2 ?_
      (ix4 b (0 : Fin 1) a k) (off_axis b ⟨2, hf⟩ a k) ?_).trans (footPiece_apply P 10 (by omega) _ b a k)
    · exact (by omega : 2 < 4)
    · rfl
    · rfl
    · rfl
  | ⟨3, hf⟩ =>
    refine (concatenate_apply_piece (1 : Fin 4) _ _ (ix4 b ⟨3, hf⟩ a k) 3 ?_ S64x1x3x2048
      (footPiece P 11 slices_S64x24x3x2048_S64x1x3x2048_0_11_0_0) ?_ rfl 3 ?_
      (ix4 b (0 : Fin 1) a k) (off_axis b ⟨3, hf⟩ a k) ?_).trans (footPiece_apply P 11 (by omega) _ b a k)
    · exact (by omega : 3 < 4)
    · rfl
    · rfl
    · rfl

/-- Region 1's input array as it finds it: the stacked foot joints of the launched positions. -/
theorem En1_v19 (c : Dev nD) :
    (En1 m ρ c main_v19 : FVec Ideal S64x4x3x2048 .f32) = footStack (argPos m c) := by
  show StableHlo.after hostOps1 (St2 m ρ c) (Proc.devRef .tc main_v19) = _
  simp only [StableHlo.after_cons, StableHlo.after_nil]
  rw [StableHlo.nary_result]
  dsimp only [Matrix.cons_val]
  peel_results
  rw [St2_arg2]
  rfl

/-- The index map of the input window over the grid: tile t is block t on the batch axis, block 0 on the others. -/
theorem idx1_0 : ∀ t : Fin cfg1.N, win1_0.index t (0 : Fin 4) = t.val ∧ win1_0.index t (1 : Fin 4) = 0
    ∧ win1_0.index t (2 : Fin 4) = 0 ∧ win1_0.index t (3 : Fin 4) = 0 :=
  (by decide +kernel : ∀ t : Fin grid1.N, _)

/-- Tile t of the stacked foot joints: batch 16 t + b, the f-th foot joint. -/
theorem footBlk_apply (c : Dev nD) (t : Fin cfg1.N) (ht : t.val < 4) (b : Fin 16) (f : Fin 4) (a : Fin 3) (k : Fin 2048) :
    footBlk (En1 m ρ) c t (ix4 b f a k) = argPos m c (ix4 ⟨16 * t.val + b.val, by omega⟩ (MotionLoss.foot f) a k) := by
  show iblk1 (En1 m ρ) c 0 t (ix4 b f a k) = _
  unfold iblk1
  rw [View.read_apply]
  show (En1 m ρ c main_v19 : FVec Ideal S64x4x3x2048 .f32) (((cfg1.win 0).blk t).view.emb (ix4 b f a k)) = _
  rw [En1_v19]
  obtain ⟨e0, e1, e2, e3⟩ := idx1_0 t
  have hj : ((cfg1.win 0).blk t).view.emb (ix4 b f a k) = ix4 ⟨16 * t.val + b.val, by omega⟩ f a k := by
    funext d; apply Fin.ext
    match d with
    | ⟨0, _⟩ => show win1_0.index t (0 : Fin 4) * 16 + 1 * b.val = 16 * t.val + b.val; rw [e0]; omega
    | ⟨1, _⟩ => show win1_0.index t (1 : Fin 4) * 4 + 1 * f.val = f.val; rw [e1]; omega
    | ⟨2, _⟩ => show win1_0.index t (2 : Fin 4) * 3 + 1 * a.val = a.val; rw [e2]; omega
    | ⟨3, _⟩ => show win1_0.index t (3 : Fin 4) * 2048 + 1 * k.val = k.val; rw [e3]; omega
  rw [hj]
  exact footStack_apply (argPos m c) _ f a k

/-! ## The result -/

/-- The last stretch of host operations as one function of the four [1,1] sums the regions leave. -/
def lossTail (r v s w : FVec Ideal S1x1 .f32) : FVec Ideal S_ .f32 := fun _ =>
  (Ideal.div (r (ix2 0 0)) (Ideal.ofBits .f32 0x4B900000#32)
      + Ideal.ofBits .f32 0x3E4CCCCD#32 * Ideal.div (v (ix2 0 0)) (Ideal.ofBits .f32 0x4B8FEE00#32))
    + Ideal.ofBits .f32 0x3DCCCCCD#32 * Ideal.div (s (ix2 0 0)) (w (ix2 0 0) + Ideal.ofBits .f32 0x322BCC77#32)

/-- The four [1,1] sums where the last two stretches read them: each region's output arrays at its exit. -/
theorem St4_v20_0 (c : Dev nD) : St4 m ρ c (Proc.devRef .tc main_v20_0) = (dat1 (En1 m ρ) c).arrAt 1 cfg1.N := St4_arr m ρ c 1
theorem St4_v20_1 (c : Dev nD) : St4 m ρ c (Proc.devRef .tc main_v20_1) = (dat1 (En1 m ρ) c).arrAt 2 cfg1.N := St4_arr m ρ c 2
theorem St2_v2_0 (c : Dev nD) : St2 m ρ c (Proc.devRef .tc main_v2_0) = (dat0 (En0 m ρ) c).arrAt 2 cfg0.N := St2_arr m ρ c 2
theorem St2_v2_1 (c : Dev nD) : St2 m ρ c (Proc.devRef .tc main_v2_1) = (dat0 (En0 m ρ) c).arrAt 3 cfg0.N := St2_arr m ρ c 3

/-- The one entry of a [1,1] array read as a scalar. -/
theorem scalar_of_unit (x : FVec Ideal S1x1 .f32) (i : S_.Idx) : shapeCast S_ x shapeCasts_S1x1_S_ i = x (ix2 0 0) := by
  refine shapeCast_apply x _ i _ ?_
  rfl

/-- The reconstruction mean's quotient, computed before region 1 and untouched by it. -/
theorem St4_v4 (c : Dev nD) :
    @Eq (FVec Ideal S_ .f32) (St4 m ρ c (Proc.devRef .tc main_v4))
      (Host.divf (F := Ideal) (shapeCast S_ ((dat0 (En0 m ρ) c).arrAt 2 cfg0.N) shapeCasts_S1x1_S_) (constant (F := Ideal) S_ .f32 0x4B900000#32)) := by
  rw [St4_of_ne m ρ c main_v4 (by decide)]
  show StableHlo.after hostOps1 (St2 m ρ c) (Proc.devRef .tc main_v4) = _
  after_results
  rw [St2_v2_0]
  rfl

/-- The velocity mean's quotient, likewise. -/
theorem St4_v6 (c : Dev nD) :
    @Eq (FVec Ideal S_ .f32) (St4 m ρ c (Proc.devRef .tc main_v6))
      (Host.divf (F := Ideal) (shapeCast S_ ((dat0 (En0 m ρ) c).arrAt 3 cfg0.N) shapeCasts_S1x1_S_) (constant (F := Ideal) S_ .f32 0x4B8FEE00#32)) := by
  rw [St4_of_ne m ρ c main_v6 (by decide)]
  show StableHlo.after hostOps1 (St2 m ρ c) (Proc.devRef .tc main_v6) = _
  after_results
  rw [St2_v2_1]
  rfl

/-- The closing operations on four [1,1] arrays, entry by entry. -/
theorem tail_eval (r v s w : FVec Ideal S1x1 .f32) :
    addf (addf (Host.divf (shapeCast S_ r shapeCasts_S1x1_S_) (constant (F := Ideal) S_ .f32 0x4B900000#32))
        (mulf (constant (F := Ideal) S_ .f32 0x3E4CCCCD#32)
          (Host.divf (shapeCast S_ v shapeCasts_S1x1_S_) (constant (F := Ideal) S_ .f32 0x4B8FEE00#32))))
      (mulf (constant (F := Ideal) S_ .f32 0x3DCCCCCD#32)
        (Host.divf (shapeCast S_ s shapeCasts_S1x1_S_)
          (addf (shapeCast S_ w shapeCasts_S1x1_S_) (constant (F := Ideal) S_ .f32 0x322BCC77#32))))
      = lossTail r v s w := by
  funext i
  show (Ideal.div (shapeCast S_ r shapeCasts_S1x1_S_ i) (Ideal.ofBits .f32 0x4B900000#32)
        + Ideal.ofBits .f32 0x3E4CCCCD#32 * Ideal.div (shapeCast S_ v shapeCasts_S1x1_S_ i) (Ideal.ofBits .f32 0x4B8FEE00#32))
      + Ideal.ofBits .f32 0x3DCCCCCD#32
        * Ideal.div (shapeCast S_ s shapeCasts_S1x1_S_ i) (shapeCast S_ w shapeCasts_S1x1_S_ i + Ideal.ofBits .f32 0x322BCC77#32) = _
  rw [scalar_of_unit r, scalar_of_unit v, scalar_of_unit s, scalar_of_unit w]
  rfl

/-- The result buffer at the end is that function of what the two regions' write-backs leave in their four outputs. -/
theorem result_tail (c : Dev nD) :
    St5 m ρ c (Proc.devRef .tc main_v28)
      = lossTail ((dat0 (En0 m ρ) c).arrAt 2 cfg0.N) ((dat0 (En0 m ρ) c).arrAt 3 cfg0.N)
          ((dat1 (En1 m ρ) c).arrAt 1 cfg1.N) ((dat1 (En1 m ρ) c).arrAt 2 cfg1.N) := by
  show StableHlo.after hostOps2 (St4 m ρ c) (Proc.devRef .tc main_v28) = _
  after_results_simp
  rw [St4_v4, St4_v6, St4_v20_0, St4_v20_1]
  exact tail_eval _ _ _ _

end Cert.KernelIdeal.Hand

end
-- ==== Proof.KPay.lean ====
/-
  What ONE tile adds to each of the kernel's four running sums, read at the ideal instance as sums over coordinates.

  Each of the kernel's accumulating bodies views its tile under a leading unit axis, sums every other axis from the zero
  word, takes the one element of the result and adds it to the one element of the running sum. Over the extended reals
  that is the running sum plus the total of the tile's entries; the unit axis and the change of shape are a bijection of
  the index sets, so the total is the iterated sum over the tile's coordinates. A slice of the frame axis at offset 1
  reads the next frame, at offset 0 the current one.
-/
import proofs.«108107_j59631325938492_1_alg».proof.Proof.Gen.KernelIdeal.Skeleton
import proofs.«108107_j59631325938492_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.HandPay

open Cert.KernelIdeal Cert.KernelIdeal.Gen Idealize.ShloMosaic Idealize.ShloMosaic.ValueIdx MotionLoss

/-- The soft contact weight of one foot at frame k, from its heights over the frames. -/
def contactAt (h : Fin 2048 → EReal) (k : Fin 2048) : EReal :=
  Ideal.logistic ((Ideal.ofBits .f32 0x3D4CCCCD#32 - h k) * Ideal.ofBits .f32 0x41A00000#32)

/-- The contact weight of a frame step: the mean of the two frames'. -/
def contactVelAt (h : Fin 2048 → EReal) (k : Fin 2047) : EReal :=
  (contactAt h (nxt k) + contactAt h (cur k)) * Ideal.ofBits .f32 0x3F000000#32

/-- The sliding penalty of a frame step, from the foot's two horizontal coordinates and its heights over the frames. -/
def slideAt (x z h : Fin 2048 → EReal) (k : Fin 2047) : EReal :=
  ((x (nxt k) - x (cur k)) * (x (nxt k) - x (cur k)) + (z (nxt k) - z (cur k)) * (z (nxt k) - z (cur k)))
    * contactVelAt h k

/-! ## The zero a running sum starts from -/

/-- The zero word splat over the one-element vector is the extended real 0 at its one index. -/
theorem zero_splat (h : S1x1.ShapeCasts S1x1) :
    shapeCast S1x1 (broadcast S1x1 (Scalar.ofBits (F := Ideal) .f32 0x00000000#32)) h = fun _ => (0 : EReal) := by
  rw [shapeCast_self]
  funext i
  exact Ideal.ofBits_zero_f32

theorem pay_zero_recon : k0_pay1 (F := Ideal) = fun _ => (0 : EReal) := zero_splat _
theorem pay_zero_vel : k0_pay2 (F := Ideal) = fun _ => (0 : EReal) := zero_splat _
theorem pay_zero_slide : k1_pay2 (F := Ideal) = fun _ => (0 : EReal) := zero_splat _
theorem pay_zero_contact : k1_pay3 (F := Ideal) = fun _ => (0 : EReal) := zero_splat _

/-! ## The tail every accumulating body ends in -/

/-- Summing every axis of w into the one-element vector, taking its element and adding it to the running sum a gives,
    at the running sum's one index, a plus the total of w over its index set. -/
theorem tail_total {s : Shape} {axes : List (Fin s.rank)} (w : FVec Ideal s .f32) (a : Vec Ideal S1x1 .f32)
    (hr : s.Reduces axes S1) (hc : S1.ShapeCasts S1x1x1x1) (hp : ∀ b, (![0, 0, 0, 0] : Fin 4 → Nat) b < S1x1x1x1.size b)
    (hs : S1x1.ShapeCasts S1x1) :
    shapeCast S1x1 (addf a (broadcast S1x1 (extractAt ![0, 0, 0, 0]
        (shapeCast S1x1x1x1 (multiReduction .add axes S1 w 0x00000000#32 hr (.inl rfl) rfl) hc) hp))) hs
      = fun i => a i + ∑ j : s.Idx, w j := by
  rw [shapeCast_self]
  funext i
  refine congrArg (a i + ·) ?_
  exact Ideal.multiReduction_add_total w _ hr (fun b => by
    match b with | ⟨0, _⟩ => rfl) (.inl rfl) rfl _

/-- A vector viewed under another shape has the same total. -/
theorem sum_shapeCast {s t : Shape} (v : s.Idx → EReal) (h : s.ShapeCasts t) :
    ∑ j : t.Idx, shapeCast t v h j = ∑ i : s.Idx, v i :=
  Equiv.sum_comp (Shape.reshapeEquiv h) v

/-! ## Layout operations read at coordinates -/

/-- A rank-3 vector cut along its last axis from offset o reads, at (a, b, j), the source at (a, b, k) with k = o + j. -/
theorem slice3_last {n0 n1 n2 m : Nat} (o : Nat) (X : (⟨3, ![n0, n1, n2]⟩ : Shape).Idx → EReal)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ fun ax =>
    match ax with
    | ⟨0, _⟩ => (Nat.zero_add _).symm
    | ⟨1, _⟩ => (Nat.zero_add _).symm
    | ⟨2, _⟩ => hk

/-- A rank-4 vector cut along its last two axes from offsets (o2, o3) reads, at (a, b, j2, j3), the source at
    (a, b, k2, k3) with k2 = o2 + j2 and k3 = o3 + j3. -/
theorem slice4_last2 {n0 n1 n2 n3 m2 m3 : Nat} (o2 o3 : Nat) (X : (⟨4, ![n0, n1, n2, n3]⟩ : Shape).Idx → EReal)
    (h : (⟨4, ![n0, n1, n2, n3]⟩ : Shape).Slices ![0, 0, o2, o3] ⟨4, ![n0, n1, m2, m3]⟩)
    (a : Fin n0) (b : Fin n1) (j2 : Fin m2) (j3 : Fin m3) (k2 : Fin n2) (k3 : Fin n3)
    (h2 : k2.val = o2 + j2.val) (h3 : k3.val = o3 + j3.val) :
    extractStridedSlice ⟨4, ![n0, n1, m2, m3]⟩ ![0, 0, o2, o3] X h (ix4 a b j2 j3) = X (ix4 a b k2 k3) :=
  extractStridedSlice_apply _ _ _ _ _ fun ax =>
    match ax with
    | ⟨0, _⟩ => (Nat.zero_add _).symm
    | ⟨1, _⟩ => (Nat.zero_add _).symm
    | ⟨2, _⟩ => h2
    | ⟨3, _⟩ => h3

/-- Dropping the unit third axis of a rank-4 vector: entry (a, b, k) is the source's entry (a, b, 0, k). -/
theorem dropUnit3 {n0 n1 n : Nat} (X : (⟨4, ![n0, n1, 1, n]⟩ : Shape).Idx → EReal)
    (h : (⟨4, ![n0, n1, 1, n]⟩ : Shape).ShapeCasts ⟨3, ![n0, n1, n]⟩) (a : Fin n0) (b : Fin n1) (k : Fin n) :
    shapeCast ⟨3, ![n0, n1, n]⟩ X h (ix3 a b k) = X (ix4 a b 0 k) :=
  shapeCast_apply X h _ _ (by
    rw [Shape.rowMajor_val_four, Shape.rowMajor_val_three]
    show ((a.val * n1 + b.val) * 1 + 0) * n + k.val = (a.val * n1 + b.val) * n + k.val
    rw [Nat.mul_one, Nat.add_zero])

/-! ## The foot kernel's entries -/

/-- The height plane of the tile: the axis-1 slice with its unit axis dropped reads the height at (b, f, 1, k). -/
theorem height_apply (y : Vec Ideal S16x4x3x2048 .f32) (b : Fin 16) (f : Fin 4) (k : Fin 2048) :
    shapeCast S16x4x2048 (extractStridedSlice S16x4x1x2048 ![0, 0, 1, 0] y slices_S16x4x3x2048_o0_0_1_0_S16x4x1x2048)
        shapeCasts_S16x4x1x2048_S16x4x2048 (ix3 b f k) = y (ix4 b f 1 k) :=
  (dropUnit3 _ _ b f k).trans
    (slice4_last2 1 0 y slices_S16x4x3x2048_o0_0_1_0_S16x4x1x2048 b f 0 k 1 k rfl (Nat.zero_add _).symm)

/-- A horizontal plane (axis c = 0 or 2) of the tile cut from frame offset o, with its unit axis dropped, reads the
    coordinate at (b, f, c, o + k). -/
theorem plane_apply (y : Vec Ideal S16x4x3x2048 .f32) (oc o : Nat)
    (hsl : S16x4x3x2048.Slices ![0, 0, oc, o] S16x4x1x2047) (b : Fin 16) (f : Fin 4) (k : Fin 2047)
    (c : Fin 3) (k' : Fin 2048) (hc : c.val = oc + (0 : Fin 1).val) (hk : k'.val = o + k.val) :
    shapeCast S16x4x2047 (extractStridedSlice S16x4x1x2047 ![0, 0, oc, o] y hsl)
        shapeCasts_S16x4x1x2047_S16x4x2047 (ix3 b f k) = y (ix4 b f c k') :=
  (dropUnit3 _ _ b f k).trans (slice4_last2 oc o y hsl b f 0 k c k' hc hk)

/-- The contact-weight step of the tile at (b, f, k): the mean of the logistic weights of frames k + 1 and k. -/
theorem contact_entry (y : Vec Ideal S16x4x3x2048 .f32) (b : Fin 16) (f : Fin 4) (k : Fin 2047) :
    k1_pay5 y (ix3 b f k) = contactVelAt (fun k => y (ix4 b f 1 k)) k := by
  unfold k1_pay5 k1_pay4
  rw [shapeCast_self]
  refine congrArg (· * Ideal.ofBits .f32 0x3F000000#32) ?_
  refine congrArg₂ (· + ·) ?_ ?_
  · refine (slice3_last 1 _ slices_S16x4x2048_o0_0_1_S16x4x2047 b f k (nxt k) (Nat.add_comm _ _)).trans ?_
    show Ideal.logistic ((_ - _) * _) = _
    rw [height_apply]
    rfl
  · refine (slice3_last 0 _ slices_S16x4x2048_o0_0_0_S16x4x2047 b f k (cur k) (Nat.zero_add _).symm).trans ?_
    show Ideal.logistic ((_ - _) * _) = _
    rw [height_apply]
    rfl

theorem pay_recon (x0 x1 : Vec Ideal S128x6x2048 .f32) (a : Vec Ideal S1x1 .f32) :
    k0_pay5 x0 x1 a = fun i => a i + ∑ r : Fin 128, ∑ c : Fin 6, ∑ k : Fin 2048,
      (x0 (ix3 r c k) - x1 (ix3 r c k)) * (x0 (ix3 r c k) - x1 (ix3 r c k)) := by
  unfold k0_pay5 k0_pay3 k0_pay4
  refine (tail_total _ a _ _ _ _).trans ?_
  funext i
  refine congrArg (a i + ·) ?_
  rw [sum_shapeCast, sum_idx3]
  refine Finset.sum_congr rfl fun r _ => Finset.sum_congr rfl fun c _ => Finset.sum_congr rfl fun k _ => ?_
  rw [shapeCast_self, shapeCast_self]
  rfl

theorem pay_vel (x0 x1 : Vec Ideal S128x6x2048 .f32) (a : Vec Ideal S1x1 .f32) :
    k0_pay6 x0 x1 a = fun i => a i + ∑ r : Fin 128, ∑ c : Fin 6, ∑ k : Fin 2047,
      ((x0 (ix3 r c (nxt k)) - x0 (ix3 r c (cur k))) - (x1 (ix3 r c (nxt k)) - x1 (ix3 r c (cur k))))
        * ((x0 (ix3 r c (nxt k)) - x0 (ix3 r c (cur k))) - (x1 (ix3 r c (nxt k)) - x1 (ix3 r c (cur k)))) := by
  unfold k0_pay6 k0_pay3 k0_pay4
  refine (tail_total _ a _ _ _ _).trans ?_
  funext i
  refine congrArg (a i + ·) ?_
  rw [sum_shapeCast, sum_idx3]
  refine Finset.sum_congr rfl fun r _ => Finset.sum_congr rfl fun c _ => Finset.sum_congr rfl fun k _ => ?_
  rw [shapeCast_self, shapeCast_self]
  have n0 := slice3_last 1 x0 slices_S128x6x2048_o0_0_1_S128x6x2047 r c k (nxt k) (Nat.add_comm _ _)
  have c0 := slice3_last 0 x0 slices_S128x6x2048_o0_0_0_S128x6x2047 r c k (cur k) (Nat.zero_add _).symm
  have n1 := slice3_last 1 x1 slices_S128x6x2048_o0_0_1_S128x6x2047 r c k (nxt k) (Nat.add_comm _ _)
  have c1 := slice3_last 0 x1 slices_S128x6x2048_o0_0_0_S128x6x2047 r c k (cur k) (Nat.zero_add _).symm
  show (_ - _ - (_ - _)) * (_ - _ - (_ - _)) = _
  rw [n0, c0, n1, c1]

theorem pay_slide (y : Vec Ideal S16x4x3x2048 .f32) (a : Vec Ideal S1x1 .f32) :
    k1_pay6 y a = fun i => a i + ∑ b : Fin 16, ∑ f : Fin 4, ∑ k : Fin 2047,
      slideAt (fun k => y (ix4 b f 0 k)) (fun k => y (ix4 b f 2 k)) (fun k => y (ix4 b f 1 k)) k := by
  unfold k1_pay6
  refine (tail_total _ a _ _ _ _).trans ?_
  funext i
  refine congrArg (a i + ·) ?_
  rw [sum_shapeCast, sum_idx3]
  refine Finset.sum_congr rfl fun b _ => Finset.sum_congr rfl fun f _ => Finset.sum_congr rfl fun k _ => ?_
  unfold k1_pay4 slideAt
  rw [shapeCast_self]
  have xn := plane_apply y 0 1 slices_S16x4x3x2048_o0_0_0_1_S16x4x1x2047 b f k 0 (nxt k) rfl (Nat.add_comm _ _)
  have xc := plane_apply y 0 0 slices_S16x4x3x2048_o0_0_0_0_S16x4x1x2047 b f k 0 (cur k) rfl (Nat.zero_add _).symm
  have zn := plane_apply y 2 1 slices_S16x4x3x2048_o0_0_2_1_S16x4x1x2047 b f k 2 (nxt k) rfl (Nat.add_comm _ _)
  have zc := plane_apply y 2 0 slices_S16x4x3x2048_o0_0_2_0_S16x4x1x2047 b f k 2 (cur k) rfl (Nat.zero_add _).symm
  show ((_ - _) * (_ - _) + (_ - _) * (_ - _)) * _ = _
  rw [xn, xc, zn, zc, contact_entry y b f k]

theorem pay_contact (y : Vec Ideal S16x4x3x2048 .f32) (a : Vec Ideal S1x1 .f32) :
    k1_pay1 (k1_pay5 y) a = fun i => a i + ∑ b : Fin 16, ∑ f : Fin 4, ∑ k : Fin 2047,
      contactVelAt (fun k => y (ix4 b f 1 k)) k := by
  unfold k1_pay1
  refine (tail_total _ a _ _ _ _).trans ?_
  funext i
  refine congrArg (a i + ·) ?_
  rw [sum_shapeCast, sum_idx3]
  exact Finset.sum_congr rfl fun b _ => Finset.sum_congr rfl fun f _ => Finset.sum_congr rfl fun k _ =>
    contact_entry y b f k

end Cert.KernelIdeal.HandPay

end
-- ==== Proof.KSums.lean ====
/-
  The kernel's tile-by-tile sums are the whole sums: the 12 tiles of 128 merged batch-joint rows (row R is batch R / 24,
  joint R % 24) exhaust the 64 batches of 24 joints, and the 4 tiles of 16 batches exhaust the 64 batches. Pure
  regrouping of finite sums in an additive commutative monoid (the extended reals): no finiteness is used.
-/
import proofs.«108107_j59631325938492_1_alg».proof.Proof.Spec
import proofs.«108107_j59631325938492_1_alg».proof.Proof.KPay

noncomputable section

open scoped BigOperators

namespace MotionLoss

open Idealize.ShloMosaic Idealize.ShloMosaic.ValueIdx Cert.KernelIdeal.HandPay

/-- A double sum over the 12 tiles of 128 merged rows, each row read as (batch R / 24, joint R % 24), is the double sum
    over the 64 batches and the 24 joints. -/
theorem rows_regroup {M : Type*} [AddCommMonoid M] (G : Fin 64 → Fin 24 → M) :
    ∑ tt : Fin 12, ∑ r : Fin 128, G ⟨(128 * tt.val + r.val) / 24, by omega⟩ ⟨(128 * tt.val + r.val) % 24, by omega⟩
      = ∑ b : Fin 64, ∑ j : Fin 24, G b j := by
  have h := sum_rows_tiles (fun R : Fin 1536 => G ⟨R.val / 24, by omega⟩ ⟨R.val % 24, by omega⟩)
  refine h.trans ?_
  refine Finset.sum_congr rfl fun b _ => Finset.sum_congr rfl fun j _ => ?_
  have hb : (⟨(24 * b.val + j.val) / 24, by omega⟩ : Fin 64) = b := Fin.ext (by show (24 * b.val + j.val) / 24 = b.val; omega)
  have hj : (⟨(24 * b.val + j.val) % 24, by omega⟩ : Fin 24) = j := Fin.ext (by show (24 * b.val + j.val) % 24 = j.val; omega)
  show G ⟨(24 * b.val + j.val) / 24, _⟩ ⟨(24 * b.val + j.val) % 24, _⟩ = G b j
  rw [hb, hj]

/-- The squared reconstruction error, tile by tile. -/
theorem recon_tiles (p t : Rot.Idx → EReal) :
    ∑ tt : Fin 12, ∑ r : Fin 128, ∑ c : Fin 6, ∑ k : Fin 2048,
        (p (ix4 ⟨(128 * tt.val + r.val) / 24, by omega⟩ ⟨(128 * tt.val + r.val) % 24, by omega⟩ c k) - t (ix4 ⟨(128 * tt.val + r.val) / 24, by omega⟩ ⟨(128 * tt.val + r.val) % 24, by omega⟩ c k))
          * (p (ix4 ⟨(128 * tt.val + r.val) / 24, by omega⟩ ⟨(128 * tt.val + r.val) % 24, by omega⟩ c k) - t (ix4 ⟨(128 * tt.val + r.val) / 24, by omega⟩ ⟨(128 * tt.val + r.val) % 24, by omega⟩ c k))
      = reconSum p t := by
  exact rows_regroup (fun b j => ∑ c : Fin 6, ∑ k : Fin 2048, sqErr p t b j c k)

/-- The squared velocity error, tile by tile. -/
theorem vel_tiles (p t : Rot.Idx → EReal) :
    ∑ tt : Fin 12, ∑ r : Fin 128, ∑ c : Fin 6, ∑ k : Fin 2047,
        ((p (ix4 ⟨(128 * tt.val + r.val) / 24, by omega⟩ ⟨(128 * tt.val + r.val) % 24, by omega⟩ c (nxt k)) - p (ix4 ⟨(128 * tt.val + r.val) / 24, by omega⟩ ⟨(128 * tt.val + r.val) % 24, by omega⟩ c (cur k)))
          - (t (ix4 ⟨(128 * tt.val + r.val) / 24, by omega⟩ ⟨(128 * tt.val + r.val) % 24, by omega⟩ c (nxt k)) - t (ix4 ⟨(128 * tt.val + r.val) / 24, by omega⟩ ⟨(128 * tt.val + r.val) % 24, by omega⟩ c (cur k))))
          * ((p (ix4 ⟨(128 * tt.val + r.val) / 24, by omega⟩ ⟨(128 * tt.val + r.val) % 24, by omega⟩ c (nxt k)) - p (ix4 ⟨(128 * tt.val + r.val) / 24, by omega⟩ ⟨(128 * tt.val + r.val) % 24, by omega⟩ c (cur k)))
          - (t (ix4 ⟨(128 * tt.val + r.val) / 24, by omega⟩ ⟨(128 * tt.val + r.val) % 24, by omega⟩ c (nxt k)) - t (ix4 ⟨(128 * tt.val + r.val) / 24, by omega⟩ ⟨(128 * tt.val + r.val) % 24, by omega⟩ c (cur k))))
      = velSum p t := by
  exact rows_regroup (fun b j => ∑ c : Fin 6, ∑ k : Fin 2047, velErr p t b j c k)

/-- The sliding penalty, tile by tile. -/
theorem slide_tiles (q : Pos.Idx → EReal) :
    ∑ tt : Fin 4, ∑ b : Fin 16, ∑ f : Fin 4, ∑ k : Fin 2047,
        slideAt (fun k => q (ix4 ⟨16 * tt.val + b.val, by omega⟩ (foot f) 0 k)) (fun k => q (ix4 ⟨16 * tt.val + b.val, by omega⟩ (foot f) 2 k)) (fun k => q (ix4 ⟨16 * tt.val + b.val, by omega⟩ (foot f) 1 k)) k
      = slideSum q := by
  exact sum_batch_tiles (fun B : Fin 64 => ∑ f : Fin 4, ∑ k : Fin 2047, slide q B f k)

/-- The contact weight of the frame steps, tile by tile. -/
theorem contact_tiles (q : Pos.Idx → EReal) :
    ∑ tt : Fin 4, ∑ b : Fin 16, ∑ f : Fin 4, ∑ k : Fin 2047,
        contactVelAt (fun k => q (ix4 ⟨16 * tt.val + b.val, by omega⟩ (foot f) 1 k)) k
      = contactSum q := by
  exact sum_batch_tiles (fun B : Fin 64 => ∑ f : Fin 4, ∑ k : Fin 2047, contactVel q B f k)

end MotionLoss

end
-- ==== Proof.KValue1.lean ====
/-
  What region 1's write-backs leave in its two outputs, in closed form over the argument: the sliding penalty and the
  contact weight of the frame steps, summed tile by tile over the 4 tiles of 16 batches of the four foot joints.
  Each running sum is, by induction on the tile, the sum of the tiles' contributions so far; the outputs are written
  back once, at the last tile, with the running sums the last tile leaves.
-/
import proofs.«108107_j59631325938492_1_alg».proof.Proof.Gen.KernelIdeal.Launch
import proofs.«108107_j59631325938492_1_alg».proof.Proof.Gen.KernelIdeal.Skeleton
import proofs.«108107_j59631325938492_1_alg».proof.Proof.Gen.KernelIdeal.Points
import proofs.«108107_j59631325938492_1_alg».proof.Proof.KBlocks
import proofs.«108107_j59631325938492_1_alg».proof.Proof.KPay
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx MotionLoss Cert.KernelIdeal.HandPay

variable (m : (ℓ : Loc nD τ sig) → Buf (Elt Ideal) ℓ) (ρ : Dev nD → PrngReg)

/-! ## One tile's contribution, over the argument -/

/-- The sliding penalty of tile tt: 16 batches of the four foot joints, every frame step. Zero past the grid. -/
def slideTile (c : Dev nD) (tt : ℕ) : EReal :=
  if h : tt < 4 then
    ∑ b : Fin 16, ∑ f : Fin 4, ∑ k : Fin 2047,
      slideAt (fun k => argPos m c (ix4 ⟨16 * tt + b.val, by omega⟩ (foot f) 0 k))
        (fun k => argPos m c (ix4 ⟨16 * tt + b.val, by omega⟩ (foot f) 2 k))
        (fun k => argPos m c (ix4 ⟨16 * tt + b.val, by omega⟩ (foot f) 1 k)) k
  else 0

/-- The contact weight of tile tt's frame steps. Zero past the grid. -/
def contactTile (c : Dev nD) (tt : ℕ) : EReal :=
  if h : tt < 4 then
    ∑ b : Fin 16, ∑ f : Fin 4, ∑ k : Fin 2047,
      contactVelAt (fun k => argPos m c (ix4 ⟨16 * tt + b.val, by omega⟩ (foot f) 1 k)) k
  else 0

/-- The tile's sliding penalty over its block is the one over the argument. -/
theorem slide_block (c : Dev nD) (t : Fin cfg1.N) (ht : t.val < 4) :
    (∑ b : Fin 16, ∑ f : Fin 4, ∑ k : Fin 2047,
      slideAt (fun k => footBlk (En1 m ρ) c t (ix4 b f 0 k)) (fun k => footBlk (En1 m ρ) c t (ix4 b f 2 k))
        (fun k => footBlk (En1 m ρ) c t (ix4 b f 1 k)) k) = slideTile m c t.val := by
  unfold slideTile
  rw [dif_pos ht]
  refine Finset.sum_congr rfl fun b _ => Finset.sum_congr rfl fun f _ => Finset.sum_congr rfl fun k _ => ?_
  rw [show (fun k => footBlk (En1 m ρ) c t (ix4 b f 0 k)) = fun k => argPos m c (ix4 ⟨16 * t.val + b.val, by omega⟩ (foot f) 0 k)
        from funext fun k => footBlk_apply m ρ c t ht b f 0 k,
    show (fun k => footBlk (En1 m ρ) c t (ix4 b f 2 k)) = fun k => argPos m c (ix4 ⟨16 * t.val + b.val, by omega⟩ (foot f) 2 k)
        from funext fun k => footBlk_apply m ρ c t ht b f 2 k,
    show (fun k => footBlk (En1 m ρ) c t (ix4 b f 1 k)) = fun k => argPos m c (ix4 ⟨16 * t.val + b.val, by omega⟩ (foot f) 1 k)
        from funext fun k => footBlk_apply m ρ c t ht b f 1 k]

/-- The tile's contact weight over its block is the one over the argument. -/
theorem contact_block (c : Dev nD) (t : Fin cfg1.N) (ht : t.val < 4) :
    (∑ b : Fin 16, ∑ f : Fin 4, ∑ k : Fin 2047, contactVelAt (fun k => footBlk (En1 m ρ) c t (ix4 b f 1 k)) k)
      = contactTile m c t.val := by
  unfold contactTile
  rw [dif_pos ht]
  refine Finset.sum_congr rfl fun b _ => Finset.sum_congr rfl fun f _ => Finset.sum_congr rfl fun k _ => ?_
  rw [show (fun k => footBlk (En1 m ρ) c t (ix4 b f 1 k)) = fun k => argPos m c (ix4 ⟨16 * t.val + b.val, by omega⟩ (foot f) 1 k)
        from funext fun k => footBlk_apply m ρ c t ht b f 1 k]

/-! ## The running sums, by induction on the tile -/

/-- After tile n the two running sums are the tiles' contributions up to n, summed. -/
theorem acc1_closed (c : Dev nD) (n : ℕ) (hn : n < cfg1.N) :
    acc1 (En1 m ρ) c n hn
      = ((fun _ => ∑ tt ∈ Finset.range (n + 1), slideTile m c tt),
         (fun _ => ∑ tt ∈ Finset.range (n + 1), contactTile m c tt)) := by
  have hN : cfg1.N = 4 := N_1
  induction n with
  | zero =>
    rw [acc1_zero, pay_slide, pay_contact, pay_zero_slide, pay_zero_contact]
    refine Prod.ext (funext fun i => ?_) (funext fun i => ?_)
    · show (0 : EReal) + _ = ∑ tt ∈ Finset.range (0 + 1), slideTile m c tt
      rw [zero_add, slide_block m ρ c ⟨0, hn⟩ (by omega), Finset.sum_range_one]
    · show (0 : EReal) + _ = ∑ tt ∈ Finset.range (0 + 1), contactTile m c tt
      rw [zero_add, contact_block m ρ c ⟨0, hn⟩ (by omega), Finset.sum_range_one]
  | succ n ih =>
    rw [acc1_succ, ih (Nat.lt_of_succ_lt hn), pay_slide, pay_contact]
    refine Prod.ext (funext fun i => ?_) (funext fun i => ?_)
    · show (∑ tt ∈ Finset.range (n + 1), slideTile m c tt) + _ = ∑ tt ∈ Finset.range (n + 1 + 1), slideTile m c tt
      rw [slide_block m ρ c ⟨n + 1, hn⟩ (by omega), Finset.sum_range_succ _ (n + 1)]
    · show (∑ tt ∈ Finset.range (n + 1), contactTile m c tt) + _ = ∑ tt ∈ Finset.range (n + 1 + 1), contactTile m c tt
      rw [contact_block m ρ c ⟨n + 1, hn⟩ (by omega), Finset.sum_range_succ _ (n + 1)]

/-! ## The write-back: the last tile's running sums reach the outputs -/

/-- Only the last tile writes output 0 back. -/
theorem last_of_flush1 (t : Fin cfg1.N) (hf : (cfg1.win 1).flush t = true) : t.val = 3 := by
  have h := (flush1_1 t).mp hf
  have hN : t.val < 4 := lt_of_lt_of_eq t.isLt (show cfg1.N = 4 from N_1)
  omega

/-- Only the last tile writes output 1 back. -/
theorem last_of_flush2 (t : Fin cfg1.N) (hf : (cfg1.win 2).flush t = true) : t.val = 3 := by
  have h := (flush1_2 t).mp hf
  have hN : t.val < 4 := lt_of_lt_of_eq t.isLt (show cfg1.N = 4 from N_1)
  omega

/-- The last tile. -/
abbrev tLast : Fin cfg1.N := ⟨3, by rw [show cfg1.N = 4 from N_1]; decide⟩

/-- The one index of output 0 lies in every tile's block of it. -/
theorem mem_blk1 (t : Fin cfg1.N) (i : S1x1.Idx) : i ∈ ((cfg1.win 1).blk t).view.set := by
  show i ∈ ((View.whole main_v20_0).slice (win1_1.rect t)).set
  rw [View.set_slice_whole, Rect.mem_set_unit]
  have h0 := idx2_lt0 i
  have h1 := idx2_lt1 i
  intro a
  match a with
  | ⟨0, _⟩ => show win1_1.index t (0 : Fin 2) * 1 ≤ (i 0).val ∧ (i 0).val < win1_1.index t (0 : Fin 2) * 1 + 1
              have e : win1_1.index t (0 : Fin 2) = 0 := rfl
              omega
  | ⟨1, _⟩ => show win1_1.index t (1 : Fin 2) * 1 ≤ (i 1).val ∧ (i 1).val < win1_1.index t (1 : Fin 2) * 1 + 1
              have e : win1_1.index t (1 : Fin 2) = 0 := rfl
              omega

/-- The one index of output 1 lies in every tile's block of it. -/
theorem mem_blk2 (t : Fin cfg1.N) (i : S1x1.Idx) : i ∈ ((cfg1.win 2).blk t).view.set := by
  show i ∈ ((View.whole main_v20_1).slice (win1_2.rect t)).set
  rw [View.set_slice_whole, Rect.mem_set_unit]
  have h0 := idx2_lt0 i
  have h1 := idx2_lt1 i
  intro a
  match a with
  | ⟨0, _⟩ => show win1_2.index t (0 : Fin 2) * 1 ≤ (i 0).val ∧ (i 0).val < win1_2.index t (0 : Fin 2) * 1 + 1
              have e : win1_2.index t (0 : Fin 2) = 0 := rfl
              omega
  | ⟨1, _⟩ => show win1_2.index t (1 : Fin 2) * 1 ≤ (i 1).val ∧ (i 1).val < win1_2.index t (1 : Fin 2) * 1 + 1
              have e : win1_2.index t (1 : Fin 2) = 0 := rfl
              omega

/-- The four tiles' sliding penalties, summed, as the [1,1] vector output 0 ends at. -/
def slideAll (c : Dev nD) : FVec Ideal S1x1 .f32 := fun _ => ∑ tt ∈ Finset.range 4, slideTile m c tt

/-- The four tiles' contact weights, summed, as the [1,1] vector output 1 ends at. -/
def contactAll (c : Dev nD) : FVec Ideal S1x1 .f32 := fun _ => ∑ tt ∈ Finset.range 4, contactTile m c tt

/-- Output 0 ends at the sum of the four tiles' sliding penalties. -/
theorem slide_final (c : Dev nD) :
    ((dat1 (En1 m ρ) c).arrAt 1 cfg1.N : FVec Ideal S1x1 .f32)
      = slideAll m c :=
  (dat1 (En1 m ρ) c).arrAt_eq_of_cover 1 (slideAll m c)
    (fun t hf => by
      have h3 := last_of_flush1 t hf
      show (cfg1.win 1).cut (grid1.coords t) ((dat1 (En1 m ρ) c).after 1 t) = _
      rw [after1_1, acc1_closed m ρ c t.val t.isLt]
      funext j
      show ∑ tt ∈ Finset.range (t.val + 1), slideTile m c tt = ∑ tt ∈ Finset.range 4, slideTile m c tt
      rw [h3])
    (fun i => ⟨tLast, (flush1_1 tLast).mpr rfl, mem_blk1 tLast i⟩)

/-- Output 1 ends at the sum of the four tiles' contact weights. -/
theorem contact_final (c : Dev nD) :
    ((dat1 (En1 m ρ) c).arrAt 2 cfg1.N : FVec Ideal S1x1 .f32)
      = contactAll m c :=
  (dat1 (En1 m ρ) c).arrAt_eq_of_cover 2 (contactAll m c)
    (fun t hf => by
      have h3 := last_of_flush2 t hf
      show (cfg1.win 2).cut (grid1.coords t) ((dat1 (En1 m ρ) c).after 2 t) = _
      rw [after1_2, acc1_closed m ρ c t.val t.isLt]
      funext j
      show ∑ tt ∈ Finset.range (t.val + 1), contactTile m c tt = ∑ tt ∈ Finset.range 4, contactTile m c tt
      rw [h3])
    (fun i => ⟨tLast, (flush1_2 tLast).mpr rfl, mem_blk2 tLast i⟩)

/-- Output 0 of region 1 ends at the sliding penalty summed over every tile. -/
theorem slide_out (c : Dev nD) :
    ((dat1 (En1 m ρ) c).arrAt 1 cfg1.N : FVec Ideal S1x1 .f32)
      = fun _ => ∑ tt : Fin 4, ∑ b : Fin 16, ∑ f : Fin 4, ∑ k : Fin 2047,
          slideAt (fun k => argPos m c (ix4 ⟨16 * tt.val + b.val, by omega⟩ (foot f) 0 k)) (fun k => argPos m c (ix4 ⟨16 * tt.val + b.val, by omega⟩ (foot f) 2 k)) (fun k => argPos m c (ix4 ⟨16 * tt.val + b.val, by omega⟩ (foot f) 1 k)) k := by
  rw [slide_final m ρ c]
  unfold slideAll
  funext _
  rw [← Fin.sum_univ_eq_sum_range (fun tt => slideTile m c tt) 4]
  refine Finset.sum_congr rfl fun tt _ => ?_
  unfold slideTile
  rw [dif_pos tt.isLt]

/-- Output 1 of region 1 ends at the frame steps' contact weight summed over every tile. -/
theorem contact_out (c : Dev nD) :
    ((dat1 (En1 m ρ) c).arrAt 2 cfg1.N : FVec Ideal S1x1 .f32)
      = fun _ => ∑ tt : Fin 4, ∑ b : Fin 16, ∑ f : Fin 4, ∑ k : Fin 2047,
          contactVelAt (fun k => argPos m c (ix4 ⟨16 * tt.val + b.val, by omega⟩ (foot f) 1 k)) k := by
  rw [contact_final m ρ c]
  unfold contactAll
  funext _
  rw [← Fin.sum_univ_eq_sum_range (fun tt => contactTile m c tt) 4]
  refine Finset.sum_congr rfl fun tt _ => ?_
  unfold contactTile
  rw [dif_pos tt.isLt]

end Cert.KernelIdeal.Hand

end
-- ==== Proof.KValue.lean ====
/-
  The idealized kernel program's result IS the loss of the specification.

  Region 0 keeps two running sums across its 12 tiles of 128 merged batch-joint rows. By induction on the tile, each
  running sum after tile n is the sum, over tiles 0 … n, of that tile's share: the tile's step adds the total of its
  entries to the running sum (from zero at the first tile), and the tile's entries are the argument arrays' entries at
  batch R / 24, joint R % 24 of the merged row R = 128 t + r. The two one-element outputs are written back once, at
  the last tile, and the one block covers the one-element array: so each output ends at the running sum the last tile
  leaves, the sum over all 12 tiles. Region 1's two outputs are the sums over its 4 tiles in the same way. The last
  stretch of host operations applied to the four sums is, after regrouping the tile-by-tile sums into the sums over
  batches and joints, the loss as the specification writes it.
-/
import proofs.«108107_j59631325938492_1_alg».proof.Proof.KBlocks
import proofs.«108107_j59631325938492_1_alg».proof.Proof.KPay
import proofs.«108107_j59631325938492_1_alg».proof.Proof.KSums
import proofs.«108107_j59631325938492_1_alg».proof.Proof.KValue1

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open MotionLoss Cert.KernelIdeal.HandPay

variable (m : (ℓ : Loc nD τ sig) → Buf (Elt Ideal) ℓ) (ρ : Dev nD → PrngReg)

/-! ## Region 0: what one tile adds, over the argument arrays -/

/-- Tile tt's share of the squared reconstruction error: its 128 merged batch-joint rows. -/
def reconTile (p t : Rot.Idx → EReal) (tt : ℕ) (h : tt < 12) : EReal :=
  ∑ r : Fin 128, ∑ c : Fin 6, ∑ k : Fin 2048,
    (p (ix4 ⟨(128 * tt + r.val) / 24, by omega⟩ ⟨(128 * tt + r.val) % 24, by omega⟩ c k) - t (ix4 ⟨(128 * tt + r.val) / 24, by omega⟩ ⟨(128 * tt + r.val) % 24, by omega⟩ c k))
      * (p (ix4 ⟨(128 * tt + r.val) / 24, by omega⟩ ⟨(128 * tt + r.val) % 24, by omega⟩ c k) - t (ix4 ⟨(128 * tt + r.val) / 24, by omega⟩ ⟨(128 * tt + r.val) % 24, by omega⟩ c k))

/-- Tile tt's share of the squared velocity error. -/
def velTile (p t : Rot.Idx → EReal) (tt : ℕ) (h : tt < 12) : EReal :=
  ∑ r : Fin 128, ∑ c : Fin 6, ∑ k : Fin 2047,
    ((p (ix4 ⟨(128 * tt + r.val) / 24, by omega⟩ ⟨(128 * tt + r.val) % 24, by omega⟩ c (nxt k)) - p (ix4 ⟨(128 * tt + r.val) / 24, by omega⟩ ⟨(128 * tt + r.val) % 24, by omega⟩ c (cur k)))
        - (t (ix4 ⟨(128 * tt + r.val) / 24, by omega⟩ ⟨(128 * tt + r.val) % 24, by omega⟩ c (nxt k)) - t (ix4 ⟨(128 * tt + r.val) / 24, by omega⟩ ⟨(128 * tt + r.val) % 24, by omega⟩ c (cur k))))
      * ((p (ix4 ⟨(128 * tt + r.val) / 24, by omega⟩ ⟨(128 * tt + r.val) % 24, by omega⟩ c (nxt k)) - p (ix4 ⟨(128 * tt + r.val) / 24, by omega⟩ ⟨(128 * tt + r.val) % 24, by omega⟩ c (cur k)))
        - (t (ix4 ⟨(128 * tt + r.val) / 24, by omega⟩ ⟨(128 * tt + r.val) % 24, by omega⟩ c (nxt k)) - t (ix4 ⟨(128 * tt + r.val) / 24, by omega⟩ ⟨(128 * tt + r.val) % 24, by omega⟩ c (cur k))))

/-- One tile's step of the first running sum adds that tile's share. -/
theorem recon_step (c : Dev nD) (t : Fin cfg0.N) (ht : t.val < 12) (a : Vec Ideal S1x1 .f32) :
    k0_pay5 (predBlk (En0 m ρ) c t) (targBlk (En0 m ρ) c t) a
      = fun i => a i + reconTile (argPred m c) (argTarg m c) t.val ht := by
  rw [pay_recon (predBlk (En0 m ρ) c t) (targBlk (En0 m ρ) c t) a]
  funext i
  refine congrArg (a i + ·) ?_
  unfold reconTile
  refine Finset.sum_congr rfl fun r _ => Finset.sum_congr rfl fun cc _ => Finset.sum_congr rfl fun k _ => ?_
  rw [predBlk_apply m ρ c t ht r cc k, targBlk_apply m ρ c t ht r cc k]

/-- One tile's step of the second running sum adds that tile's share. -/
theorem vel_step (c : Dev nD) (t : Fin cfg0.N) (ht : t.val < 12) (a : Vec Ideal S1x1 .f32) :
    k0_pay6 (predBlk (En0 m ρ) c t) (targBlk (En0 m ρ) c t) a
      = fun i => a i + velTile (argPred m c) (argTarg m c) t.val ht := by
  rw [pay_vel (predBlk (En0 m ρ) c t) (targBlk (En0 m ρ) c t) a]
  funext i
  refine congrArg (a i + ·) ?_
  unfold velTile
  refine Finset.sum_congr rfl fun r _ => Finset.sum_congr rfl fun cc _ => Finset.sum_congr rfl fun k _ => ?_
  rw [predBlk_apply m ρ c t ht r cc (nxt k), predBlk_apply m ρ c t ht r cc (cur k),
    targBlk_apply m ρ c t ht r cc (nxt k), targBlk_apply m ρ c t ht r cc (cur k)]

/-- The first running sum after tile n: the shares of tiles 0 … n, from zero. -/
theorem recon_closed (c : Dev nD) : ∀ (n : ℕ) (hn : n < cfg0.N) (h12 : n < 12),
    (acc0 (En0 m ρ) c n hn).1
      = fun _ => ∑ tt : Fin (n + 1), reconTile (argPred m c) (argTarg m c) tt.val (by have := tt.isLt; omega)
  | 0, hn, h12 => by
    rw [acc0_zero (En0 m ρ) c hn]
    dsimp only
    rw [recon_step m ρ c ⟨0, hn⟩ h12 (k0_pay1 (F := Ideal)), pay_zero_recon]
    funext i
    simp
  | n + 1, hn, h12 => by
    rw [acc0_succ (En0 m ρ) c n hn]
    dsimp only
    rw [recon_step m ρ c ⟨n + 1, hn⟩ h12, recon_closed c n (Nat.lt_of_succ_lt hn) (by omega)]
    funext i
    exact (Fin.sum_univ_castSucc (fun tt : Fin (n + 1 + 1) => reconTile (argPred m c) (argTarg m c) tt.val (by have := tt.isLt; omega))).symm

/-- The second running sum after tile n. -/
theorem vel_closed (c : Dev nD) : ∀ (n : ℕ) (hn : n < cfg0.N) (h12 : n < 12),
    (acc0 (En0 m ρ) c n hn).2
      = fun _ => ∑ tt : Fin (n + 1), velTile (argPred m c) (argTarg m c) tt.val (by have := tt.isLt; omega)
  | 0, hn, h12 => by
    rw [acc0_zero (En0 m ρ) c hn]
    dsimp only
    rw [vel_step m ρ c ⟨0, hn⟩ h12 (k0_pay2 (F := Ideal)), pay_zero_vel]
    funext i
    simp
  | n + 1, hn, h12 => by
    rw [acc0_succ (En0 m ρ) c n hn]
    dsimp only
    rw [vel_step m ρ c ⟨n + 1, hn⟩ h12, vel_closed c n (Nat.lt_of_succ_lt hn) (by omega)]
    funext i
    exact (Fin.sum_univ_castSucc (fun tt : Fin (n + 1 + 1) => velTile (argPred m c) (argTarg m c) tt.val (by have := tt.isLt; omega))).symm

/-! ## Region 0's two outputs after the run -/

/-- The one-element outputs' block index is zero on both axes at every tile. -/
private theorem idx_zero0_2 : ∀ (t : Fin cfg0.N) (a : Fin 2), win0_2.index t a = 0 :=
  (by decide +kernel : ∀ (t : Fin grid0.N) (a : Fin 2), win0_2.index t a = 0)

/-- Every index of the one-element array lies in the block of the first output at any tile. -/
private theorem mem_blk0_2 (t : Fin cfg0.N) (i : S1x1.Idx) : i ∈ ((cfg0.win 2).blk t).view.set := by
  show i ∈ ((View.whole main_v2_0).slice (win0_2.rect t)).set
  rw [View.set_slice_whole, Rect.mem_set_unit]
  intro a
  match a with
  | ⟨0, _⟩ =>
    show win0_2.index t (0 : Fin 2) * 1 ≤ (i 0).val ∧ (i 0).val < win0_2.index t (0 : Fin 2) * 1 + 1
    have hi : (i 0).val < 1 := (i 0).isLt
    have e := idx_zero0_2 t 0
    omega
  | ⟨1, _⟩ =>
    show win0_2.index t (1 : Fin 2) * 1 ≤ (i 1).val ∧ (i 1).val < win0_2.index t (1 : Fin 2) * 1 + 1
    have hi : (i 1).val < 1 := (i 1).isLt
    have e := idx_zero0_2 t 1
    omega

/-- The first output, written back once at the last tile, ends at the first running sum the last tile leaves. -/
theorem recon_out (c : Dev nD) :
    ((dat0 (En0 m ρ) c).arrAt 2 cfg0.N : FVec Ideal S1x1 .f32)
      = fun _ => ∑ tt : Fin 12, ∑ r : Fin 128, ∑ c' : Fin 6, ∑ k : Fin 2048,
          (argPred m c (ix4 ⟨(128 * tt.val + r.val) / 24, by omega⟩ ⟨(128 * tt.val + r.val) % 24, by omega⟩ c' k) - argTarg m c (ix4 ⟨(128 * tt.val + r.val) / 24, by omega⟩ ⟨(128 * tt.val + r.val) % 24, by omega⟩ c' k))
            * (argPred m c (ix4 ⟨(128 * tt.val + r.val) / 24, by omega⟩ ⟨(128 * tt.val + r.val) % 24, by omega⟩ c' k) - argTarg m c (ix4 ⟨(128 * tt.val + r.val) / 24, by omega⟩ ⟨(128 * tt.val + r.val) % 24, by omega⟩ c' k)) := by
  refine (dat0 (En0 m ρ) c).arrAt_eq_of_cover 2 _ (fun t hf => ?_) (fun i => ?_)
  · have h11 : t.val = 11 := by
      have h1 := (flush0_2 t).mp hf
      have h2 : t.val < 12 := lt_of_lt_of_eq t.isLt N_0
      omega
    obtain ⟨tv, htv⟩ := t
    simp only at h11
    subst h11
    show (cfg0.win 2).cut (grid0.coords ⟨11, htv⟩) ((dat0 (En0 m ρ) c).after 2 ⟨11, htv⟩) = _
    rw [after0_2 (En0 m ρ) c ⟨11, htv⟩]
    rw [recon_closed m ρ c 11 htv (by norm_num)]
    rfl
  · exact ⟨⟨11, by rw [show cfg0.N = 12 from N_0]; norm_num⟩, (flush0_2 _).mpr rfl, mem_blk0_2 _ i⟩

/-- The same for the second output. -/
private theorem idx_zero0_3 : ∀ (t : Fin cfg0.N) (a : Fin 2), win0_3.index t a = 0 :=
  (by decide +kernel : ∀ (t : Fin grid0.N) (a : Fin 2), win0_3.index t a = 0)

private theorem mem_blk0_3 (t : Fin cfg0.N) (i : S1x1.Idx) : i ∈ ((cfg0.win 3).blk t).view.set := by
  show i ∈ ((View.whole main_v2_1).slice (win0_3.rect t)).set
  rw [View.set_slice_whole, Rect.mem_set_unit]
  intro a
  match a with
  | ⟨0, _⟩ =>
    show win0_3.index t (0 : Fin 2) * 1 ≤ (i 0).val ∧ (i 0).val < win0_3.index t (0 : Fin 2) * 1 + 1
    have hi : (i 0).val < 1 := (i 0).isLt
    have e := idx_zero0_3 t 0
    omega
  | ⟨1, _⟩ =>
    show win0_3.index t (1 : Fin 2) * 1 ≤ (i 1).val ∧ (i 1).val < win0_3.index t (1 : Fin 2) * 1 + 1
    have hi : (i 1).val < 1 := (i 1).isLt
    have e := idx_zero0_3 t 1
    omega

/-- The second output ends at the second running sum the last tile leaves. -/
theorem vel_out (c : Dev nD) :
    ((dat0 (En0 m ρ) c).arrAt 3 cfg0.N : FVec Ideal S1x1 .f32)
      = fun _ => ∑ tt : Fin 12, ∑ r : Fin 128, ∑ c' : Fin 6, ∑ k : Fin 2047,
          ((argPred m c (ix4 ⟨(128 * tt.val + r.val) / 24, by omega⟩ ⟨(128 * tt.val + r.val) % 24, by omega⟩ c' (nxt k)) - argPred m c (ix4 ⟨(128 * tt.val + r.val) / 24, by omega⟩ ⟨(128 * tt.val + r.val) % 24, by omega⟩ c' (cur k)))
              - (argTarg m c (ix4 ⟨(128 * tt.val + r.val) / 24, by omega⟩ ⟨(128 * tt.val + r.val) % 24, by omega⟩ c' (nxt k)) - argTarg m c (ix4 ⟨(128 * tt.val + r.val) / 24, by omega⟩ ⟨(128 * tt.val + r.val) % 24, by omega⟩ c' (cur k))))
            * ((argPred m c (ix4 ⟨(128 * tt.val + r.val) / 24, by omega⟩ ⟨(128 * tt.val + r.val) % 24, by omega⟩ c' (nxt k)) - argPred m c (ix4 ⟨(128 * tt.val + r.val) / 24, by omega⟩ ⟨(128 * tt.val + r.val) % 24, by omega⟩ c' (cur k)))
              - (argTarg m c (ix4 ⟨(128 * tt.val + r.val) / 24, by omega⟩ ⟨(128 * tt.val + r.val) % 24, by omega⟩ c' (nxt k)) - argTarg m c (ix4 ⟨(128 * tt.val + r.val) / 24, by omega⟩ ⟨(128 * tt.val + r.val) % 24, by omega⟩ c' (cur k)))) := by
  refine (dat0 (En0 m ρ) c).arrAt_eq_of_cover 3 _ (fun t hf => ?_) (fun i => ?_)
  · have h11 : t.val = 11 := by
      have h1 := (flush0_3 t).mp hf
      have h2 : t.val < 12 := lt_of_lt_of_eq t.isLt N_0
      omega
    obtain ⟨tv, htv⟩ := t
    simp only at h11
    subst h11
    show (cfg0.win 3).cut (grid0.coords ⟨11, htv⟩) ((dat0 (En0 m ρ) c).after 3 ⟨11, htv⟩) = _
    rw [after0_3 (En0 m ρ) c ⟨11, htv⟩]
    rw [vel_closed m ρ c 11 htv (by norm_num)]
    rfl
  · exact ⟨⟨11, by rw [show cfg0.N = 12 from N_0]; norm_num⟩, (flush0_3 _).mpr rfl, mem_blk0_3 _ i⟩

/-! ## The result is the loss -/

/-- The result buffer at the end holds the loss of the three argument arrays. -/
theorem value_at (c : Dev nD) :
    St5 m ρ c (Proc.devRef .tc main_v28)
      = fun _ => MotionLoss.total (argPred m c) (argTarg m c) (argPos m c) := by
  rw [result_tail m ρ c, recon_out m ρ c, vel_out m ρ c, slide_out m ρ c, contact_out m ρ c]
  unfold lossTail
  funext i
  beta_reduce
  rw [recon_tiles (argPred m c) (argTarg m c), vel_tiles (argPred m c) (argTarg m c),
    slide_tiles (argPos m c), contact_tiles (argPos m c)]
  rfl

/-- Every weakly fair execution of the program from memory m ends with the result buffer at the loss of the three
    argument arrays, and the arguments as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28) = (fun _ => MotionLoss.total (argPred m c) (argTarg m c) (argPos m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (value_at m ρ c), (h c).2⟩) (run_result m ρ)

end Cert.KernelIdeal.Hand

end
-- ==== Proof.RefTerm.lean ====
/-
  The reference loss as a pure term of its three argument arrays.

  The reference computes, over predicted and target motion `a0 a1 : [64, 24, 6, 2048]` and joint
  positions `a2 : [64, 24, 3, 2048]` (batch, joint, channel, frame),

      loss = mean ((a0 - a1)²)  +  0.2 · mean ((Δa0 - Δa1)²)  +  0.1 · (Σ |v_xz|² · w) / (Σ w + 1e-8)

  where `Δ` is the difference of consecutive frames, the four foot joints are rows 7, 8, 10, 11 of
  `a2`, `v_xz` is the frame difference of a foot's x and z coordinates (channels 0 and 2), and
  `w` is the mean over two consecutive frames of the contact weight `1 / (1 + exp (-(0.05 - y) · 20))`
  of the foot's height `y` (channel 1). Each definition below is one tensor value of the program,
  written as the program's own operations composed in order; the values that several later
  operations read are the named ones.
-/
import proofs.«108107_j59631325938492_1_alg».proof.Proof.Gen.ReferenceIdeal

noncomputable section

namespace Cert.ReferenceIdeal.Hand

open Cert.ReferenceIdeal Cert.ReferenceIdeal.Gen Idealize.ShloMosaic

variable {F : FTy → Type} [FloatOps F]

/-! ## The two index columns -/

/-- The foot joints' row numbers `[7, 8, 10, 11]`, as the constant table holds them. -/
def footRows : IVec S4 32 := fun i => lit0 (S4.rowMajor i)

/-- The foot rows with a negative one wrapped by the joint count 24 (none is negative), as the
    `[4, 1]` column of start indices the gather reads. -/
def footIdx : IVec S4x1 32 :=
  broadcastInDim S4x1 ![0] bcast_S4_S4x1_0
    (select (cmpi .slt footRows (broadcastInDim S4 ![] bcast_S_S4 (constantI S_ 32 0#32)))
      (addi footRows (broadcastInDim S4 ![] bcast_S_S4 (constantI S_ 32 24#32)))
      footRows)

/-- The horizontal channels `[0, 2]` (x and z), as the constant table holds them. -/
def xzChans : IVec S2 32 := fun i => lit1 (S2.rowMajor i)

/-- The horizontal channels with a negative one wrapped by the channel count 3 (none is negative),
    as the `[2, 1]` column of start indices the gather reads. -/
def xzIdx : IVec S2x1 32 :=
  broadcastInDim S2x1 ![0] bcast_S2_S2x1_0
    (select (cmpi .slt xzChans (broadcastInDim S2 ![] bcast_S_S2 (constantI S_ 32 0#32)))
      (addi xzChans (broadcastInDim S2 ![] bcast_S_S2 (constantI S_ 32 3#32)))
      xzChans)

/-! ## The reconstruction and velocity terms -/

/-- `mean ((a0 - a1)²)`: the squared error summed over every axis, over the element count
    `64 · 24 · 6 · 2048 = 18874368`. -/
def reconTerm (a0 a1 : FVec F S64x24x6x2048 .f32) : FVec F S_ .f32 :=
  Host.divf
    (Host.reduceAdd (mulf (subf a0 a1) (subf a0 a1)) (constant (F := F) S_ .f32 0x00000000#32)
      reducesTo_S64x24x6x2048_S_d0_1_2_3 h_S_)
    (constant (F := F) S_ .f32 0x4B900000#32)

/-- The frame difference `x[…, t + 1] - x[…, t]` of a motion array. -/
def frameDiff (x : FVec F S64x24x6x2048 .f32) : FVec F S64x24x6x2047 .f32 :=
  subf (extractStridedSlice S64x24x6x2047 ![0, 0, 0, 1] x slices_S64x24x6x2048_S64x24x6x2047_0_0_0_1)
    (extractStridedSlice S64x24x6x2047 ![0, 0, 0, 0] x slices_S64x24x6x2048_S64x24x6x2047_0_0_0_0)

/-- The squared difference of the two arrays' frame differences. -/
def velSq (a0 a1 : FVec F S64x24x6x2048 .f32) : FVec F S64x24x6x2047 .f32 :=
  mulf (subf (frameDiff a0) (frameDiff a1)) (subf (frameDiff a0) (frameDiff a1))

/-- `mean ((Δa0 - Δa1)²)`: summed over every axis, over `64 · 24 · 6 · 2047 = 18865152`. -/
def velTerm (a0 a1 : FVec F S64x24x6x2048 .f32) : FVec F S_ .f32 :=
  Host.divf
    (Host.reduceAdd (velSq a0 a1) (constant (F := F) S_ .f32 0x00000000#32)
      reducesTo_S64x24x6x2047_S_d0_1_2_3 h_S_)
    (constant (F := F) S_ .f32 0x4B8FEE00#32)

/-! ## The foot-contact term -/

/-- The four foot joints' positions: rows `footIdx` of the joint axis, `[64, 4, 3, 2048]`. -/
def footPos (a2 : FVec F S64x24x3x2048 .f32) : FVec F S64x4x3x2048 .f32 :=
  Host.gather gather_S64x24x3x2048_S4x1_S64x4x3x2048_023_1_n_n_1_1_64132048 a2 footIdx

/-- The feet's heights: channel 1 of `footPos`, the unit axis dropped. -/
def footHeight (a2 : FVec F S64x24x3x2048 .f32) : FVec F S64x4x2048 .f32 :=
  shapeCast S64x4x2048
    (extractStridedSlice S64x4x1x2048 ![0, 0, 1, 0] (footPos a2) slices_S64x4x3x2048_S64x4x1x2048_0_0_1_0)
    shapeCasts_S64x4x1x2048_S64x4x2048

/-- The contact weight `1 / (1 + exp (-((0.05 - y) · 20)))` of each foot at each frame. -/
def contactW (a2 : FVec F S64x24x3x2048 .f32) : FVec F S64x4x2048 .f32 :=
  Host.divf (broadcastInDim S64x4x2048 ![] bcast_S_S64x4x2048 (constant (F := F) S_ .f32 0x3F800000#32))
    (addf (broadcastInDim S64x4x2048 ![] bcast_S_S64x4x2048 (constant (F := F) S_ .f32 0x3F800000#32))
      (Host.exp (Host.negf
        (mulf
          (subf (broadcastInDim S64x4x2048 ![] bcast_S_S64x4x2048 (constant (F := F) S_ .f32 0x3D4CCCCD#32))
            (footHeight a2))
          (broadcastInDim S64x4x2048 ![] bcast_S_S64x4x2048 (constant (F := F) S_ .f32 0x41A00000#32))))))

/-- The feet's frame differences, `[64, 4, 3, 2047]`. -/
def footVel (a2 : FVec F S64x24x3x2048 .f32) : FVec F S64x4x3x2047 .f32 :=
  subf (extractStridedSlice S64x4x3x2047 ![0, 0, 0, 1] (footPos a2) slices_S64x4x3x2048_S64x4x3x2047_0_0_0_1)
    (extractStridedSlice S64x4x3x2047 ![0, 0, 0, 0] (footPos a2) slices_S64x4x3x2048_S64x4x3x2047_0_0_0_0)

/-- The horizontal part of the feet's frame differences: channels `xzIdx`, `[64, 4, 2, 2047]`. -/
def velXZ (a2 : FVec F S64x24x3x2048 .f32) : FVec F S64x4x2x2047 .f32 :=
  Host.gather gather_S64x4x3x2047_S2x1_S64x4x2x2047_013_2_n_n_2_1_64412047 (footVel a2) xzIdx

/-- The contact weight of a frame step: the mean of the weights at its two frames. -/
def contactStep (a2 : FVec F S64x24x3x2048 .f32) : FVec F S64x4x2047 .f32 :=
  mulf
    (addf (extractStridedSlice S64x4x2047 ![0, 0, 1] (contactW a2) slices_S64x4x2048_S64x4x2047_0_0_1)
      (extractStridedSlice S64x4x2047 ![0, 0, 0] (contactW a2) slices_S64x4x2048_S64x4x2047_0_0_0))
    (broadcastInDim S64x4x2047 ![] bcast_S_S64x4x2047 (constant (F := F) S_ .f32 0x3F000000#32))

/-- The squared horizontal speed of each foot at each frame step: `v_x² + v_z²`. -/
def speedSq (a2 : FVec F S64x24x3x2048 .f32) : FVec F S64x4x2047 .f32 :=
  Host.reduceAdd (mulf (velXZ a2) (velXZ a2)) (constant (F := F) S_ .f32 0x00000000#32)
    reducesTo_S64x4x2x2047_S64x4x2047_d2 h_S_

/-- `(Σ |v_xz|² · w) / (Σ w + 1e-8)`. -/
def footTerm (a2 : FVec F S64x24x3x2048 .f32) : FVec F S_ .f32 :=
  Host.divf
    (Host.reduceAdd (mulf (speedSq a2) (contactStep a2)) (constant (F := F) S_ .f32 0x00000000#32)
      reducesTo_S64x4x2047_S_d0_1_2 h_S_)
    (addf
      (Host.reduceAdd (contactStep a2) (constant (F := F) S_ .f32 0x00000000#32)
        reducesTo_S64x4x2047_S_d0_1_2 h_S_)
      (constant (F := F) S_ .f32 0x322BCC77#32))

/-! ## The loss -/

/-- The value @main returns: `reconTerm + 0.2 · velTerm + 0.1 · footTerm`. -/
def refTerm (a0 a1 : FVec F S64x24x6x2048 .f32) (a2 : FVec F S64x24x3x2048 .f32) : FVec F S_ .f32 :=
  addf
    (addf (reconTerm a0 a1) (mulf (constant (F := F) S_ .f32 0x3E4CCCCD#32) (velTerm a0 a1)))
    (mulf (constant (F := F) S_ .f32 0x3DCCCCCD#32) (footTerm a2))

end Cert.ReferenceIdeal.Hand

end
-- ==== Proof.RefRun.lean ====
/-
  The reference program's run. @main is a straight line of 80 tensor operations and a return, with no
  kernel: listed in order, the line's run leaves every buffer at the fold of the operations' results over
  the launch contents. Read at the returned scalar the fold is the operations' functions composed in the
  program's order, which is the loss `refTerm` of the three argument arrays; the argument buffers are
  written by no operation and keep their launch contents.
-/
import proofs.«108107_j59631325938492_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 80 operations, in the program's order: the first 60 are its first window, the last 20 its second. -/
abbrev ops : List (HloOp τ sig (Elt F)) :=
  [ nullary main_c (fun i => lit0 (S4.rowMajor i)),
    nullary main_c_0 (fun i => lit1 (S2.rowMajor i)),
    binary main_arg0 main_arg1 main_v0 (subf : (⟨S64x24x6x2048, .f32⟩ : BufTy).Contents (Elt F) → (⟨S64x24x6x2048, .f32⟩ : BufTy).Contents (Elt F) → (⟨S64x24x6x2048, .f32⟩ : BufTy).Contents (Elt F)),
    binary main_v0 main_v0 main_v1 (mulf : (⟨S64x24x6x2048, .f32⟩ : BufTy).Contents (Elt F) → (⟨S64x24x6x2048, .f32⟩ : BufTy).Contents (Elt F) → (⟨S64x24x6x2048, .f32⟩ : BufTy).Contents (Elt F)),
    nullary main_cst (constant S_ .f32 0x00000000#32),
    binary main_v1 main_cst main_v2 ((fun x v => Host.reduceAdd x v reducesTo_S64x24x6x2048_S_d0_1_2_3 h_S_) : (⟨S64x24x6x2048, .f32⟩ : BufTy).Contents (Elt F) → (⟨S_, .f32⟩ : BufTy).Contents (Elt F) → (⟨S_, .f32⟩ : BufTy).Contents (Elt F)),
    nullary main_cst_1 (constant S_ .f32 0x4B900000#32),
    binary main_v2 main_cst_1 main_v3 (Host.divf : (⟨S_, .f32⟩ : BufTy).Contents (Elt F) → (⟨S_, .f32⟩ : BufTy).Contents (Elt F) → (⟨S_, .f32⟩ : BufTy).Contents (Elt F)),
    unary main_arg0 main_v4 ((extractStridedSlice S64x24x6x2047 ![0, 0, 0, 1] · slices_S64x24x6x2048_S64x24x6x2047_0_0_0_1) : (⟨S64x24x6x2048, .f32⟩ : BufTy).Contents (Elt F) → (⟨S64x24x6x2047, .f32⟩ : BufTy).Contents (Elt F)),
    unary main_arg0 main_v5 ((extractStridedSlice S64x24x6x2047 ![0, 0, 0, 0] · slices_S64x24x6x2048_S64x24x6x2047_0_0_0_0) : (⟨S64x24x6x2048, .f32⟩ : BufTy).Contents (Elt F) → (⟨S64x24x6x2047, .f32⟩ : BufTy).Contents (Elt F)),
    binary main_v4 main_v5 main_v6 (subf : (⟨S64x24x6x2047, .f32⟩ : BufTy).Contents (Elt F) → (⟨S64x24x6x2047, .f32⟩ : BufTy).Contents (Elt F) → (⟨S64x24x6x2047, .f32⟩ : BufTy).Contents (Elt F)),
    unary main_arg1 main_v7 ((extractStridedSlice S64x24x6x2047 ![0, 0, 0, 1] · slices_S64x24x6x2048_S64x24x6x2047_0_0_0_1) : (⟨S64x24x6x2048, .f32⟩ : BufTy).Contents (Elt F) → (⟨S64x24x6x2047, .f32⟩ : BufTy).Contents (Elt F)),
    unary main_arg1 main_v8 ((extractStridedSlice S64x24x6x2047 ![0, 0, 0, 0] · slices_S64x24x6x2048_S64x24x6x2047_0_0_0_0) : (⟨S64x24x6x2048, .f32⟩ : BufTy).Contents (Elt F) → (⟨S64x24x6x2047, .f32⟩ : BufTy).Contents (Elt F)),
    binary main_v7 main_v8 main_v9 (subf : (⟨S64x24x6x2047, .f32⟩ : BufTy).Contents (Elt F) → (⟨S64x24x6x2047, .f32⟩ : BufTy).Contents (Elt F) → (⟨S64x24x6x2047, .f32⟩ : BufTy).Contents (Elt F)),
    binary main_v6 main_v9 main_v10 (subf : (⟨S64x24x6x2047, .f32⟩ : BufTy).Contents (Elt F) → (⟨S64x24x6x2047, .f32⟩ : BufTy).Contents (Elt F) → (⟨S64x24x6x2047, .f32⟩ : BufTy).Contents (Elt F)),
    binary main_v10 main_v10 main_v11 (mulf : (⟨S64x24x6x2047, .f32⟩ : BufTy).Contents (Elt F) → (⟨S64x24x6x2047, .f32⟩ : BufTy).Contents (Elt F) → (⟨S64x24x6x2047, .f32⟩ : BufTy).Contents (Elt F)),
    nullary main_cst_2 (constant S_ .f32 0x00000000#32),
    binary main_v11 main_cst_2 main_v12 ((fun x v => Host.reduceAdd x v reducesTo_S64x24x6x2047_S_d0_1_2_3 h_S_) : (⟨S64x24x6x2047, .f32⟩ : BufTy).Contents (Elt F) → (⟨S_, .f32⟩ : BufTy).Contents (Elt F) → (⟨S_, .f32⟩ : BufTy).Contents (Elt F)),
    nullary main_cst_3 (constant S_ .f32 0x4B8FEE00#32),
    binary main_v12 main_cst_3 main_v13 (Host.divf : (⟨S_, .f32⟩ : BufTy).Contents (Elt F) → (⟨S_, .f32⟩ : BufTy).Contents (Elt F) → (⟨S_, .f32⟩ : BufTy).Contents (Elt F)),
    nullary main_c_4 (constantI S_ 32 0#32),
    unary main_c_4 main_v14 (broadcastInDim S4 ![] bcast_S_S4 : (⟨S_, .i32⟩ : BufTy).Contents (Elt F) → (⟨S4, .i32⟩ : BufTy).Contents (Elt F)),
    binary main_c main_v14 main_v15 (cmpi .slt : (⟨S4, .i32⟩ : BufTy).Contents (Elt F) → (⟨S4, .i32⟩ : BufTy).Contents (Elt F) → (⟨S4, .i1⟩ : BufTy).Contents (Elt F)),
    nullary main_c_5 (constantI S_ 32 24#32),
    unary main_c_5 main_v16 (broadcastInDim S4 ![] bcast_S_S4 : (⟨S_, .i32⟩ : BufTy).Contents (Elt F) → (⟨S4, .i32⟩ : BufTy).Contents (Elt F)),
    binary main_c main_v16 main_v17 (addi : (⟨S4, .i32⟩ : BufTy).Contents (Elt F) → (⟨S4, .i32⟩ : BufTy).Contents (Elt F) → (⟨S4, .i32⟩ : BufTy).Contents (Elt F)),
    ternary main_v15 main_v17 main_c main_v18 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v18 main_v19 (broadcastInDim S4x1 ![0] bcast_S4_S4x1_0 : (⟨S4, .i32⟩ : BufTy).Contents (Elt F) → (⟨S4x1, .i32⟩ : BufTy).Contents (Elt F)),
    binary main_arg2 main_v19 main_v20 ((fun x i => Host.gather gather_S64x24x3x2048_S4x1_S64x4x3x2048_023_1_n_n_1_1_64132048 x i) : (⟨S64x24x3x2048, .f32⟩ : BufTy).Contents (Elt F) → (⟨S4x1, .i32⟩ : BufTy).Contents (Elt F) → (⟨S64x4x3x2048, .f32⟩ : BufTy).Contents (Elt F)),
    unary main_v20 main_v21 ((extractStridedSlice S64x4x1x2048 ![0, 0, 1, 0] · slices_S64x4x3x2048_S64x4x1x2048_0_0_1_0) : (⟨S64x4x3x2048, .f32⟩ : BufTy).Contents (Elt F) → (⟨S64x4x1x2048, .f32⟩ : BufTy).Contents (Elt F)),
    reshape main_v21 main_v22 rfl shapeCasts_S64x4x1x2048_S64x4x2048,
    nullary main_cst_6 (constant S_ .f32 0x3D4CCCCD#32),
    unary main_cst_6 main_v23 (broadcastInDim S64x4x2048 ![] bcast_S_S64x4x2048 : (⟨S_, .f32⟩ : BufTy).Contents (Elt F) → (⟨S64x4x2048, .f32⟩ : BufTy).Contents (Elt F)),
    binary main_v23 main_v22 main_v24 (subf : (⟨S64x4x2048, .f32⟩ : BufTy).Contents (Elt F) → (⟨S64x4x2048, .f32⟩ : BufTy).Contents (Elt F) → (⟨S64x4x2048, .f32⟩ : BufTy).Contents (Elt F)),
    nullary main_cst_7 (constant S_ .f32 0x41A00000#32),
    unary main_cst_7 main_v25 (broadcastInDim S64x4x2048 ![] bcast_S_S64x4x2048 : (⟨S_, .f32⟩ : BufTy).Contents (Elt F) → (⟨S64x4x2048, .f32⟩ : BufTy).Contents (Elt F)),
    binary main_v24 main_v25 main_v26 (mulf : (⟨S64x4x2048, .f32⟩ : BufTy).Contents (Elt F) → (⟨S64x4x2048, .f32⟩ : BufTy).Contents (Elt F) → (⟨S64x4x2048, .f32⟩ : BufTy).Contents (Elt F)),
    unary main_v26 main_v27 (Host.negf : (⟨S64x4x2048, .f32⟩ : BufTy).Contents (Elt F) → (⟨S64x4x2048, .f32⟩ : BufTy).Contents (Elt F)),
    unary main_v27 main_v28 (Host.exp : (⟨S64x4x2048, .f32⟩ : BufTy).Contents (Elt F) → (⟨S64x4x2048, .f32⟩ : BufTy).Contents (Elt F)),
    nullary main_cst_8 (constant S_ .f32 0x3F800000#32),
    unary main_cst_8 main_v29 (broadcastInDim S64x4x2048 ![] bcast_S_S64x4x2048 : (⟨S_, .f32⟩ : BufTy).Contents (Elt F) → (⟨S64x4x2048, .f32⟩ : BufTy).Contents (Elt F)),
    binary main_v29 main_v28 main_v30 (addf : (⟨S64x4x2048, .f32⟩ : BufTy).Contents (Elt F) → (⟨S64x4x2048, .f32⟩ : BufTy).Contents (Elt F) → (⟨S64x4x2048, .f32⟩ : BufTy).Contents (Elt F)),
    nullary main_cst_9 (constant S_ .f32 0x3F800000#32),
    unary main_cst_9 main_v31 (broadcastInDim S64x4x2048 ![] bcast_S_S64x4x2048 : (⟨S_, .f32⟩ : BufTy).Contents (Elt F) → (⟨S64x4x2048, .f32⟩ : BufTy).Contents (Elt F)),
    binary main_v31 main_v30 main_v32 (Host.divf : (⟨S64x4x2048, .f32⟩ : BufTy).Contents (Elt F) → (⟨S64x4x2048, .f32⟩ : BufTy).Contents (Elt F) → (⟨S64x4x2048, .f32⟩ : BufTy).Contents (Elt F)),
    unary main_v20 main_v33 ((extractStridedSlice S64x4x3x2047 ![0, 0, 0, 1] · slices_S64x4x3x2048_S64x4x3x2047_0_0_0_1) : (⟨S64x4x3x2048, .f32⟩ : BufTy).Contents (Elt F) → (⟨S64x4x3x2047, .f32⟩ : BufTy).Contents (Elt F)),
    unary main_v20 main_v34 ((extractStridedSlice S64x4x3x2047 ![0, 0, 0, 0] · slices_S64x4x3x2048_S64x4x3x2047_0_0_0_0) : (⟨S64x4x3x2048, .f32⟩ : BufTy).Contents (Elt F) → (⟨S64x4x3x2047, .f32⟩ : BufTy).Contents (Elt F)),
    binary main_v33 main_v34 main_v35 (subf : (⟨S64x4x3x2047, .f32⟩ : BufTy).Contents (Elt F) → (⟨S64x4x3x2047, .f32⟩ : BufTy).Contents (Elt F) → (⟨S64x4x3x2047, .f32⟩ : BufTy).Contents (Elt F)),
    nullary main_c_10 (constantI S_ 32 0#32),
    unary main_c_10 main_v36 (broadcastInDim S2 ![] bcast_S_S2 : (⟨S_, .i32⟩ : BufTy).Contents (Elt F) → (⟨S2, .i32⟩ : BufTy).Contents (Elt F)),
    binary main_c_0 main_v36 main_v37 (cmpi .slt : (⟨S2, .i32⟩ : BufTy).Contents (Elt F) → (⟨S2, .i32⟩ : BufTy).Contents (Elt F) → (⟨S2, .i1⟩ : BufTy).Contents (Elt F)),
    nullary main_c_11 (constantI S_ 32 3#32),
    unary main_c_11 main_v38 (broadcastInDim S2 ![] bcast_S_S2 : (⟨S_, .i32⟩ : BufTy).Contents (Elt F) → (⟨S2, .i32⟩ : BufTy).Contents (Elt F)),
    binary main_c_0 main_v38 main_v39 (addi : (⟨S2, .i32⟩ : BufTy).Contents (Elt F) → (⟨S2, .i32⟩ : BufTy).Contents (Elt F) → (⟨S2, .i32⟩ : BufTy).Contents (Elt F)),
    ternary main_v37 main_v39 main_c_0 main_v40 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v40 main_v41 (broadcastInDim S2x1 ![0] bcast_S2_S2x1_0 : (⟨S2, .i32⟩ : BufTy).Contents (Elt F) → (⟨S2x1, .i32⟩ : BufTy).Contents (Elt F)),
    binary main_v35 main_v41 main_v42 ((fun x i => Host.gather gather_S64x4x3x2047_S2x1_S64x4x2x2047_013_2_n_n_2_1_64412047 x i) : (⟨S64x4x3x2047, .f32⟩ : BufTy).Contents (Elt F) → (⟨S2x1, .i32⟩ : BufTy).Contents (Elt F) → (⟨S64x4x2x2047, .f32⟩ : BufTy).Contents (Elt F)),
    unary main_v32 main_v43 ((extractStridedSlice S64x4x2047 ![0, 0, 1] · slices_S64x4x2048_S64x4x2047_0_0_1) : (⟨S64x4x2048, .f32⟩ : BufTy).Contents (Elt F) → (⟨S64x4x2047, .f32⟩ : BufTy).Contents (Elt F)),
    unary main_v32 main_v44 ((extractStridedSlice S64x4x2047 ![0, 0, 0] · slices_S64x4x2048_S64x4x2047_0_0_0) : (⟨S64x4x2048, .f32⟩ : BufTy).Contents (Elt F) → (⟨S64x4x2047, .f32⟩ : BufTy).Contents (Elt F)),
    binary main_v43 main_v44 main_v45 (addf : (⟨S64x4x2047, .f32⟩ : BufTy).Contents (Elt F) → (⟨S64x4x2047, .f32⟩ : BufTy).Contents (Elt F) → (⟨S64x4x2047, .f32⟩ : BufTy).Contents (Elt F)),
    nullary main_cst_12 (constant S_ .f32 0x3F000000#32),
    unary main_cst_12 main_v46 (broadcastInDim S64x4x2047 ![] bcast_S_S64x4x2047 : (⟨S_, .f32⟩ : BufTy).Contents (Elt F) → (⟨S64x4x2047, .f32⟩ : BufTy).Contents (Elt F)),
    binary main_v45 main_v46 main_v47 (mulf : (⟨S64x4x2047, .f32⟩ : BufTy).Contents (Elt F) → (⟨S64x4x2047, .f32⟩ : BufTy).Contents (Elt F) → (⟨S64x4x2047, .f32⟩ : BufTy).Contents (Elt F)),
    binary main_v42 main_v42 main_v48 (mulf : (⟨S64x4x2x2047, .f32⟩ : BufTy).Contents (Elt F) → (⟨S64x4x2x2047, .f32⟩ : BufTy).Contents (Elt F) → (⟨S64x4x2x2047, .f32⟩ : BufTy).Contents (Elt F)),
    nullary main_cst_13 (constant S_ .f32 0x00000000#32),
    binary main_v48 main_cst_13 main_v49 ((fun x v => Host.reduceAdd x v reducesTo_S64x4x2x2047_S64x4x2047_d2 h_S_) : (⟨S64x4x2x2047, .f32⟩ : BufTy).Contents (Elt F) → (⟨S_, .f32⟩ : BufTy).Contents (Elt F) → (⟨S64x4x2047, .f32⟩ : BufTy).Contents (Elt F)),
    binary main_v49 main_v47 main_v50 (mulf : (⟨S64x4x2047, .f32⟩ : BufTy).Contents (Elt F) → (⟨S64x4x2047, .f32⟩ : BufTy).Contents (Elt F) → (⟨S64x4x2047, .f32⟩ : BufTy).Contents (Elt F)),
    nullary main_cst_14 (constant S_ .f32 0x00000000#32),
    binary main_v47 main_cst_14 main_v51 ((fun x v => Host.reduceAdd x v reducesTo_S64x4x2047_S_d0_1_2 h_S_) : (⟨S64x4x2047, .f32⟩ : BufTy).Contents (Elt F) → (⟨S_, .f32⟩ : BufTy).Contents (Elt F) → (⟨S_, .f32⟩ : BufTy).Contents (Elt F)),
    nullary main_cst_15 (constant S_ .f32 0x322BCC77#32),
    binary main_v51 main_cst_15 main_v52 (addf : (⟨S_, .f32⟩ : BufTy).Contents (Elt F) → (⟨S_, .f32⟩ : BufTy).Contents (Elt F) → (⟨S_, .f32⟩ : BufTy).Contents (Elt F)),
    nullary main_cst_16 (constant S_ .f32 0x00000000#32),
    binary main_v50 main_cst_16 main_v53 ((fun x v => Host.reduceAdd x v reducesTo_S64x4x2047_S_d0_1_2 h_S_) : (⟨S64x4x2047, .f32⟩ : BufTy).Contents (Elt F) → (⟨S_, .f32⟩ : BufTy).Contents (Elt F) → (⟨S_, .f32⟩ : BufTy).Contents (Elt F)),
    binary main_v53 main_v52 main_v54 (Host.divf : (⟨S_, .f32⟩ : BufTy).Contents (Elt F) → (⟨S_, .f32⟩ : BufTy).Contents (Elt F) → (⟨S_, .f32⟩ : BufTy).Contents (Elt F)),
    nullary main_cst_17 (constant S_ .f32 0x3E4CCCCD#32),
    binary main_cst_17 main_v13 main_v55 (mulf : (⟨S_, .f32⟩ : BufTy).Contents (Elt F) → (⟨S_, .f32⟩ : BufTy).Contents (Elt F) → (⟨S_, .f32⟩ : BufTy).Contents (Elt F)),
    binary main_v3 main_v55 main_v56 (addf : (⟨S_, .f32⟩ : BufTy).Contents (Elt F) → (⟨S_, .f32⟩ : BufTy).Contents (Elt F) → (⟨S_, .f32⟩ : BufTy).Contents (Elt F)),
    nullary main_cst_18 (constant S_ .f32 0x3DCCCCCD#32),
    binary main_cst_18 main_v54 main_v57 (mulf : (⟨S_, .f32⟩ : BufTy).Contents (Elt F) → (⟨S_, .f32⟩ : BufTy).Contents (Elt F) → (⟨S_, .f32⟩ : BufTy).Contents (Elt F)),
    binary main_v56 main_v57 main_v58 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is the straight line of its operations: the two windows unfold and their binds re-associate by computation. -/
theorem main_eq (c : Dev nD) : main (F := F) c = seq ops := rfl

/-- The signature scopes no TensorCore buffer. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨nullary_bufs_sub .., nullary_bufs_sub .., binary_bufs_sub .., binary_bufs_sub .., nullary_bufs_sub .., binary_bufs_sub ..,
   nullary_bufs_sub .., binary_bufs_sub .., unary_bufs_sub .., unary_bufs_sub .., binary_bufs_sub .., unary_bufs_sub ..,
   unary_bufs_sub .., binary_bufs_sub .., binary_bufs_sub .., binary_bufs_sub .., nullary_bufs_sub .., binary_bufs_sub ..,
   nullary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., unary_bufs_sub ..,
   reshape_bufs_sub .., nullary_bufs_sub .., unary_bufs_sub .., binary_bufs_sub .., nullary_bufs_sub .., unary_bufs_sub ..,
   binary_bufs_sub .., unary_bufs_sub .., unary_bufs_sub .., nullary_bufs_sub .., unary_bufs_sub .., binary_bufs_sub ..,
   nullary_bufs_sub .., unary_bufs_sub .., binary_bufs_sub .., unary_bufs_sub .., unary_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub .., unary_bufs_sub .., unary_bufs_sub .., binary_bufs_sub ..,
   nullary_bufs_sub .., unary_bufs_sub .., binary_bufs_sub .., binary_bufs_sub .., nullary_bufs_sub .., binary_bufs_sub ..,
   binary_bufs_sub .., nullary_bufs_sub .., binary_bufs_sub .., nullary_bufs_sub .., binary_bufs_sub .., nullary_bufs_sub ..,
   binary_bufs_sub .., binary_bufs_sub .., nullary_bufs_sub .., binary_bufs_sub .., binary_bufs_sub .., nullary_bufs_sub ..,
   binary_bufs_sub .., binary_bufs_sub ..⟩

set_option maxRecDepth 8192 in
set_option maxHeartbeats 32000000 in
/-- On the one device, for any float values, from any memory with zero counters: every weakly fair execution of
    @main terminates with the returned scalar at `refTerm` of the three arguments' launch contents, and the
    arguments unchanged. Each buffer's final contents is the fold of the operations' results over the launch
    contents; read at the result buffer that fold is the operations' functions composed, which is `refTerm`
    with its named intermediates unfolded, and at an argument buffer, which no operation writes, it is what
    was there. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v58).trans (by after_results_simp <;> rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

end Cert.ReferenceIdeal.Hand

end
-- ==== Proof.RefValue.lean ====
/-
  The reference's value is the loss of the specification.

  The reference term (the composition of the program's host operations) is read stage by stage at an index, over the
  extended reals: the two constant index columns hold the foot joints 7, 8, 10, 11 and the horizontal channels 0, 2
  (none is negative, so the wrap by the axis size leaves them); each gather reads its operand at the row its start
  index names, every other coordinate kept; a slice along the frame axis from 1 (from 0) reads the next frame (the
  frame itself); the cast that drops the unit channel axis keeps the other coordinates; a scalar broadcast reads the
  scalar; 1 / (1 + exp (−x)) is the logistic; a sum over every axis from the zero word is the sum over every index,
  which is the iterated sum over the coordinates; the sum over the two-element channel axis is its two terms. Stage by
  stage the foot-contact chain becomes contact, contactVel and slide of the specification, the three full sums become
  reconSum, velSum, slideSum and contactSum, and the closing arithmetic is total's.
-/
import proofs.«108107_j59631325938492_1_alg».proof.Proof.RefTerm
import proofs.«108107_j59631325938492_1_alg».proof.Proof.Spec
import Idealize.ShloMosaic.Lib.IdealHost
import Idealize.ShloMosaic.Lib.ValueLayout
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx MotionLoss

/-! ## The two index columns -/

/-- The start-index column of the foot rows holds, in row f, the f-th foot joint's number. -/
theorem footIdx_apply (f : Fin 4) : (footIdx (ix2 f (0 : Fin 1))).toInt.toNat = (foot f).val := by
  fin_cases f <;> rfl

/-- The horizontal channels: x and z. -/
def xz : Fin 2 → Fin 3 := ![0, 2]

/-- The start-index column of the horizontal channels holds, in row c, the c-th channel's number. -/
theorem xzIdx_apply (c : Fin 2) : (xzIdx (ix2 c (0 : Fin 1))).toInt.toNat = (xz c).val := by
  fin_cases c <;> rfl

section Gather
variable {α : Type}

local notation "gd1" => gather_S64x24x3x2048_S4x1_S64x4x3x2048_023_1_n_n_1_1_64132048
local notation "gd2" => gather_S64x4x3x2047_S2x1_S64x4x2x2047_013_2_n_n_2_1_64412047

/-- The start-indices index the first gather reads for result index j: row (j 1) of the column. -/
theorem gd1_siIdx (j : S64x4x3x2048.Idx) (h : List.idxOf (1 : Fin 4) (gd1).startIndexMap < (gd1).startIndexMap.length) :
    (gd1).siIdx j ⟨List.idxOf (1 : Fin 4) (gd1).startIndexMap, h⟩ = ix2 (j 1) (0 : Fin 1) := by
  funext a
  refine Fin.ext ?_
  match a with
  | ⟨0, _⟩ => rfl
  | ⟨1, _⟩ => rfl

/-- The first gather read at (b, f, c, k): the operand at the row the start index of f names (read signed and clamped
    into the 24 joints) of the joint axis, every other coordinate kept. -/
theorem gather_rows_apply (x : S64x24x3x2048.Idx → α) (idx : IVec S4x1 32) (b : Fin 64) (f : Fin 4) (c : Fin 3) (k : Fin 2048) :
    Host.gather gd1 x idx (ix4 b f c k)
      = x (ix4 b ⟨min (idx (ix2 f (0 : Fin 1))).toInt.toNat 23, by omega⟩ c k) := by
  unfold Host.gather
  congr 1
  funext a
  refine Fin.ext ?_
  match a with
  | ⟨0, _⟩ =>
    show (gd1).start (ix4 b f c k) idx 0 + (gd1).batchCoord (ix4 b f c k) 0 + (gd1).offCoord (ix4 b f c k) 0 = b.val
    rw [show (gd1).start (ix4 b f c k) idx 0 = 0 from rfl, show (gd1).batchCoord (ix4 b f c k) 0 = 0 from rfl,
      show (gd1).offCoord (ix4 b f c k) 0 = b.val from rfl, Nat.zero_add]
  | ⟨1, _⟩ =>
    show (gd1).start (ix4 b f c k) idx 1 + (gd1).batchCoord (ix4 b f c k) 1 + (gd1).offCoord (ix4 b f c k) 1
      = min (idx (ix2 f (0 : Fin 1))).toInt.toNat 23
    rw [show (gd1).batchCoord (ix4 b f c k) 1 = 0 from rfl, show (gd1).offCoord (ix4 b f c k) 1 = 0 from rfl]
    unfold GatherDims.start
    rw [dif_pos (by decide), gd1_siIdx]
    rfl
  | ⟨2, _⟩ =>
    show (gd1).start (ix4 b f c k) idx 2 + (gd1).batchCoord (ix4 b f c k) 2 + (gd1).offCoord (ix4 b f c k) 2 = c.val
    rw [show (gd1).start (ix4 b f c k) idx 2 = 0 from rfl, show (gd1).batchCoord (ix4 b f c k) 2 = 0 from rfl,
      show (gd1).offCoord (ix4 b f c k) 2 = c.val from rfl, Nat.zero_add]
  | ⟨3, _⟩ =>
    show (gd1).start (ix4 b f c k) idx 3 + (gd1).batchCoord (ix4 b f c k) 3 + (gd1).offCoord (ix4 b f c k) 3 = k.val
    rw [show (gd1).start (ix4 b f c k) idx 3 = 0 from rfl, show (gd1).batchCoord (ix4 b f c k) 3 = 0 from rfl,
      show (gd1).offCoord (ix4 b f c k) 3 = k.val from rfl, Nat.zero_add]

/-- The start-indices index the second gather reads for result index j: row (j 2) of the column. -/
theorem gd2_siIdx (j : S64x4x2x2047.Idx) (h : List.idxOf (2 : Fin 4) (gd2).startIndexMap < (gd2).startIndexMap.length) :
    (gd2).siIdx j ⟨List.idxOf (2 : Fin 4) (gd2).startIndexMap, h⟩ = ix2 (j 2) (0 : Fin 1) := by
  funext a
  refine Fin.ext ?_
  match a with
  | ⟨0, _⟩ => rfl
  | ⟨1, _⟩ => rfl

/-- The second gather read at (b, f, c, k): the operand at the channel the start index of c names (read signed and
    clamped into the 3 channels), every other coordinate kept. -/
theorem gather_chans_apply (x : S64x4x3x2047.Idx → α) (idx : IVec S2x1 32) (b : Fin 64) (f : Fin 4) (c : Fin 2) (k : Fin 2047) :
    Host.gather gd2 x idx (ix4 b f c k)
      = x (ix4 b f ⟨min (idx (ix2 c (0 : Fin 1))).toInt.toNat 2, by omega⟩ k) := by
  unfold Host.gather
  congr 1
  funext a
  refine Fin.ext ?_
  match a with
  | ⟨0, _⟩ =>
    show (gd2).start (ix4 b f c k) idx 0 + (gd2).batchCoord (ix4 b f c k) 0 + (gd2).offCoord (ix4 b f c k) 0 = b.val
    rw [show (gd2).start (ix4 b f c k) idx 0 = 0 from rfl, show (gd2).batchCoord (ix4 b f c k) 0 = 0 from rfl,
      show (gd2).offCoord (ix4 b f c k) 0 = b.val from rfl, Nat.zero_add]
  | ⟨1, _⟩ =>
    show (gd2).start (ix4 b f c k) idx 1 + (gd2).batchCoord (ix4 b f c k) 1 + (gd2).offCoord (ix4 b f c k) 1 = f.val
    rw [show (gd2).start (ix4 b f c k) idx 1 = 0 from rfl, show (gd2).batchCoord (ix4 b f c k) 1 = 0 from rfl,
      show (gd2).offCoord (ix4 b f c k) 1 = f.val from rfl, Nat.zero_add]
  | ⟨2, _⟩ =>
    show (gd2).start (ix4 b f c k) idx 2 + (gd2).batchCoord (ix4 b f c k) 2 + (gd2).offCoord (ix4 b f c k) 2
      = min (idx (ix2 c (0 : Fin 1))).toInt.toNat 2
    rw [show (gd2).batchCoord (ix4 b f c k) 2 = 0 from rfl, show (gd2).offCoord (ix4 b f c k) 2 = 0 from rfl]
    unfold GatherDims.start
    rw [dif_pos (by decide), gd2_siIdx]
    rfl
  | ⟨3, _⟩ =>
    show (gd2).start (ix4 b f c k) idx 3 + (gd2).batchCoord (ix4 b f c k) 3 + (gd2).offCoord (ix4 b f c k) 3 = k.val
    rw [show (gd2).start (ix4 b f c k) idx 3 = 0 from rfl, show (gd2).batchCoord (ix4 b f c k) 3 = 0 from rfl,
      show (gd2).offCoord (ix4 b f c k) 3 = k.val from rfl, Nat.zero_add]

end Gather

section Layout
variable {α : Type}

/-- A [.., 2048] rank-4 array cut along its last axis from 1 reads, at frame step k, the source at the next frame. -/
theorem slice4_nxt {n0 n1 n2 : Nat} (X : (⟨4, ![n0, n1, n2, 2048]⟩ : Shape).Idx → α)
    (h : (⟨4, ![n0, n1, n2, 2048]⟩ : Shape).Slices ![0, 0, 0, 1] ⟨4, ![n0, n1, n2, 2047]⟩)
    (a : Fin n0) (b : Fin n1) (c : Fin n2) (k : Fin 2047) :
    extractStridedSlice ⟨4, ![n0, n1, n2, 2047]⟩ ![0, 0, 0, 1] X h (ix4 a b c k) = X (ix4 a b c (nxt k)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact Nat.add_comm _ _)

/-- The same array cut from 0 reads, at frame step k, the source at the frame itself. -/
theorem slice4_cur {n0 n1 n2 : Nat} (X : (⟨4, ![n0, n1, n2, 2048]⟩ : Shape).Idx → α)
    (h : (⟨4, ![n0, n1, n2, 2048]⟩ : Shape).Slices ![0, 0, 0, 0] ⟨4, ![n0, n1, n2, 2047]⟩)
    (a : Fin n0) (b : Fin n1) (c : Fin n2) (k : Fin 2047) :
    extractStridedSlice ⟨4, ![n0, n1, n2, 2047]⟩ ![0, 0, 0, 0] X h (ix4 a b c k) = X (ix4 a b c (cur k)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact (Nat.zero_add _).symm)

/-- A [.., 2048] rank-3 array cut along its last axis from 1 reads, at frame step k, the source at the next frame. -/
theorem slice3_nxt {n0 n1 : Nat} (X : (⟨3, ![n0, n1, 2048]⟩ : Shape).Idx → α)
    (h : (⟨3, ![n0, n1, 2048]⟩ : Shape).Slices ![0, 0, 1] ⟨3, ![n0, n1, 2047]⟩)
    (a : Fin n0) (b : Fin n1) (k : Fin 2047) :
    extractStridedSlice ⟨3, ![n0, n1, 2047]⟩ ![0, 0, 1] X h (ix3 a b k) = X (ix3 a b (nxt k)) :=
  extractStridedSlice_apply _ _ _ _ _ (fun ax => by
    match ax with
    | ⟨0, _⟩ => exact (Nat.zero_add _).symm
    | ⟨1, _⟩ => exact (Nat.zero_add _).symm
    | ⟨2, _⟩ => exact Nat.add_comm _ _)

/-- The same array cut from 0 reads, at frame step k, the source at the frame itself. -/
theorem slice3_cur {n0 n1 : Nat} (X : (⟨3, ![n0, n1, 2048]⟩ : Shape).Idx → α)
    (h : (⟨3, ![n0, n1, 2048]⟩ : Shape).Slices ![0, 0, 0] ⟨3, ![n0, n1, 2047]⟩)
    (a : Fin n0) (b : Fin n1) (k : Fin 2047) :
    extractStridedSlice ⟨3, ![n0, n1, 2047]⟩ ![0, 0, 0] X h (ix3 a b k) = X (ix3 a b (cur k)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- An [a, b, 1, d] array cast to [a, b, d] reads, at (i, j, k), the operand at (i, j, 0, k). -/
theorem shapeCast_ab1d_abd_apply {a b d : ℕ} (x : (⟨4, ![a, b, 1, d]⟩ : Shape).Idx → α)
    (h : (⟨4, ![a, b, 1, d]⟩ : Shape).ShapeCasts ⟨3, ![a, b, d]⟩) (i : Fin a) (j : Fin b) (k : Fin d) :
    shapeCast ⟨3, ![a, b, d]⟩ x h (ix3 i j k) = x (ix4 i j (0 : Fin 1) k) :=
  shapeCast_apply x h _ _ (by
    rw [Shape.rowMajor_val_four, Shape.rowMajor_val_three]
    show ((i.val * b + j.val) * 1 + 0) * d + k.val = (i.val * b + j.val) * d + k.val
    rw [Nat.mul_one, Nat.add_zero])

end Layout

section Reduce

/-- The host's sum over every axis, started from the zero word, is the sum over every index. -/
theorem reduceAll_apply {s : Shape} {axes : List (Fin s.rank)} (x : FVec Ideal s .f32) (h : s.ReducesTo axes S_)
    (hu : 0 < S_.numel) (j : S_.Idx) :
    Host.reduceAdd x (constant (F := Ideal) S_ .f32 0x00000000#32) h hu j = ∑ i : s.Idx, x i := by
  rw [hostReduceAdd_apply, Ideal.hostReduceAdd_total h (fun b => b.elim0), constant_apply, Ideal.ofBits_zero_f32, zero_add]

/-- The host's sum over the two-element axis 2 of a [64, 4, 2, 2047] array, started from the zero word, at (b, f, k):
    the two terms. -/
theorem reduceAxis2_apply (x : FVec Ideal S64x4x2x2047 .f32) (h : S64x4x2x2047.ReducesTo [2] S64x4x2047)
    (hu : 0 < S_.numel) (b : Fin 64) (f : Fin 4) (k : Fin 2047) :
    Host.reduceAdd x (constant (F := Ideal) S_ .f32 0x00000000#32) h hu (ix3 b f k)
      = x (ix4 b f (0 : Fin 2) k) + x (ix4 b f (1 : Fin 2) k) := by
  have hr : S64x4x2x2047.Reduces [2] S64x4x2047 := by decide
  rw [hostReduceAdd_apply, Ideal.hostReduceAdd_single h hr, constant_apply, Ideal.ofBits_zero_f32, zero_add]
  show ∑ c : Fin 2, x (hr.lift (ix3 b f k) c) = _
  rw [Fin.sum_univ_two]
  have e0 : hr.lift (ix3 b f k) (0 : Fin 2) = ix4 b f (0 : Fin 2) k := by
    funext a
    match a with
    | ⟨0, _⟩ => exact Fin.ext rfl
    | ⟨1, _⟩ => exact Fin.ext rfl
    | ⟨2, _⟩ => exact Fin.ext rfl
    | ⟨3, _⟩ => exact Fin.ext rfl
  have e1 : hr.lift (ix3 b f k) (1 : Fin 2) = ix4 b f (1 : Fin 2) k := by
    funext a
    match a with
    | ⟨0, _⟩ => exact Fin.ext rfl
    | ⟨1, _⟩ => exact Fin.ext rfl
    | ⟨2, _⟩ => exact Fin.ext rfl
    | ⟨3, _⟩ => exact Fin.ext rfl
  rw [e0, e1]

end Reduce

/-! ## The stages of the foot-contact term, read at an index -/

/-- The foot positions are the joint positions at the foot joints. -/
theorem footPos_apply (q : FVec Ideal S64x24x3x2048 .f32) (b : Fin 64) (f : Fin 4) (c : Fin 3) (k : Fin 2048) :
    footPos (F := Ideal) q (ix4 b f c k) = q (ix4 b (foot f) c k) := by
  unfold footPos
  rw [gather_rows_apply]
  congr 2
  refine Fin.ext ?_
  show min (footIdx (ix2 f (0 : Fin 1))).toInt.toNat 23 = (foot f).val
  rw [footIdx_apply]
  have := (foot f).isLt
  omega

/-- The foot heights are channel 1 of the foot joints' positions. -/
theorem footHeight_apply (q : FVec Ideal S64x24x3x2048 .f32) (b : Fin 64) (f : Fin 4) (k : Fin 2048) :
    footHeight (F := Ideal) q (ix3 b f k) = q (ix4 b (foot f) 1 k) := by
  unfold footHeight
  rw [shapeCast_ab1d_abd_apply, slice4_axis2_eq, footPos_apply]
  rfl

/-- The contact weight is the logistic of (0.05 − height) · 20. -/
theorem contactW_apply (q : FVec Ideal S64x24x3x2048 .f32) (b : Fin 64) (f : Fin 4) (k : Fin 2048) :
    contactW (F := Ideal) q (ix3 b f k) = contact q b f k := by
  unfold contactW contact
  rw [hostDivf_apply, addf_apply, broadcastInDim_scalar_apply, constant_apply, Ideal.ofBits_one_f32]
  show Ideal.div 1 (1 + Ideal.exp (-(mulf (subf (broadcastInDim S64x4x2048 ![] bcast_S_S64x4x2048 (constant (F := Ideal) S_ .f32 0x3D4CCCCD#32))
      (footHeight (F := Ideal) q)) (broadcastInDim S64x4x2048 ![] bcast_S_S64x4x2048 (constant (F := Ideal) S_ .f32 0x41A00000#32)) (ix3 b f k)))) = _
  rw [mulf_apply, subf_apply, broadcastInDim_scalar_apply, broadcastInDim_scalar_apply, constant_apply, constant_apply,
    footHeight_apply]
  rfl

/-- The contact weight of a frame step is the mean of its two frames'. -/
theorem contactStep_apply (q : FVec Ideal S64x24x3x2048 .f32) (b : Fin 64) (f : Fin 4) (k : Fin 2047) :
    contactStep (F := Ideal) q (ix3 b f k) = contactVel q b f k := by
  unfold contactStep contactVel
  rw [mulf_apply, addf_apply, slice3_nxt, slice3_cur, broadcastInDim_scalar_apply, constant_apply, contactW_apply,
    contactW_apply]

/-- The horizontal foot velocity: the frame difference of the foot joints' x and z coordinates. -/
theorem velXZ_apply (q : FVec Ideal S64x24x3x2048 .f32) (b : Fin 64) (f : Fin 4) (c : Fin 2) (k : Fin 2047) :
    velXZ (F := Ideal) q (ix4 b f c k) = q (ix4 b (foot f) (xz c) (nxt k)) - q (ix4 b (foot f) (xz c) (cur k)) := by
  unfold velXZ
  rw [gather_chans_apply]
  have hc : (⟨min (xzIdx (ix2 c (0 : Fin 1))).toInt.toNat 2, by omega⟩ : Fin 3) = xz c := by
    refine Fin.ext ?_
    show min (xzIdx (ix2 c (0 : Fin 1))).toInt.toNat 2 = (xz c).val
    rw [xzIdx_apply]
    have := (xz c).isLt
    omega
  rw [hc]
  unfold footVel
  rw [subf_apply, slice4_nxt, slice4_cur, footPos_apply, footPos_apply]

/-- The squared horizontal speed: the x and the z frame differences, squared and added. -/
theorem speedSq_apply (q : FVec Ideal S64x24x3x2048 .f32) (b : Fin 64) (f : Fin 4) (k : Fin 2047) :
    speedSq (F := Ideal) q (ix3 b f k)
      = (q (ix4 b (foot f) 0 (nxt k)) - q (ix4 b (foot f) 0 (cur k))) * (q (ix4 b (foot f) 0 (nxt k)) - q (ix4 b (foot f) 0 (cur k)))
        + (q (ix4 b (foot f) 2 (nxt k)) - q (ix4 b (foot f) 2 (cur k))) * (q (ix4 b (foot f) 2 (nxt k)) - q (ix4 b (foot f) 2 (cur k))) := by
  unfold speedSq
  rw [reduceAxis2_apply, mulf_apply, mulf_apply, velXZ_apply, velXZ_apply]
  rfl

/-! ## The three terms -/

/-- The reconstruction term: the sum of the squared errors over the element count. -/
theorem reconTerm_apply (p t : FVec Ideal S64x24x6x2048 .f32) (j : S_.Idx) :
    reconTerm (F := Ideal) p t j = Ideal.div (reconSum p t) (Ideal.ofBits .f32 0x4B900000#32) := by
  unfold reconTerm
  rw [hostDivf_apply, reduceAll_apply, sum_idx4, constant_apply]
  rfl

/-- The squared difference of the two arrays' frame differences is the squared velocity error. -/
theorem velSq_apply (p t : FVec Ideal S64x24x6x2048 .f32) (b : Fin 64) (j : Fin 24) (c : Fin 6) (k : Fin 2047) :
    velSq (F := Ideal) p t (ix4 b j c k) = velErr p t b j c k := by
  unfold velSq velErr frameDiff
  rw [mulf_apply, subf_apply, subf_apply, subf_apply, slice4_nxt, slice4_cur, slice4_nxt, slice4_cur]

/-- The velocity term: the sum of the squared velocity errors over the element count. -/
theorem velTerm_apply (p t : FVec Ideal S64x24x6x2048 .f32) (j : S_.Idx) :
    velTerm (F := Ideal) p t j = Ideal.div (velSum p t) (Ideal.ofBits .f32 0x4B8FEE00#32) := by
  unfold velTerm velSum
  rw [hostDivf_apply, reduceAll_apply, sum_idx4, constant_apply]
  simp only [velSq_apply]

/-- The foot-contact term: the summed sliding penalty over the summed contact weight plus 1e-8. -/
theorem footTerm_apply (q : FVec Ideal S64x24x3x2048 .f32) (j : S_.Idx) :
    footTerm (F := Ideal) q j
      = Ideal.div (slideSum q) (contactSum q + Ideal.ofBits .f32 0x322BCC77#32) := by
  unfold footTerm slideSum contactSum slide
  rw [hostDivf_apply, addf_apply, reduceAll_apply, reduceAll_apply, sum_idx3, sum_idx3, constant_apply]
  simp only [mulf_apply, speedSq_apply, contactStep_apply]

/-! ## The reference's value is the loss -/

/-- The reference term, at the extended reals, is the loss at every (the one) index. -/
theorem refTerm_eq (p t : FVec Ideal Cert.ReferenceIdeal.S64x24x6x2048 .f32) (q : FVec Ideal Cert.ReferenceIdeal.S64x24x3x2048 .f32) :
    refTerm (F := Ideal) p t q = fun _ => MotionLoss.total p t q := by
  funext j
  unfold refTerm total
  rw [addf_apply, addf_apply, mulf_apply, mulf_apply, constant_apply, constant_apply, reconTerm_apply, velTerm_apply,
    footTerm_apply]

end Cert.ReferenceIdeal.Hand

end
-- ==== Proof.lean ====
/-
  The certificate of the motion-diffusion loss kernel against its jnp reference.

  Both programs compute, from pred, target : [64, 24, 6, 2048] and joint_positions : [64, 24, 3, 2048],

      Σ (p − t)² / N₁  +  0.2 · Σ ((p⁺ − p) − (t⁺ − t))² / N₂  +  0.1 · Σ slide / (Σ contactVel + 1e-8)

  (Proof/Spec.lean: MotionLoss.total). The kernel program does it in two pallas_calls, each keeping two running sums in
  scratch across its grid (12 tiles of 128 merged batch-joint rows; 4 tiles of 16 batches of the four foot joints,
  which the host slices out and stacks), storing them at the last tile; the host then forms the quotients and the
  weighted sum. The reference takes each sum whole, selects the foot joints and the horizontal axes by a gather at
  constant indices, and spells the logistic as 1 / (1 + exp (−x)). On the extended reals addition is commutative and
  associative, so the order and grouping of the sums do not matter, the gather at constant in-range indices is the
  slice, and the two spellings of the logistic are one function: the two results are equal at every input, finite or
  not, and the precondition is never opened.

  Frames: the kernel program's (at both instances) is the run of its five segments — host stretch, region, host stretch,
  region, host stretch — with each region's proof data carrying the running sums in the region invariant
  (Proof/KI/Region0.lean, Region1.lean, Run.lean; the word-level program's modules are the same text at its namespace);
  no host operation and no region writes an argument. The reference's is its run with the result dropped
  (Proof/RefRun.lean). The ideal pass rewrote nothing, so the sanctioned-idealization conjunct is trivial.
  Values: Proof/KPay.lean reads what one tile adds to each sum, Proof/KBlocks.lean reads the tiles and the closing host
  operations in terms of the arguments, Proof/KSums.lean regroups the tiles into the whole sums, Proof/KValue.lean
  assembles the kernel program's result, Proof/RefValue.lean the reference's.
-/
import proofs.«108107_j59631325938492_1_alg».proof.Defs
import proofs.«108107_j59631325938492_1_alg».proof.Proof.Gen.Kernel
import proofs.«108107_j59631325938492_1_alg».proof.Proof.Gen.KernelIdeal
import proofs.«108107_j59631325938492_1_alg».proof.Proof.Gen.ReferenceIdeal
import proofs.«108107_j59631325938492_1_alg».proof.Proof.Gen.Pre_finite_inputs
import proofs.«108107_j59631325938492_1_alg».proof.Proof.K.Run
import proofs.«108107_j59631325938492_1_alg».proof.Proof.KValue
import proofs.«108107_j59631325938492_1_alg».proof.Proof.RefRun
import proofs.«108107_j59631325938492_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- From memories agreeing on the three arguments both idealized programs end at the loss of those arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.Hand.refTerm_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
